-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v91)) (v1 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_v87) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg6 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  main_v23

def fn {F : FTy → Type} [FloatOps F] (main_arg0 : FVec F S50000x128 .f32) (main_arg1 : IVec S2x800000 32) (main_arg2 : IVec S50000 32) (main_arg3 : FVec F S3x128x128 .f32) (main_arg4 : FVec F S3x128 .f32) (main_arg5 : FVec F S3x128x128 .f32) (main_arg6 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S50000x1 : Shape := ⟨2, ![50000, 1]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2000x128 : Shape := ⟨2, ![2000, 128]⟩
abbrev S50000x384 : Shape := ⟨2, ![50000, 384]⟩
abbrev S500x128 : Shape := ⟨2, ![500, 128]⟩
abbrev S2000x1 : Shape := ⟨2, ![2000, 1]⟩
abbrev S2000x500 : Shape := ⟨2, ![2000, 500]⟩
abbrev S500x384 : Shape := ⟨2, ![500, 384]⟩

abbrev nBuf : Space → Nat
  | .hbm => 117
  | .vmem => 54
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S3x128x128, .f32⟩
  | .hbm, ⟨4, _⟩ => ⟨S3x128, .f32⟩
  | .hbm, ⟨5, _⟩ => ⟨S3x128x128, .f32⟩
  | .hbm, ⟨6, _⟩ => ⟨S3x128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000x1, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000, .i32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000, .i32⟩
  | .hbm, ⟨33, _⟩ => ⟨S50000x128, .bf16⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .bf16⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S1x128x128, .f32⟩
  | .hbm, ⟨49, _⟩ => ⟨S128x128, .f32⟩
  | .hbm, ⟨50, _⟩ => ⟨S1x128, .f32⟩
  | .hbm, ⟨51, _⟩ => ⟨S128, .f32⟩
  | .hbm, ⟨52, _⟩ => ⟨S1x128x128, .f32⟩
  | .hbm, ⟨53, _⟩ => ⟨S128x128, .f32⟩
  | .hbm, ⟨54, _⟩ => ⟨S1x128, .f32⟩
  | .hbm, ⟨55, _⟩ => ⟨S128, .f32⟩
  | .hbm, ⟨56, _⟩ => ⟨S1x128, .f32⟩
  | .hbm, ⟨57, _⟩ => ⟨S1x128, .f32⟩
  | .hbm, ⟨58, _⟩ => ⟨S50000x128, .f32⟩
  | .hbm, ⟨59, _⟩ => ⟨S50000x128, .bf16⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x128, .bf16⟩
  | .hbm, ⟨69, _⟩ => ⟨S800000x128, .f32⟩
  | .hbm, ⟨70, _⟩ => ⟨S_, .f32⟩
  | .hbm, ⟨71, _⟩ => ⟨S50000x128, .f32⟩
  | .hbm, ⟨72, _⟩ => ⟨S800000x1, .i32⟩
  | .hbm, ⟨73, _⟩ => ⟨S50000x128, .f32⟩
  | .hbm, ⟨74, _⟩ => ⟨S1x128x128, .f32⟩
  | .hbm, ⟨75, _⟩ => ⟨S128x128, .f32⟩
  | .hbm, ⟨76, _⟩ => ⟨S1x128, .f32⟩
  | .hbm, ⟨77, _⟩ => ⟨S128, .f32⟩
  | .hbm, ⟨78, _⟩ => ⟨S1x128x128, .f32⟩
  | .hbm, ⟨79, _⟩ => ⟨S128x128, .f32⟩
  | .hbm, ⟨80, _⟩ => ⟨S1x128, .f32⟩
  | .hbm, ⟨81, _⟩ => ⟨S128, .f32⟩
  | .hbm, ⟨82, _⟩ => ⟨S1x128, .f32⟩
  | .hbm, ⟨83, _⟩ => ⟨S1x128, .f32⟩
  | .hbm, ⟨84, _⟩ => ⟨S50000x128, .f32⟩
  | .hbm, ⟨85, _⟩ => ⟨S50000x128, .bf16⟩
  | .hbm, ⟨86, _⟩ => ⟨S_, .i32⟩
  | .hbm, ⟨87, _⟩ => ⟨S800000, .i32⟩
  | .hbm, ⟨88, _⟩ => ⟨S800000, .i1⟩
  | .hbm, ⟨89, _⟩ => ⟨S_, .i32⟩
  | .hbm, ⟨90, _⟩ => ⟨S800000, .i32⟩
  | .hbm, ⟨91, _⟩ => ⟨S800000, .i32⟩
  | .hbm, ⟨92, _⟩ => ⟨S800000, .i32⟩
  | .hbm, ⟨93, _⟩ => ⟨S800000x1, .i32⟩
  | .hbm, ⟨94, _⟩ => ⟨S800000x128, .bf16⟩
  | .hbm, ⟨95, _⟩ => ⟨S800000x128, .f32⟩
  | .hbm, ⟨96, _⟩ => ⟨S_, .f32⟩
  | .hbm, ⟨97, _⟩ => ⟨S50000x128, .f32⟩
  | .hbm, ⟨98, _⟩ => ⟨S800000x1, .i32⟩
  | .hbm, ⟨99, _⟩ => ⟨S50000x128, .f32⟩
  | .hbm, ⟨100, _⟩ => ⟨S1x128x128, .f32⟩
  | .hbm, ⟨101, _⟩ => ⟨S128x128, .f32⟩
  | .hbm, ⟨102, _⟩ => ⟨S1x128, .f32⟩
  | .hbm, ⟨103, _⟩ => ⟨S128, .f32⟩
  | .hbm, ⟨104, _⟩ => ⟨S1x128x128, .f32⟩
  | .hbm, ⟨105, _⟩ => ⟨S128x128, .f32⟩
  | .hbm, ⟨106, _⟩ => ⟨S1x128, .f32⟩
  | .hbm, ⟨107, _⟩ => ⟨S128, .f32⟩
  | .hbm, ⟨108, _⟩ => ⟨S1x128, .f32⟩
  | .hbm, ⟨109, _⟩ => ⟨S1x128, .f32⟩
  | .hbm, ⟨110, _⟩ => ⟨S50000x128, .f32⟩
  | .hbm, ⟨111, _⟩ => ⟨S50000x128, .bf16⟩
  | .hbm, ⟨112, _⟩ => ⟨S50000x384, .f32⟩
  | .hbm, ⟨113, _⟩ => ⟨S500x128, .f32⟩
  | .hbm, ⟨114, _⟩ => ⟨S500x128, .f32⟩
  | .hbm, ⟨115, _⟩ => ⟨S500x128, .f32⟩
  | .hbm, ⟨116, _⟩ => ⟨S500x384, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .bf16⟩
  | .local _ .vmem, ⟨11, _⟩ => ⟨S2000x128, .bf16⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S2000x128, .bf16⟩
  | .local _ .vmem, ⟨23, _⟩ => ⟨S2000x128, .bf16⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | .local _ .vmem, ⟨34, _⟩ => ⟨S2000x128, .bf16⟩
  | .local _ .vmem, ⟨35, _⟩ => ⟨S2000x128, .bf16⟩
  | .local _ .vmem, ⟨36, _⟩ => ⟨S2000x1, .i32⟩
  | .local _ .vmem, ⟨37, _⟩ => ⟨S2000x1, .i32⟩
  | .local _ .vmem, ⟨38, _⟩ => ⟨S2000x128, .f32⟩
  | .local _ .vmem, ⟨39, _⟩ => ⟨S2000x128, .f32⟩
  | .local _ .vmem, ⟨40, _⟩ => ⟨S500x128, .f32⟩
  | .local _ .vmem, ⟨41, _⟩ => ⟨S500x128, .f32⟩
  | .local _ .vmem, ⟨42, _⟩ => ⟨S2000x1, .i32⟩
  | .local _ .vmem, ⟨43, _⟩ => ⟨S2000x1, .i32⟩
  | .local _ .vmem, ⟨44, _⟩ => ⟨S2000x128, .f32⟩
  | .local _ .vmem, ⟨45, _⟩ => ⟨S2000x128, .f32⟩
  | .local _ .vmem, ⟨46, _⟩ => ⟨S500x128, .f32⟩
  | .local _ .vmem, ⟨47, _⟩ => ⟨S500x128, .f32⟩
  | .local _ .vmem, ⟨48, _⟩ => ⟨S2000x1, .i32⟩
  | .local _ .vmem, ⟨49, _⟩ => ⟨S2000x1, .i32⟩
  | .local _ .vmem, ⟨50, _⟩ => ⟨S2000x128, .f32⟩
  | .local _ .vmem, ⟨51, _⟩ => ⟨S2000x128, .f32⟩
  | .local _ .vmem, ⟨52, _⟩ => ⟨S500x128, .f32⟩
  | .local _ .vmem, ⟨53, _⟩ => ⟨S500x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1_0 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42_0 : Ref sig .tc := ⟨.hbm, 58, rfl⟩
abbrev main_v42_1 : Ref sig .tc := ⟨.hbm, 59, rfl⟩
abbrev main_c_5 : Ref sig .tc := ⟨.hbm, 60, rfl⟩
abbrev main_v43 : Ref sig .tc := ⟨.hbm, 61, rfl⟩
abbrev main_v44 : Ref sig .tc := ⟨.hbm, 62, rfl⟩
abbrev main_c_6 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_7 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64_0 : Ref sig .tc := ⟨.hbm, 84, rfl⟩
abbrev main_v64_1 : Ref sig .tc := ⟨.hbm, 85, rfl⟩
abbrev main_c_8 : Ref sig .tc := ⟨.hbm, 86, rfl⟩
abbrev main_v65 : Ref sig .tc := ⟨.hbm, 87, rfl⟩
abbrev main_v66 : Ref sig .tc := ⟨.hbm, 88, rfl⟩
abbrev main_c_9 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_10 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86_0 : Ref sig .tc := ⟨.hbm, 110, rfl⟩
abbrev main_v86_1 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_scratch0 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_scratch0 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg1_1 : Ref sig .tc := ⟨.vmem, 51, rfl⟩
abbrev cc5_stg2_0 : Ref sig .tc := ⟨.vmem, 52, rfl⟩
abbrev cc5_scratch0 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem6_1 : DmaSem sig := 33
abbrev cc2_sem7_0 : DmaSem sig := 34
abbrev cc2_sem7_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc4_sem0_0 : DmaSem sig := 41
abbrev cc4_sem0_1 : DmaSem sig := 42
abbrev cc4_sem1_0 : DmaSem sig := 43
abbrev cc4_sem1_1 : DmaSem sig := 44
abbrev cc4_sem2_0 : DmaSem sig := 45
abbrev cc5_sem0_0 : DmaSem sig := 46
abbrev cc5_sem0_1 : DmaSem sig := 47
abbrev cc5_sem1_0 : DmaSem sig := 48
abbrev cc5_sem1_1 : DmaSem sig := 49
abbrev cc5_sem2_0 : DmaSem sig := 50

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2000x128 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def k3_cond2 (i : grid3.Coords) : BitVec 1 :=
  let arg0 : BitVec 32 := BitVec.ofNat 32 (i 0).val
  let c24_i32 : BitVec 32 := 24#32
  let v18 : BitVec 1 := Scalar.cmpi .eq arg0 c24_i32
  let v19 : BitVec 32 := Scalar.extui v18
  let c0_i32_8 : BitVec 32 := 0#32
  let v20 : BitVec 1 := Scalar.cmpi .ne v19 c0_i32_8
  v20

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x1 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S500x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![25], ![false]⟩

def k4_cond2 (i : grid4.Coords) : BitVec 1 :=
  let arg0 : BitVec 32 := BitVec.ofNat 32 (i 0).val
  let c24_i32 : BitVec 32 := 24#32
  let v18 : BitVec 1 := Scalar.cmpi .eq arg0 c24_i32
  let v19 : BitVec 32 := Scalar.extui v18
  let c0_i32_8 : BitVec 32 := 0#32
  let v20 : BitVec 1 := Scalar.cmpi .ne v19 c0_i32_8
  v20

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x1 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S500x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![25], ![false]⟩

def k5_cond2 (i : grid5.Coords) : BitVec 1 :=
  let arg0 : BitVec 32 := BitVec.ofNat 32 (i 0).val
  let c24_i32 : BitVec 32 := 24#32
  let v18 : BitVec 1 := Scalar.cmpi .eq arg0 c24_i32
  let v19 : BitVec 32 := Scalar.extui v18
  let c0_i32_8 : BitVec 32 := 0#32
  let v20 : BitVec 1 := Scalar.cmpi .ne v19 c0_i32_8
  v20

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S2000x1 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S500x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S50000_S50000x1 : S50000.ShapeCasts S50000x1
  bcast_S_S800000 : S_.BroadcastsInDim S800000 (![] : Fin 0 → Fin S800000.rank)
  bcast_S800000_S800000x1_0 : S800000.BroadcastsInDim S800000x1 (![0] : Fin 1 → Fin S800000x1.rank)
  bitsLt_bf16_f32 : FTy.bits .bf16 < FTy.bits .f32
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S50000x128_S50000x128_S50000x128_S50000x384_d1 : Shape.Concatenates [S50000x128, S50000x128, S50000x128] S50000x384 1
  inb_S500x128_S500x128_0_0 : ∀ a, (![0, 0] : Fin 2 → Nat) a + S500x128.size a ≤ S500x128.size a
  h_S500x128 : 0 < S500x128.numel
  shapeCasts_S500x128_S500x128 : S500x128.ShapeCasts S500x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x500_d1_w32 : S2000x500.Iotas .tc 32 [1]
  broadcasts_S2000x1_S2000x500 : S2000x1.Broadcasts S2000x500
  natLt_1_32 : 1 < 32
  concatenates_S500x128_S500x128_S500x128_S500x384_d1 : Shape.Concatenates [S500x128, S500x128, S500x128] S500x384 1
  gather_S800000_S800000x1_S800000_n_0_n_n_0_1_1_wf : GatherDims.WF S800000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x500_S2000x128_S500x128_0_0_1_1_n_n_wf : DotDims.WF S2000x500 S2000x128 S500x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .bf16 = 32 ∨ (Rect.block (s := S50000x128) S2000x128.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .bf16 = 32 ∨ (Rect.block (s := S50000x128) S2000x128.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S50000x128.size a
  hwx2_7 : ∀ i : grid2.Coords, EltTy.bits .bf16 = 32 ∨ (Rect.block (s := S50000x128) S2000x128.size (cc2_transform_7 i) (hinb2_7 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x1.size a ≤ S50000x1.size a
  hwx3_0 : ∀ i : grid3.Coords, EltTy.bits .i32 = 32 ∨ (Rect.block (s := S50000x1) S2000x1.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S500x128.size a ≤ S500x128.size a
  hwx3_2 : ∀ i : grid3.Coords, EltTy.bits .f32 = 32 ∨ (Rect.block (s := S500x128) S500x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x1.size a ≤ S50000x1.size a
  hwx4_0 : ∀ i : grid4.Coords, EltTy.bits .i32 = 32 ∨ (Rect.block (s := S50000x1) S2000x1.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S500x128.size a ≤ S500x128.size a
  hwx4_2 : ∀ i : grid4.Coords, EltTy.bits .f32 = 32 ∨ (Rect.block (s := S500x128) S500x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x1.size a ≤ S50000x1.size a
  hwx5_0 : ∀ i : grid5.Coords, EltTy.bits .i32 = 32 ∨ (Rect.block (s := S50000x1) S2000x1.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .f32 = 32 ∨ (Rect.block (s := S50000x128) S2000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S500x128.size a ≤ S500x128.size a
  hwx5_2 : ∀ i : grid5.Coords, EltTy.bits .f32 = 32 ∨ (Rect.block (s := S500x128) S500x128.size (cc5_transform_2 i) (hinb5_2 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S800000_S800000x1_S800000_n_0_n_n_0_1_1 : GatherDims S800000 S800000x1 S800000 where
  offsetDims := []
  collapsedSliceDims := [0]
  operandBatchingDims := []
  startIndicesBatchingDims := []
  startIndexMap := [0]
  indexVectorDim := 1
  sliceSizes := ![1]
  wf := gather_S800000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x500_S2000x128_S500x128_0_0_1_1_n_n : DotDims S2000x500 S2000x128 S500x128 where
  lhsContracting := [0]
  rhsContracting := [0]
  lhsNonContracting := [1]
  rhsNonContracting := [1]
  lhsBatch := []
  rhsBatch := []
  wf := dot_S2000x500_S2000x128_S500x128_0_0_1_1_n_n_wf

abbrev win0_0 : Pipeline.Window sig grid0 :=
  Pipeline.Window.ofSpec (Memref.whole main_v31) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v41) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v42_0) S2000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v42_1) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v53) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42_0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v55) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v62) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v63) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v64_0) S2000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v64_1) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v75) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64_0) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v77) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v84) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v81) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v85) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v86_0) S2000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v86_1) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v4) S2000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42_0) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v88) S500x128.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v4) S2000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v64_0) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v89) S500x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v4) S2000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v86_0) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v90) S500x128.size cc5_transform_2 reads5_2 true true 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S500x128 : Shape := ⟨2, ![500, 128]⟩
abbrev S50000x1 : Shape := ⟨2, ![50000, 1]⟩
abbrev S500x384 : Shape := ⟨2, ![500, 384]⟩
abbrev S50000x384 : Shape := ⟨2, ![50000, 384]⟩

abbrev nBuf : Space → Nat
  | .hbm => 133
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S3x128x128, .f32⟩
  | 4 => ⟨S3x128, .f32⟩
  | 5 => ⟨S3x128x128, .f32⟩
  | 6 => ⟨S3x128, .f32⟩
  | 7 => ⟨S1x800000, .i32⟩
  | 8 => ⟨S800000, .i32⟩
  | 9 => ⟨S1x800000, .i32⟩
  | 10 => ⟨S800000, .i32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x128, .f32⟩
  | 20 => ⟨S_, .f32⟩
  | 21 => ⟨S50000x128, .f32⟩
  | 22 => ⟨S800000x1, .i32⟩
  | 23 => ⟨S50000x128, .f32⟩
  | 24 => ⟨S50000x128, .f32⟩
  | 25 => ⟨S1x128x128, .f32⟩
  | 26 => ⟨S128x128, .f32⟩
  | 27 => ⟨S50000x128, .f32⟩
  | 28 => ⟨S1x128, .f32⟩
  | 29 => ⟨S128, .f32⟩
  | 30 => ⟨S1x128, .f32⟩
  | 31 => ⟨S50000x128, .f32⟩
  | 32 => ⟨S50000x128, .f32⟩
  | 33 => ⟨S_, .f32⟩
  | 34 => ⟨S50000x128, .f32⟩
  | 35 => ⟨S50000x128, .f32⟩
  | 36 => ⟨S1x128x128, .f32⟩
  | 37 => ⟨S128x128, .f32⟩
  | 38 => ⟨S50000x128, .f32⟩
  | 39 => ⟨S1x128, .f32⟩
  | 40 => ⟨S128, .f32⟩
  | 41 => ⟨S1x128, .f32⟩
  | 42 => ⟨S50000x128, .f32⟩
  | 43 => ⟨S50000x128, .f32⟩
  | 44 => ⟨S_, .f32⟩
  | 45 => ⟨S50000x128, .f32⟩
  | 46 => ⟨S50000x128, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x128, .f32⟩
  | 56 => ⟨S_, .f32⟩
  | 57 => ⟨S50000x128, .f32⟩
  | 58 => ⟨S800000x1, .i32⟩
  | 59 => ⟨S50000x128, .f32⟩
  | 60 => ⟨S50000x128, .f32⟩
  | 61 => ⟨S1x128x128, .f32⟩
  | 62 => ⟨S128x128, .f32⟩
  | 63 => ⟨S50000x128, .f32⟩
  | 64 => ⟨S1x128, .f32⟩
  | 65 => ⟨S128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S1x128x128, .f32⟩
  | 73 => ⟨S128x128, .f32⟩
  | 74 => ⟨S50000x128, .f32⟩
  | 75 => ⟨S1x128, .f32⟩
  | 76 => ⟨S128, .f32⟩
  | 77 => ⟨S1x128, .f32⟩
  | 78 => ⟨S50000x128, .f32⟩
  | 79 => ⟨S50000x128, .f32⟩
  | 80 => ⟨S_, .f32⟩
  | 81 => ⟨S50000x128, .f32⟩
  | 82 => ⟨S50000x128, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x128, .f32⟩
  | 92 => ⟨S_, .f32⟩
  | 93 => ⟨S50000x128, .f32⟩
  | 94 => ⟨S800000x1, .i32⟩
  | 95 => ⟨S50000x128, .f32⟩
  | 96 => ⟨S50000x128, .f32⟩
  | 97 => ⟨S1x128x128, .f32⟩
  | 98 => ⟨S128x128, .f32⟩
  | 99 => ⟨S50000x128, .f32⟩
  | 100 => ⟨S1x128, .f32⟩
  | 101 => ⟨S128, .f32⟩
  | 102 => ⟨S1x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S1x128x128, .f32⟩
  | 109 => ⟨S128x128, .f32⟩
  | 110 => ⟨S50000x128, .f32⟩
  | 111 => ⟨S1x128, .f32⟩
  | 112 => ⟨S128, .f32⟩
  | 113 => ⟨S1x128, .f32⟩
  | 114 => ⟨S50000x128, .f32⟩
  | 115 => ⟨S50000x128, .f32⟩
  | 116 => ⟨S_, .f32⟩
  | 117 => ⟨S50000x128, .f32⟩
  | 118 => ⟨S50000x128, .f32⟩
  | 119 => ⟨S_, .f32⟩
  | 120 => ⟨S500x128, .f32⟩
  | 121 => ⟨S50000x1, .i32⟩
  | 122 => ⟨S500x128, .f32⟩
  | 123 => ⟨S_, .f32⟩
  | 124 => ⟨S500x128, .f32⟩
  | 125 => ⟨S50000x1, .i32⟩
  | 126 => ⟨S500x128, .f32⟩
  | 127 => ⟨S_, .f32⟩
  | _ => ⟨S50000x128, .f32⟩

abbrev hbmTy0_1 (i : Nat) : BufTy := match i % 128 with
  | 0 => ⟨S500x128, .f32⟩
  | 1 => ⟨S50000x1, .i32⟩
  | 2 => ⟨S500x128, .f32⟩
  | 3 => ⟨S500x384, .f32⟩
  | 4 => ⟨S50000x384, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_c_3 : Ref sig .tc := ⟨.hbm, 47, rfl⟩
abbrev main_v35 : Ref sig .tc := ⟨.hbm, 48, rfl⟩
abbrev main_v36 : Ref sig .tc := ⟨.hbm, 49, rfl⟩
abbrev main_c_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_6 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_7 : Ref sig .tc := ⟨.hbm, 80, rfl⟩
abbrev main_v64 : Ref sig .tc := ⟨.hbm, 81, rfl⟩
abbrev main_v65 : Ref sig .tc := ⟨.hbm, 82, rfl⟩
abbrev main_c_8 : Ref sig .tc := ⟨.hbm, 83, rfl⟩
abbrev main_v66 : Ref sig .tc := ⟨.hbm, 84, rfl⟩
abbrev main_v67 : Ref sig .tc := ⟨.hbm, 85, rfl⟩
abbrev main_c_9 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_10 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_cst_11 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_cst_12 : Ref sig .tc := ⟨.hbm, 116, rfl⟩
abbrev main_v95 : Ref sig .tc := ⟨.hbm, 117, rfl⟩
abbrev main_v96 : Ref sig .tc := ⟨.hbm, 118, rfl⟩
abbrev main_cst_13 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_cst_14 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_cst_15 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S500x128 : S_.BroadcastsInDim S500x128 (![] : Fin 0 → Fin S500x128.rank)
  bcast_S50000_S50000x1_0 : S50000.BroadcastsInDim S50000x1 (![0] : Fin 1 → Fin S50000x1.rank)
  concatenates_S500x128_S500x128_S500x128_S500x384_d1 : Shape.Concatenates [S500x128, S500x128, S500x128] S500x384 1
  concatenates_S50000x128_S50000x128_S50000x128_S50000x384_d1 : Shape.Concatenates [S50000x128, S50000x128, S50000x128] S50000x384 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S500x128_S50000x1_S50000x128_1_0_0_1_wf : ScatterDims.WF S500x128 S50000x1 S50000x128 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S500x128_S50000x1_S50000x128_1_0_0_1 : ScatterDims S500x128 S50000x1 S50000x128 where
  updateWindowDims := [1]
  insertedWindowDims := [0]
  scatterDimsToOperandDims := [0]
  indexVectorDim := 1
  wf := scatter_S500x128_S50000x1_S50000x128_1_0_0_1_wf

class Facts : Prop extends Facts₀ where

variable [Facts]
-- ==== Proof.KI.Mlp0.lean ====
/- The class-A half of region 0 (custom_call 0, kernel function `cc0__mlp_kernel`, pipeline `cfg0`), at a
   parameter `V`: the TensorCore's buffer contents when the region is entered. Each window's block at a point
   (`iblk0`), what the body leaves in each output window's buffer (`out0_6`, `out0_7`), the body's triple
   (`sound_kernel0`), the proof data (`dat0`) and the body obligation (`body_obligation0`). Generic in the
   float type. -/
import proofs.«428858_j8770323218938_3_alg».proof.Proof.Gen.KernelIdeal.Launch
import proofs.«428858_j8770323218938_3_alg».proof.Proof.Gen.KernelIdeal.Skeleton
import proofs.«428858_j8770323218938_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: where the window is not fetched its block
    index has not moved, so the block of the point before is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: where the window is not fetched its block
    index has not moved, so the block of the point before is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: where the window is not fetched its block
    index has not moved, so the block of the point before is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: where the window is not fetched its block
    index has not moved, so the block of the point before is this point's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: where the window is not fetched its block
    index has not moved, so the block of the point before is this point's. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s and whose body leaves the block in place: where the window is not fetched its block
    index has not moved, so the block of the point before is this point's. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole-buffer rectangles the body loads and stores through. -/
abbrev r0_a : Rect S2000x128 := Rect.unit (s := S2000x128) ![0, 0] S2000x128.size inb_S2000x128_S2000x128_0_0
abbrev r0_b : Rect S128x128 := Rect.unit (s := S128x128) ![0, 0] S128x128.size inb_S128x128_S128x128_0_0
abbrev r0_c : Rect S1x128 := Rect.unit (s := S1x128) ![0, 0] S1x128.size inb_S1x128_S1x128_0_0

/-! ## What the body leaves in each output window's buffer -/

/-- Window 6's staging buffer after the body, from the input windows' blocks: its one store, a whole-buffer
    piece carrying the second layer's activation. -/
def out0_6 (x0 x1 : Vec F S2000x128 .f32) (x2 : Vec F S128x128 .f32) (x3 : Vec F S1x128 .f32) (x4 : Vec F S128x128 .f32) (x5 : Vec F S1x128 .f32) : Vec F S2000x128 .f32 :=
  View.canon [⟨r0_a, k0_pay1 (View.ld x0 r0_a) (View.ld x1 r0_a) (View.ld x2 r0_b) (View.ld x3 r0_c) (View.ld x4 r0_b) (View.ld x5 r0_c)⟩]

/-- Window 7's staging buffer after the body: its one store, the same activation rounded to bf16. -/
def out0_7 (x0 x1 : Vec F S2000x128 .f32) (x2 : Vec F S128x128 .f32) (x3 : Vec F S1x128 .f32) (x4 : Vec F S128x128 .f32) (x5 : Vec F S1x128 .f32) : Vec F S2000x128 .bf16 :=
  View.canon [⟨r0_a, k0_pay2 (View.ld x0 r0_a) (View.ld x1 r0_a) (View.ld x2 r0_b) (View.ld x3 r0_c) (View.ld x4 r0_b) (View.ld x5 r0_c)⟩]

/-- The one store of window 6 is the whole buffer, so it covers it. -/
theorem cover0_6 (p0 : Vec F S2000x128 .f32) (y : S2000x128.Idx) :
    ∃ pc ∈ ([⟨r0_a, p0⟩] : List (View.Piece (Elt F) S2000x128 .f32)), y ∈ pc.1.set :=
  View.cover_of_tiled [⟨r0_a, p0⟩] S2000x128.size (by rfl) y

/-- The one store of window 7 is the whole buffer, so it covers it. -/
theorem cover0_7 (p0 : Vec F S2000x128 .bf16) (y : S2000x128.Idx) :
    ∃ pc ∈ ([⟨r0_a, p0⟩] : List (View.Piece (Elt F) S2000x128 .bf16)), y ∈ pc.1.set :=
  View.cover_of_tiled [⟨r0_a, p0⟩] S2000x128.size (by rfl) y

/-! ## The body's triple -/

set_option maxHeartbeats 4000000 in
/-- The kernel body on whole staging memrefs, the inputs' at read contents `xW` and the outputs' at anything, runs to
    the continuation holding the inputs' as they were and each output's at `out0_W` of the inputs': the body is a
    sequence of whole-buffer loads and two whole-buffer stores over pure payloads; each output memref is loaded
    before it is stored, and that value is never used. -/
theorem sound_kernel0 (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2000x128 .bf16) (harg8 : arg8.IsWhole)
    (x0 x1 : Vec F S2000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

/-! ## The pipeline's proof data -/

/-- The proof data of pipeline 0 on core `c`: the arrays as the region finds them (`V`); after the body at
    point `t` each input's buffer at its block and each output's at `out0_W` of the input blocks; the invariant
    holds the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Gen

end
-- ==== Proof.KI.Pool3Runs.lean ====
import proofs.«428858_j8770323218938_3_alg».proof.Proof.Gen.KernelIdeal.Launch
import proofs.«428858_j8770323218938_3_alg».proof.Proof.Gen.KernelIdeal.Skeleton
import proofs.«428858_j8770323218938_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof
    data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The condition of the body's first conditional (the reset of the accumulator), from the grid coordinates. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val % 25 = 0 :=
  (by decide +kernel : ∀ t : Fin grid3.N, cond3_0 (grid3.coords t) ↔ t.val % 25 = 0)

/-- The condition of the body's second conditional (the copy of the accumulator to the output). -/
abbrev cond3_1 (i : grid3.Coords) : Prop := k3_cond2 i = 1#1
/-- It holds at the last point only. -/
theorem hcond3_1 : ∀ t : Fin cfg3.N, cond3_1 (grid3.coords t) ↔ t.val % 25 = 24 :=
  (by decide +kernel : ∀ t : Fin grid3.N, cond3_1 (grid3.coords t) ↔ t.val % 25 = 24)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel
theorem liveAt3_2 : ∀ t : Fin cfg3.N, cond3_1 (grid3.coords t) → cfg3.idle 2 (grid3.coords t) = false := by decide +kernel

/-! ## The staging and scratch memrefs -/

abbrev VO3_2 : View sig .tc .vmem S500x128 .f32 := (Memref.whole cc3_stg2_0 : Memref sig .tc .vmem S500x128 .f32).view
abbrev ms3_0 (t : Fin cfg3.N) : Memref sig .tc .vmem S2000x1 .i32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2000x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S500x128 .f32 := win3_2.stage (cfg3.slots t 2)
abbrev hs3_2 (t : Fin cfg3.N) : (ms3_2 t).IsWhole := hstage3_2 ((cfg3.slots t 2).cast nbuf3_2)
/-- The scratch operand: a whole scoped buffer of the kernel's own, passed beside the windows. -/
abbrev scM3_0 : Memref sig .tc .vmem S500x128 .f32 := Memref.whole cc3_scratch0
/-- The scratch the kernel carries between points, as a view. -/
abbrev VS3_0 : View sig .tc .vmem S500x128 .f32 := scM3_0.view

/-- The other scoped buffers of the core (neither a staging buffer of this call nor its scratch), unopened. -/
abbrev rest3 (c : Dev nD) : sProp 𝕄 :=
  Pipeline.scopedRestBut (Ix := Unit) (Name := ℕ) (U := UR sig nD τ) (Lvl := ℕ) (Val := Elt F) spec3 c [cc3_scratch0]

/-- The region invariant of the class with the scratch operand as a memref owned at some contents. -/
theorem PhiA3_eq (c : Dev nD) :
    (Pipeline.ΦA spec3 c : sProp 𝕄)
      = iprop(iprop(iprop((∃ d, owns (c : Thread nD τ) scM3_0 fullShare d)) ∗ rest3 c) ∗ (∃ r, prngReg c r)) := by
  unfold Pipeline.ΦA; rw [scopedRest3_split]; simp only [scM3_0, owns_whole]; try rfl

/-! ## The whole-shape rectangles the body loads and stores through -/

abbrev R3_0 : Rect S2000x1 := Rect.unit ![0, 0] S2000x1.size inb_S2000x1_S2000x1_0_0
abbrev R3_1 : Rect S2000x128 := Rect.unit ![0, 0] S2000x128.size inb_S2000x128_S2000x128_0_0
abbrev R3_s : Rect S500x128 := Rect.unit ![0, 0] S500x128.size inb_S500x128_S500x128_0_0

set_option maxHeartbeats 1000000 in
/-- What the body's stores leave in the output's staging memref and in the scratch, as pieces (last first), in case A
    (reset taken, copy-out not taken), with the proof that on whole memrefs the body runs to the
    continuation holding the inputs as they were, the scratch with its pieces written and the output untouched. -/
noncomputable def kernelRun3_A (c : Dev nD) (i : grid3.Coords) (arg1 : Memref sig .tc .vmem S2000x1 .i32) (harg1 : arg1.IsWhole) (arg2 : Memref sig .tc .vmem S2000x128 .f32) (harg2 : arg2.IsWhole) (arg3 : Memref sig .tc .vmem S500x128 .f32) (harg3 : arg3.IsWhole) (arg4 : Memref sig .tc .vmem S500x128 .f32) (harg4 : arg4.IsWhole) (hc0 : cond3_0 i) (hc1 : ¬cond3_1 i)
    (x0 : Vec F S2000x1 .i32) (x1 : Vec F S2000x128 .f32) :
    Σ' (L2 : List (View.Piece (Elt F) S500x128 .f32)), { LS0 : List (View.Piece (Elt F) S500x128 .f32) //
      ∀ (xi2 : Vec F S500x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc3__pool_kernel i arg1 harg1 arg2 harg2 arg3 harg3 arg4 harg4) K } := by
  refine ⟨[], ?_, fun xi2 E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

/-- The pieces case A's run found for the scratch: the point's accumulation stored whole, over the zero fill. -/
theorem pcs3_A (c : Dev nD) (i : grid3.Coords) (arg1 : Memref sig .tc .vmem S2000x1 .i32) (harg1 : arg1.IsWhole) (arg2 : Memref sig .tc .vmem S2000x128 .f32) (harg2 : arg2.IsWhole) (arg3 : Memref sig .tc .vmem S500x128 .f32) (harg3 : arg3.IsWhole) (arg4 : Memref sig .tc .vmem S500x128 .f32) (harg4 : arg4.IsWhole) (hc0 : cond3_0 i) (hc1 : ¬cond3_1 i)
    (x0 : Vec F S2000x1 .i32) (x1 : Vec F S2000x128 .f32) :
    (kernelRun3_A (F := F) c i arg1 harg1 arg2 harg2 arg3 harg3 arg4 harg4 hc0 hc1 x0 x1).2.1
      = [⟨R3_s, k3_pay2 (View.readAt (Elt F) arg1.view R3_0.toLoadRect (harg1.unread x0)) (View.readAt (Elt F) arg2.view R3_1.toLoadRect (harg2.unread x1))
            (arg4.view.readCov [⟨R3_s, k3_pay1⟩] R3_s.toLoadRect)⟩, ⟨R3_s, k3_pay1⟩] := rfl

set_option maxHeartbeats 1000000 in
/-- What the body's stores leave in the output's staging memref and in the scratch, as pieces (last first), in case B
    (reset not taken, copy-out not taken), with the proof that on whole memrefs the body runs to the
    continuation holding the inputs as they were, the scratch with its pieces written and the output untouched. -/
noncomputable def kernelRun3_B (c : Dev nD) (i : grid3.Coords) (arg1 : Memref sig .tc .vmem S2000x1 .i32) (harg1 : arg1.IsWhole) (arg2 : Memref sig .tc .vmem S2000x128 .f32) (harg2 : arg2.IsWhole) (arg3 : Memref sig .tc .vmem S500x128 .f32) (harg3 : arg3.IsWhole) (arg4 : Memref sig .tc .vmem S500x128 .f32) (harg4 : arg4.IsWhole) (hc0 : ¬cond3_0 i) (hc1 : ¬cond3_1 i)
    (x0 : Vec F S2000x1 .i32) (x1 : Vec F S2000x128 .f32) (xs0 : Vec F S500x128 .f32) :
    Σ' (L2 : List (View.Piece (Elt F) S500x128 .f32)), { LS0 : List (View.Piece (Elt F) S500x128 .f32) //
      ∀ (xi2 : Vec F S500x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc3__pool_kernel i arg1 harg1 arg2 harg2 arg3 harg3 arg4 harg4) K } := by
  refine ⟨[], ?_, fun xi2 E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

/-- The pieces case B's run found for the scratch: the point's accumulation stored whole. -/
theorem pcs3_B (c : Dev nD) (i : grid3.Coords) (arg1 : Memref sig .tc .vmem S2000x1 .i32) (harg1 : arg1.IsWhole) (arg2 : Memref sig .tc .vmem S2000x128 .f32) (harg2 : arg2.IsWhole) (arg3 : Memref sig .tc .vmem S500x128 .f32) (harg3 : arg3.IsWhole) (arg4 : Memref sig .tc .vmem S500x128 .f32) (harg4 : arg4.IsWhole) (hc0 : ¬cond3_0 i) (hc1 : ¬cond3_1 i)
    (x0 : Vec F S2000x1 .i32) (x1 : Vec F S2000x128 .f32) (xs0 : Vec F S500x128 .f32) :
    (kernelRun3_B (F := F) c i arg1 harg1 arg2 harg2 arg3 harg3 arg4 harg4 hc0 hc1 x0 x1 xs0).2.1
      = [⟨R3_s, k3_pay2 (View.readAt (Elt F) arg1.view R3_0.toLoadRect (harg1.unread x0)) (View.readAt (Elt F) arg2.view R3_1.toLoadRect (harg2.unread x1))
            (View.readAt (Elt F) arg4.view R3_s.toLoadRect (harg4.unread xs0))⟩] := rfl

set_option maxHeartbeats 1000000 in
/-- What the body's stores leave in the output's staging memref and in the scratch, as pieces (last first), in case C
    (reset not taken, copy-out taken), with the proof that on whole memrefs the body runs to the
    continuation holding the inputs as they were, the scratch with its pieces written and the output with its pieces written. -/
noncomputable def kernelRun3_C (c : Dev nD) (i : grid3.Coords) (arg1 : Memref sig .tc .vmem S2000x1 .i32) (harg1 : arg1.IsWhole) (arg2 : Memref sig .tc .vmem S2000x128 .f32) (harg2 : arg2.IsWhole) (arg3 : Memref sig .tc .vmem S500x128 .f32) (harg3 : arg3.IsWhole) (arg4 : Memref sig .tc .vmem S500x128 .f32) (harg4 : arg4.IsWhole) (hc0 : ¬cond3_0 i) (hc1 : cond3_1 i)
    (x0 : Vec F S2000x1 .i32) (x1 : Vec F S2000x128 .f32) (xs0 : Vec F S500x128 .f32) :
    Σ' (L2 : List (View.Piece (Elt F) S500x128 .f32)), { LS0 : List (View.Piece (Elt F) S500x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc3__pool_kernel i arg1 harg1 arg2 harg2 arg3 harg3 arg4 harg4) K } := by
  refine ⟨?_, ?_, fun E K => ?run⟩
  case run =>
    simp only [cc3__pool_kernel_eq_skeleton]; unfold cc3__pool_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

/-- The pieces case C's run found for the scratch: the point's accumulation stored whole. -/
theorem pcs3_C (c : Dev nD) (i : grid3.Coords) (arg1 : Memref sig .tc .vmem S2000x1 .i32) (harg1 : arg1.IsWhole) (arg2 : Memref sig .tc .vmem S2000x128 .f32) (harg2 : arg2.IsWhole) (arg3 : Memref sig .tc .vmem S500x128 .f32) (harg3 : arg3.IsWhole) (arg4 : Memref sig .tc .vmem S500x128 .f32) (harg4 : arg4.IsWhole) (hc0 : ¬cond3_0 i) (hc1 : cond3_1 i)
    (x0 : Vec F S2000x1 .i32) (x1 : Vec F S2000x128 .f32) (xs0 : Vec F S500x128 .f32) :
    (kernelRun3_C (F := F) c i arg1 harg1 arg2 harg2 arg3 harg3 arg4 harg4 hc0 hc1 x0 x1 xs0).2.1
      = [⟨R3_s, k3_pay2 (View.readAt (Elt F) arg1.view R3_0.toLoadRect (harg1.unread x0)) (View.readAt (Elt F) arg2.view R3_1.toLoadRect (harg2.unread x1))
            (View.readAt (Elt F) arg4.view R3_s.toLoadRect (harg4.unread xs0))⟩] := rfl

/-- The pieces case C's run found for the output: the scratch, read back after the point's store, stored whole. -/
theorem opcs3_C (c : Dev nD) (i : grid3.Coords) (arg1 : Memref sig .tc .vmem S2000x1 .i32) (harg1 : arg1.IsWhole) (arg2 : Memref sig .tc .vmem S2000x128 .f32) (harg2 : arg2.IsWhole) (arg3 : Memref sig .tc .vmem S500x128 .f32) (harg3 : arg3.IsWhole) (arg4 : Memref sig .tc .vmem S500x128 .f32) (harg4 : arg4.IsWhole) (hc0 : ¬cond3_0 i) (hc1 : cond3_1 i)
    (x0 : Vec F S2000x1 .i32) (x1 : Vec F S2000x128 .f32) (xs0 : Vec F S500x128 .f32) :
    (kernelRun3_C (F := F) c i arg1 harg1 arg2 harg2 arg3 harg3 arg4 harg4 hc0 hc1 x0 x1 xs0).1
      = [⟨R3_s, arg4.view.readCov (kernelRun3_C (F := F) c i arg1 harg1 arg2 harg2 arg3 harg3 arg4 harg4 hc0 hc1 x0 x1 xs0).2.1 R3_s.toLoadRect⟩] := rfl

end Cert.KernelIdeal.Gen

end
-- ==== Proof.KI.Pool3.lean ====
import proofs.«428858_j8770323218938_3_alg».proof.Proof.KI.Pool3Runs
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's pieces for the scratch cover it (whole-shape stores). -/
theorem scover3_A_0 (c : Dev nD) (i : grid3.Coords) (arg1 : Memref sig .tc .vmem S2000x1 .i32) (harg1 : arg1.IsWhole) (arg2 : Memref sig .tc .vmem S2000x128 .f32) (harg2 : arg2.IsWhole) (arg3 : Memref sig .tc .vmem S500x128 .f32) (harg3 : arg3.IsWhole) (arg4 : Memref sig .tc .vmem S500x128 .f32) (harg4 : arg4.IsWhole) (hc0 : cond3_0 i) (hc1 : ¬cond3_1 i)
    (x0 : Vec F S2000x1 .i32) (x1 : Vec F S2000x128 .f32) (y : S500x128.Idx) :
    ∃ pc ∈ (kernelRun3_A (F := F) c i arg1 harg1 arg2 harg2 arg3 harg3 arg4 harg4 hc0 hc1 x0 x1).2.1, y ∈ pc.1.set :=
  View.cover_of_tiledL (kernelRun3_A (F := F) c i arg1 harg1 arg2 harg2 arg3 harg3 arg4 harg4 hc0 hc1 x0 x1).2.1 S500x128.size (by sl_kernel_rfl) y

/-- What case A leaves in the scratch: its pieces read back over junk. -/
def sout3_A_0 (c : Dev nD) (i : grid3.Coords) (arg1 : Memref sig .tc .vmem S2000x1 .i32) (harg1 : arg1.IsWhole) (arg2 : Memref sig .tc .vmem S2000x128 .f32) (harg2 : arg2.IsWhole) (arg3 : Memref sig .tc .vmem S500x128 .f32) (harg3 : arg3.IsWhole) (arg4 : Memref sig .tc .vmem S500x128 .f32) (harg4 : arg4.IsWhole) (hc0 : cond3_0 i) (hc1 : ¬cond3_1 i)
    (x0 : Vec F S2000x1 .i32) (x1 : Vec F S2000x128 .f32) : Vec F S500x128 .f32 :=
  VS3_0.read (Elt F) (VS3_0.writes (Elt F) VS3_0.junk (kernelRun3_A (F := F) c i arg1 harg1 arg2 harg2 arg3 harg3 arg4 harg4 hc0 hc1 x0 x1).2.1)

/-- Case B's pieces for the scratch cover it (whole-shape stores). -/
theorem scover3_B_0 (c : Dev nD) (i : grid3.Coords) (arg1 : Memref sig .tc .vmem S2000x1 .i32) (harg1 : arg1.IsWhole) (arg2 : Memref sig .tc .vmem S2000x128 .f32) (harg2 : arg2.IsWhole) (arg3 : Memref sig .tc .vmem S500x128 .f32) (harg3 : arg3.IsWhole) (arg4 : Memref sig .tc .vmem S500x128 .f32) (harg4 : arg4.IsWhole) (hc0 : ¬cond3_0 i) (hc1 : ¬cond3_1 i)
    (x0 : Vec F S2000x1 .i32) (x1 : Vec F S2000x128 .f32) (xs0 : Vec F S500x128 .f32) (y : S500x128.Idx) :
    ∃ pc ∈ (kernelRun3_B (F := F) c i arg1 harg1 arg2 harg2 arg3 harg3 arg4 harg4 hc0 hc1 x0 x1 xs0).2.1, y ∈ pc.1.set :=
  View.cover_of_tiledL (kernelRun3_B (F := F) c i arg1 harg1 arg2 harg2 arg3 harg3 arg4 harg4 hc0 hc1 x0 x1 xs0).2.1 S500x128.size (by sl_kernel_rfl) y

/-- What case B leaves in the scratch: its pieces read back over junk. -/
def sout3_B_0 (c : Dev nD) (i : grid3.Coords) (arg1 : Memref sig .tc .vmem S2000x1 .i32) (harg1 : arg1.IsWhole) (arg2 : Memref sig .tc .vmem S2000x128 .f32) (harg2 : arg2.IsWhole) (arg3 : Memref sig .tc .vmem S500x128 .f32) (harg3 : arg3.IsWhole) (arg4 : Memref sig .tc .vmem S500x128 .f32) (harg4 : arg4.IsWhole) (hc0 : ¬cond3_0 i) (hc1 : ¬cond3_1 i)
    (x0 : Vec F S2000x1 .i32) (x1 : Vec F S2000x128 .f32) (xs0 : Vec F S500x128 .f32) : Vec F S500x128 .f32 :=
  VS3_0.read (Elt F) (VS3_0.writes (Elt F) VS3_0.junk (kernelRun3_B (F := F) c i arg1 harg1 arg2 harg2 arg3 harg3 arg4 harg4 hc0 hc1 x0 x1 xs0).2.1)

/-- Case C's pieces for the scratch cover it (whole-shape stores). -/
theorem scover3_C_0 (c : Dev nD) (i : grid3.Coords) (arg1 : Memref sig .tc .vmem S2000x1 .i32) (harg1 : arg1.IsWhole) (arg2 : Memref sig .tc .vmem S2000x128 .f32) (harg2 : arg2.IsWhole) (arg3 : Memref sig .tc .vmem S500x128 .f32) (harg3 : arg3.IsWhole) (arg4 : Memref sig .tc .vmem S500x128 .f32) (harg4 : arg4.IsWhole) (hc0 : ¬cond3_0 i) (hc1 : cond3_1 i)
    (x0 : Vec F S2000x1 .i32) (x1 : Vec F S2000x128 .f32) (xs0 : Vec F S500x128 .f32) (y : S500x128.Idx) :
    ∃ pc ∈ (kernelRun3_C (F := F) c i arg1 harg1 arg2 harg2 arg3 harg3 arg4 harg4 hc0 hc1 x0 x1 xs0).2.1, y ∈ pc.1.set :=
  View.cover_of_tiledL (kernelRun3_C (F := F) c i arg1 harg1 arg2 harg2 arg3 harg3 arg4 harg4 hc0 hc1 x0 x1 xs0).2.1 S500x128.size (by sl_kernel_rfl) y

/-- What case C leaves in the scratch: its pieces read back over junk. -/
def sout3_C_0 (c : Dev nD) (i : grid3.Coords) (arg1 : Memref sig .tc .vmem S2000x1 .i32) (harg1 : arg1.IsWhole) (arg2 : Memref sig .tc .vmem S2000x128 .f32) (harg2 : arg2.IsWhole) (arg3 : Memref sig .tc .vmem S500x128 .f32) (harg3 : arg3.IsWhole) (arg4 : Memref sig .tc .vmem S500x128 .f32) (harg4 : arg4.IsWhole) (hc0 : ¬cond3_0 i) (hc1 : cond3_1 i)
    (x0 : Vec F S2000x1 .i32) (x1 : Vec F S2000x128 .f32) (xs0 : Vec F S500x128 .f32) : Vec F S500x128 .f32 :=
  VS3_0.read (Elt F) (VS3_0.writes (Elt F) VS3_0.junk (kernelRun3_C (F := F) c i arg1 harg1 arg2 harg2 arg3 harg3 arg4 harg4 hc0 hc1 x0 x1 xs0).2.1)

/-- Case C's pieces for the output tile its block (one whole-shape store), so they cover it. -/
theorem cover3_C_2 (c : Dev nD) (i : grid3.Coords) (arg1 : Memref sig .tc .vmem S2000x1 .i32) (harg1 : arg1.IsWhole) (arg2 : Memref sig .tc .vmem S2000x128 .f32) (harg2 : arg2.IsWhole) (arg3 : Memref sig .tc .vmem S500x128 .f32) (harg3 : arg3.IsWhole) (arg4 : Memref sig .tc .vmem S500x128 .f32) (harg4 : arg4.IsWhole) (hc0 : ¬cond3_0 i) (hc1 : cond3_1 i)
    (x0 : Vec F S2000x1 .i32) (x1 : Vec F S2000x128 .f32) (xs0 : Vec F S500x128 .f32) (y : S500x128.Idx) :
    ∃ pc ∈ (kernelRun3_C (F := F) c i arg1 harg1 arg2 harg2 arg3 harg3 arg4 harg4 hc0 hc1 x0 x1 xs0).1, y ∈ pc.1.set :=
  View.cover_of_tiledL (kernelRun3_C (F := F) c i arg1 harg1 arg2 harg2 arg3 harg3 arg4 harg4 hc0 hc1 x0 x1 xs0).1 S500x128.size (by sl_kernel_rfl) y

/-- What case C leaves in the output's staging buffer: its pieces read back over junk. -/
def out3_C_2 (c : Dev nD) (i : grid3.Coords) (arg1 : Memref sig .tc .vmem S2000x1 .i32) (harg1 : arg1.IsWhole) (arg2 : Memref sig .tc .vmem S2000x128 .f32) (harg2 : arg2.IsWhole) (arg3 : Memref sig .tc .vmem S500x128 .f32) (harg3 : arg3.IsWhole) (arg4 : Memref sig .tc .vmem S500x128 .f32) (harg4 : arg4.IsWhole) (hc0 : ¬cond3_0 i) (hc1 : cond3_1 i)
    (x0 : Vec F S2000x1 .i32) (x1 : Vec F S2000x128 .f32) (xs0 : Vec F S500x128 .f32) : Vec F S500x128 .f32 :=
  VO3_2.read (Elt F) (VO3_2.writes (Elt F) VO3_2.junk (kernelRun3_C (F := F) c i arg1 harg1 arg2 harg2 arg3 harg3 arg4 harg4 hc0 hc1 x0 x1 xs0).1)

/-- At the points that store nothing into the output (its window idle there and not written back): a placeholder that
    nothing consults. -/
def idleOut3 : Vec F S500x128 .f32 := VO3_2.read (Elt F) VO3_2.junk

/-! ## The closed forms of what the cases leave -/

/-- The offsets of the whole-shape rectangles are zero. -/
theorem zz3 : (![0, 0] : Fin 2 → ℕ) = fun _ => 0 := funext fun a => by fin_cases a <;> rfl

/-- Case A leaves the point's accumulation over the zero fill: the loads through the whole-shape rectangles read the
    blocks, the load of the scratch after the fill reads the fill, and the last store, covering the shape, leaves its payload. -/
theorem sout3_A_0_eq (c : Dev nD) (i : grid3.Coords) (arg1 : Memref sig .tc .vmem S2000x1 .i32) (harg1 : arg1.IsWhole) (arg2 : Memref sig .tc .vmem S2000x128 .f32) (harg2 : arg2.IsWhole) (arg3 : Memref sig .tc .vmem S500x128 .f32) (harg3 : arg3.IsWhole) (arg4 : Memref sig .tc .vmem S500x128 .f32) (harg4 : arg4.IsWhole) (hc0 : cond3_0 i) (hc1 : ¬cond3_1 i)
    (x0 : Vec F S2000x1 .i32) (x1 : Vec F S2000x128 .f32) :
    sout3_A_0 (F := F) c i arg1 harg1 arg2 harg2 arg3 harg3 arg4 harg4 hc0 hc1 x0 x1 = k3_pay2 x0 x1 k3_pay1 := by
  unfold sout3_A_0
  rw [pcs3_A, View.readCov_cons_toLoadRect, View.readAt_eq_ld, View.readAt_eq_ld, harg1.read_unread, harg2.read_unread,
    View.read_writes_junk_eq_canon, View.canon_cons_unit_zero (S := S500x128) zz3,
    View.ld_unit_zero (S := S2000x1) zz3, View.ld_unit_zero (S := S2000x128) zz3]

/-- Case B leaves the point's accumulation over what the scratch held. -/
theorem sout3_B_0_eq (c : Dev nD) (i : grid3.Coords) (arg1 : Memref sig .tc .vmem S2000x1 .i32) (harg1 : arg1.IsWhole) (arg2 : Memref sig .tc .vmem S2000x128 .f32) (harg2 : arg2.IsWhole) (arg3 : Memref sig .tc .vmem S500x128 .f32) (harg3 : arg3.IsWhole) (arg4 : Memref sig .tc .vmem S500x128 .f32) (harg4 : arg4.IsWhole) (hc0 : ¬cond3_0 i) (hc1 : ¬cond3_1 i)
    (x0 : Vec F S2000x1 .i32) (x1 : Vec F S2000x128 .f32) (xs0 : Vec F S500x128 .f32) :
    sout3_B_0 (F := F) c i arg1 harg1 arg2 harg2 arg3 harg3 arg4 harg4 hc0 hc1 x0 x1 xs0 = k3_pay2 x0 x1 xs0 := by
  unfold sout3_B_0
  rw [pcs3_B, View.readAt_eq_ld, View.readAt_eq_ld, View.readAt_eq_ld, harg1.read_unread, harg2.read_unread, harg4.read_unread,
    View.read_writes_junk_eq_canon, View.canon_cons_unit_zero (S := S500x128) zz3,
    View.ld_unit_zero (S := S2000x1) zz3, View.ld_unit_zero (S := S2000x128) zz3, View.ld_unit_zero (S := S500x128) zz3]

/-- Case C leaves the same in the scratch, -/
theorem sout3_C_0_eq (c : Dev nD) (i : grid3.Coords) (arg1 : Memref sig .tc .vmem S2000x1 .i32) (harg1 : arg1.IsWhole) (arg2 : Memref sig .tc .vmem S2000x128 .f32) (harg2 : arg2.IsWhole) (arg3 : Memref sig .tc .vmem S500x128 .f32) (harg3 : arg3.IsWhole) (arg4 : Memref sig .tc .vmem S500x128 .f32) (harg4 : arg4.IsWhole) (hc0 : ¬cond3_0 i) (hc1 : cond3_1 i)
    (x0 : Vec F S2000x1 .i32) (x1 : Vec F S2000x128 .f32) (xs0 : Vec F S500x128 .f32) :
    sout3_C_0 (F := F) c i arg1 harg1 arg2 harg2 arg3 harg3 arg4 harg4 hc0 hc1 x0 x1 xs0 = k3_pay2 x0 x1 xs0 := by
  unfold sout3_C_0
  rw [pcs3_C, View.readAt_eq_ld, View.readAt_eq_ld, View.readAt_eq_ld, harg1.read_unread, harg2.read_unread, harg4.read_unread,
    View.read_writes_junk_eq_canon, View.canon_cons_unit_zero (S := S500x128) zz3,
    View.ld_unit_zero (S := S2000x1) zz3, View.ld_unit_zero (S := S2000x128) zz3, View.ld_unit_zero (S := S500x128) zz3]

/-- and copies it to the output: the load of the scratch after the point's store reads that store's payload. -/
theorem out3_C_2_eq (c : Dev nD) (i : grid3.Coords) (arg1 : Memref sig .tc .vmem S2000x1 .i32) (harg1 : arg1.IsWhole) (arg2 : Memref sig .tc .vmem S2000x128 .f32) (harg2 : arg2.IsWhole) (arg3 : Memref sig .tc .vmem S500x128 .f32) (harg3 : arg3.IsWhole) (arg4 : Memref sig .tc .vmem S500x128 .f32) (harg4 : arg4.IsWhole) (hc0 : ¬cond3_0 i) (hc1 : cond3_1 i)
    (x0 : Vec F S2000x1 .i32) (x1 : Vec F S2000x128 .f32) (xs0 : Vec F S500x128 .f32) :
    out3_C_2 (F := F) c i arg1 harg1 arg2 harg2 arg3 harg3 arg4 harg4 hc0 hc1 x0 x1 xs0 = sout3_C_0 (F := F) c i arg1 harg1 arg2 harg2 arg3 harg3 arg4 harg4 hc0 hc1 x0 x1 xs0 := by
  unfold out3_C_2 sout3_C_0
  refine (congrArg (fun L => VO3_2.read (Elt F) (VO3_2.writes (Elt F) VO3_2.junk L)) (opcs3_C (F := F) c i arg1 harg1 arg2 harg2 arg3 harg3 arg4 harg4 hc0 hc1 x0 x1 xs0)).trans ?_
  rw [pcs3_C, View.readCov_cons_toLoadRect, View.read_writes_junk_eq_canon, View.read_writes_junk_eq_canon]
/-! ## What the output and the scratch hold after each point -/

theorem c3_0_of (t : Fin cfg3.N) (hz : t.val = 0) : cond3_0 (grid3.coords t) := (hcond3_0 t).mpr (by rw [hz])
theorem nc3_0_of (t : Fin cfg3.N) (hz : t.val ≠ 0) : ¬cond3_0 (grid3.coords t) := fun h => hz (by
  have h' := (hcond3_0 t).mp h
  have hN : t.val < 25 := lt_of_lt_of_eq t.isLt (show cfg3.N = 25 from N_3)
  omega)
theorem c3_1_of (t : Fin cfg3.N) (h1 : t.val % 25 = 24) : cond3_1 (grid3.coords t) := (hcond3_1 t).mpr h1
theorem nc3_1_of (t : Fin cfg3.N) (h1 : ¬t.val % 25 = 24) : ¬cond3_1 (grid3.coords t) := fun h => h1 ((hcond3_1 t).mp h)

/-- THE ACCUMULATION. What the output's staging buffer and the scratch hold after the body at position `n`: the case the
    closed forms select at `n`, run at the point's memrefs and input blocks, the scratch at what the point before left. -/
def outsAt3 (c : Dev nD) : (n : ℕ) → n < cfg3.N → Vec F S500x128 .f32 × Vec F S500x128 .f32
  | 0, hn => (idleOut3, sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) (c3_0_of ⟨0, hn⟩ rfl) (nc3_1_of ⟨0, hn⟩ (show ¬(0 % 25 = 24) by decide)) (iblk3 V c 0 ⟨0, hn⟩) (iblk3 V c 1 ⟨0, hn⟩))
  | n + 1, hn =>
    if h1 : (n + 1) % 25 = 24 then
      (out3_C_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (nc3_0_of ⟨n + 1, hn⟩ (Nat.succ_ne_zero n)) (c3_1_of ⟨n + 1, hn⟩ h1) (iblk3 V c 0 ⟨n + 1, hn⟩) (iblk3 V c 1 ⟨n + 1, hn⟩) (outsAt3 c n (Nat.lt_of_succ_lt hn)).2,
       sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (nc3_0_of ⟨n + 1, hn⟩ (Nat.succ_ne_zero n)) (c3_1_of ⟨n + 1, hn⟩ h1) (iblk3 V c 0 ⟨n + 1, hn⟩) (iblk3 V c 1 ⟨n + 1, hn⟩) (outsAt3 c n (Nat.lt_of_succ_lt hn)).2)
    else
      (idleOut3, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (nc3_0_of ⟨n + 1, hn⟩ (Nat.succ_ne_zero n)) (nc3_1_of ⟨n + 1, hn⟩ h1) (iblk3 V c 0 ⟨n + 1, hn⟩) (iblk3 V c 1 ⟨n + 1, hn⟩) (outsAt3 c n (Nat.lt_of_succ_lt hn)).2)

/-- What the scratch holds after the body at point `n`. -/
def sAt3 (c : Dev nD) (n : ℕ) (hn : n < cfg3.N) : Vec F S500x128 .f32 := (outsAt3 V c n hn).2

theorem outsAt3_A (c : Dev nD) (t : Fin cfg3.N) (hz : t.val = 0) :
    outsAt3 V c t.val t.isLt = (idleOut3, sout3_A_0 c (grid3.coords t) (ms3_0 t) (hs3_0 t) (ms3_1 t) (hs3_1 t) (ms3_2 t) (hs3_2 t) scM3_0 (Memref.isWhole_whole _) (c3_0_of t hz) (nc3_1_of t (by rw [hz]; decide)) (iblk3 V c 0 t) (iblk3 V c 1 t)) := by
  obtain ⟨n, hn⟩ := t
  cases n with
  | zero => exact rfl
  | succ n => exact absurd hz (Nat.succ_ne_zero n)

theorem outsAt3_B (c : Dev nD) (t : Fin cfg3.N) (hz : t.val ≠ 0) (h1 : ¬t.val % 25 = 24) :
    outsAt3 V c t.val t.isLt = (idleOut3, sout3_B_0 c (grid3.coords t) (ms3_0 t) (hs3_0 t) (ms3_1 t) (hs3_1 t) (ms3_2 t) (hs3_2 t) scM3_0 (Memref.isWhole_whole _) (nc3_0_of t hz) (nc3_1_of t h1) (iblk3 V c 0 t) (iblk3 V c 1 t) (sAt3 V c (t.val - 1) (Nat.lt_of_le_of_lt (Nat.sub_le _ _) t.isLt))) := by
  obtain ⟨n, hn⟩ := t
  cases n with
  | zero => exact absurd rfl hz
  | succ n => exact (dif_neg h1).trans rfl

theorem outsAt3_C (c : Dev nD) (t : Fin cfg3.N) (hz : t.val ≠ 0) (h1 : t.val % 25 = 24) :
    outsAt3 V c t.val t.isLt = (out3_C_2 c (grid3.coords t) (ms3_0 t) (hs3_0 t) (ms3_1 t) (hs3_1 t) (ms3_2 t) (hs3_2 t) scM3_0 (Memref.isWhole_whole _) (nc3_0_of t hz) (c3_1_of t h1) (iblk3 V c 0 t) (iblk3 V c 1 t) (sAt3 V c (t.val - 1) (Nat.lt_of_le_of_lt (Nat.sub_le _ _) t.isLt)),
      sout3_C_0 c (grid3.coords t) (ms3_0 t) (hs3_0 t) (ms3_1 t) (hs3_1 t) (ms3_2 t) (hs3_2 t) scM3_0 (Memref.isWhole_whole _) (nc3_0_of t hz) (c3_1_of t h1) (iblk3 V c 0 t) (iblk3 V c 1 t) (sAt3 V c (t.val - 1) (Nat.lt_of_le_of_lt (Nat.sub_le _ _) t.isLt))) := by
  obtain ⟨n, hn⟩ := t
  cases n with
  | zero => exact absurd rfl hz
  | succ n => exact (dif_pos h1).trans rfl

/-- After the first point: the first blocks' accumulation over the zero fill. -/
theorem sAt3_zero (c : Dev nD) (h : 0 < cfg3.N) :
    sAt3 V c 0 h = k3_pay2 (iblk3 V c 0 ⟨0, h⟩) (iblk3 V c 1 ⟨0, h⟩) k3_pay1 := by
  rw [show sAt3 V c 0 h = (outsAt3 V c 0 h).2 from rfl,
    show outsAt3 V c 0 h = _ from outsAt3_A V c ⟨0, h⟩ rfl]
  dsimp only
  exact sout3_A_0_eq (F := F) c _ _ _ _ _ _ _ _ _ _ _ _ _

/-- After a later point: that point's blocks' accumulation over what the point before left. -/
theorem sAt3_succ (c : Dev nD) (n : ℕ) (h : n + 1 < cfg3.N) :
    sAt3 V c (n + 1) h = k3_pay2 (iblk3 V c 0 ⟨n + 1, h⟩) (iblk3 V c 1 ⟨n + 1, h⟩) (sAt3 V c n (Nat.lt_of_succ_lt h)) := by
  rw [show sAt3 V c (n + 1) h = (outsAt3 V c (n + 1) h).2 from rfl]
  by_cases h1 : (n + 1) % 25 = 24
  · rw [show outsAt3 V c (n + 1) h = _ from outsAt3_C V c ⟨n + 1, h⟩ (Nat.succ_ne_zero n) h1]
    dsimp only
    exact sout3_C_0_eq (F := F) c _ _ _ _ _ _ _ _ _ _ _ _ _ _
  · rw [show outsAt3 V c (n + 1) h = _ from outsAt3_B V c ⟨n + 1, h⟩ (Nat.succ_ne_zero n) h1]
    dsimp only
    exact sout3_B_0_eq (F := F) c _ _ _ _ _ _ _ _ _ _ _ _ _ _

/-! ## The region invariant -/

/-- The region invariant before position `n`: before the first point the class's (every scratch at anything); afterwards
    the scratch at what the point before left in it, the other scoped buffers unopened, the generator register at some state. -/
def PhiS3 (c : Dev nD) : (n : ℕ) → n ≤ cfg3.N → sProp 𝕄
  | 0, _ => Pipeline.ΦA spec3 c
  | n + 1, hn => iprop(iprop(owns (c : Thread nD τ) scM3_0 fullShare (sAt3 V c n hn) ∗ rest3 c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare (sAt3 V c n hn) ∗ rest3 c) ∗ (∃ r, prngReg c r)) := rfl

theorem PhiS3_pos (c : Dev nD) (n : ℕ) (h : n ≤ cfg3.N) (hz : n ≠ 0) :
    PhiS3 V c n h = iprop(iprop(owns (c : Thread nD τ) scM3_0 fullShare (sAt3 V c (n - 1) (by omega)) ∗ rest3 c) ∗ (∃ r, prngReg c r)) := by
  cases n with
  | zero => exact absurd rfl hz
  | succ n => rfl

/-! ## The pipeline's proof data -/

/-- The proof data of the pipeline on core `c`: the arrays as the region finds them (`V`); after the body at point `t`
    each input's buffer at its block and the output's at `outsAt3`; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

theorem lt24_3 : 24 < cfg3.N := by rw [show cfg3.N = 25 from N_3]; omega

/-- At a last point the output's buffer is left at the scratch's contents there. -/
theorem after3_2_of_last (c : Dev nD) (t : Fin cfg3.N) (h1 : t.val % 25 = 24) : (dat3 V c).after 2 t = sAt3 V c t.val t.isLt := by
  have hz : t.val ≠ 0 := by omega
  rw [after3_2, show sAt3 V c t.val t.isLt = (outsAt3 V c t.val t.isLt).2 from rfl, outsAt3_C V c t hz h1]
  dsimp only
  exact out3_C_2_eq (F := F) c _ _ _ _ _ _ _ _ _ _ _ _ _ _

/-- At the last point the output's buffer is left at the scratch's final contents. -/
theorem after3_2_last (c : Dev nD) : (dat3 V c).after 2 ⟨24, lt24_3⟩ = sAt3 V c 24 lt24_3 :=
  after3_2_of_last V c ⟨24, lt24_3⟩ (by decide)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point: the inputs' memrefs hold their blocks; the closed forms say which case the point is in; the
    invariant hands the body the scratch at what the point before left (at anything at the first point) and takes it back
    at this point's contents; the output's buffer is handed back untouched except at the last point; nothing is owed. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 25 := lt_of_lt_of_eq t.isLt (show cfg3.N = 25 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show sAt3 V c t.val t.isLt = (outsAt3 V c t.val t.isLt).2 from rfl]
  by_cases hz : t.val = 0
  · have h1 : ¬t.val % 25 = 24 := by omega
    rw [Dat.leavesExact_idle (dat3 V c) 2 t (idleAt3_2 t (nc3_1_of t h1)) (noFlush3_2 t (nc3_1_of t h1))]
    rw [outsAt3_A V c t hz]
    unfold sout3_A_0; (try dsimp only)
    rw [PhiS3_castSucc V c t, PhiS3_zero V c _ _ hz, PhiA3_eq]
    iintro ⟨⟨⟨HS0, Hr⟩, Hg⟩, Ho, ⟨%d0, H0⟩, ⟨%d1, H1⟩, ⟨%d2, H2⟩⟩
    iapply ((kernelRun3_A c (grid3.coords t) _ _ _ _ _ _ _ _ (c3_0_of t hz) (nc3_1_of t h1) (iblk3 V c 0 t) (iblk3 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover3_A_0 c _ _ _ _ _ _ _ _ _ _ _ _ _)
        iexact Hr
      iexact Hg
    isplitl [Ho]; · iexact Ho
    isplitl [H0]; · iexact H0
    isplitl [H1]; · iexact H1
    iexists _; iexact H2
  · by_cases h1 : t.val % 25 = 24
    · rw [show (dat3 V c).leavesExact 2 t = owns (c : Thread nD τ) (ms3_2 t) fullShare ((dat3 V c).after 2 t) from by
        unfold Dat.leavesExact; rw [liveAt3_2 t (c3_1_of t h1)], after3_2]
      rw [outsAt3_C V c t hz h1]
      unfold out3_C_2 sout3_C_0; (try dsimp only)
      rw [PhiS3_castSucc V c t, PhiS3_pos V c _ _ hz]
      iintro ⟨⟨⟨HS0, Hr⟩, Hg⟩, Ho, ⟨%d0, H0⟩, ⟨%d1, H1⟩, ⟨%d2, H2⟩⟩
      iapply ((kernelRun3_C c (grid3.coords t) _ _ _ _ _ _ _ _ (nc3_0_of t hz) (c3_1_of t h1) (iblk3 V c 0 t) (iblk3 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_C_2 c _ _ _ _ _ _ _ _ _ _ _ _ _ _)
    · rw [Dat.leavesExact_idle (dat3 V c) 2 t (idleAt3_2 t (nc3_1_of t h1)) (noFlush3_2 t (nc3_1_of t h1))]
      rw [outsAt3_B V c t hz h1]
      unfold sout3_B_0; (try dsimp only)
      rw [PhiS3_castSucc V c t, PhiS3_pos V c _ _ hz]
      iintro ⟨⟨⟨HS0, Hr⟩, Hg⟩, Ho, ⟨%d0, H0⟩, ⟨%d1, H1⟩, ⟨%d2, H2⟩⟩
      iapply ((kernelRun3_B c (grid3.coords t) _ _ _ _ _ _ _ _ (nc3_0_of t hz) (nc3_1_of t h1) (iblk3 V c 0 t) (iblk3 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the scratch's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, Hr⟩, Hg⟩
  isplitl [HS0 Hr]
  · isplitl [HS0]
    · iexists _; iexact HS0
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 25 := N_3; omega)

end Cert.KernelIdeal.Gen

end
-- ==== Proof.KI.Run.lean ====
/- THE RUN of the whole program: @main as thirteen segments — seven host stretches and six kernel regions — from the
   launch to the return. The contents each region leaves in the buffers it may change (the unknowns the valuations
   between @main's items are written over) are chosen here, layer by layer: region K's output arrays are what its pipeline
   leaves after its last point, entered from the valuation before it, which reads only what earlier regions left. Each
   region is a segment over its pipeline's proof data: its arrays are split out of the core's unscoped buffers at entry
   and put back at exit. The run reads every unscoped buffer at the end; the frame (every argument as launched) follows.
   Generic in the float type. -/
import proofs.«428858_j8770323218938_3_alg».proof.Proof.Gen.KernelIdeal.Regions
import proofs.«428858_j8770323218938_3_alg».proof.Proof.KI.Mlp0
import proofs.«428858_j8770323218938_3_alg».proof.Proof.KI.Mlp1
import proofs.«428858_j8770323218938_3_alg».proof.Proof.KI.Mlp2
import proofs.«428858_j8770323218938_3_alg».proof.Proof.KI.Pool3
import proofs.«428858_j8770323218938_3_alg».proof.Proof.KI.Pool4
import proofs.«428858_j8770323218938_3_alg».proof.Proof.KI.Pool5
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

/-! ## What the regions leave: the unknowns of the valuations, chosen -/

section Run

variable (m : (ℓ : Loc nD τ sig) → Buf (Elt F) ℓ)

/-- Contents per reference that are `x` at the reference `r₀` and `d` at every other one. -/
def pick (c : Dev nD) (r₀ : Ref sig .tc) (x : Buf (Elt F) ((c : Thread nD τ).loc r₀)) (r : Ref sig .tc)
    (d : Buf (Elt F) ((c : Thread nD τ).loc r)) : Buf (Elt F) ((c : Thread nD τ).loc r) :=
  if h : r = r₀ then h ▸ x else d

theorem pick_self (c : Dev nD) (r₀ : Ref sig .tc) (x : Buf (Elt F) ((c : Thread nD τ).loc r₀))
    (d : Buf (Elt F) ((c : Thread nD τ).loc r₀)) : pick c r₀ x r₀ d = x := by
  unfold pick; rw [dif_pos rfl]

theorem pick_ne (c : Dev nD) (r₀ : Ref sig .tc) (x : Buf (Elt F) ((c : Thread nD τ).loc r₀)) (r : Ref sig .tc)
    (d : Buf (Elt F) ((c : Thread nD τ).loc r)) (h : r ≠ r₀) : pick c r₀ x r d = d := by
  unfold pick; rw [dif_neg h]

/-- Region 0's two output arrays after its last point, every other reference at its launch contents. -/
def o4 : Outs (F := F) := fun _ r c =>
  pick c main_v42_0 ((dat0 (fun c b => V3 m c b) c).arrAt 6 cfg0.N) r
    (pick c main_v42_1 ((dat0 (fun c b => V3 m c b) c).arrAt 7 cfg0.N) r (V0 m c r))

/-- … then region 1's, entered from the contents region 0 and the host stretch after it leave, -/
def o6 : Outs (F := F) := fun j r c =>
  pick c main_v64_0 ((dat1 (fun c b => V5 m (o4 m) c b) c).arrAt 6 cfg1.N) r
    (pick c main_v64_1 ((dat1 (fun c b => V5 m (o4 m) c b) c).arrAt 7 cfg1.N) r (o4 m j r c))

/-- … then region 2's, -/
def o8 : Outs (F := F) := fun j r c =>
  pick c main_v86_0 ((dat2 (fun c b => V7 m (o6 m) c b) c).arrAt 6 cfg2.N) r
    (pick c main_v86_1 ((dat2 (fun c b => V7 m (o6 m) c b) c).arrAt 7 cfg2.N) r (o6 m j r c))

/-- … then region 3's one output array, -/
def o10 : Outs (F := F) := fun j r c =>
  pick c main_v88 ((dat3 (fun c b => V9 m (o8 m) c b) c).arrAt 2 cfg3.N) r (o8 m j r c)

/-- … region 4's, -/
def o11 : Outs (F := F) := fun j r c =>
  pick c main_v89 ((dat4 (fun c b => V10 m (o10 m) c b) c).arrAt 2 cfg4.N) r (o10 m j r c)

/-- … and region 5's: what each region leaves in the buffers it may change. -/
def outs : Outs (F := F) := fun j r c =>
  pick c main_v90 ((dat5 (fun c b => V11 m (o11 m) c b) c).arrAt 2 cfg5.N) r (o11 m j r c)

/-! ### Each layer agrees with the one before it off the references it sets -/

theorem outs_of (j : ℕ) (r : Ref sig .tc) (c : Dev nD) (h : r ≠ main_v90) : outs m j r c = o11 m j r c := pick_ne _ _ _ _ _ h
theorem o11_of (j : ℕ) (r : Ref sig .tc) (c : Dev nD) (h : r ≠ main_v89) : o11 m j r c = o10 m j r c := pick_ne _ _ _ _ _ h
theorem o10_of (j : ℕ) (r : Ref sig .tc) (c : Dev nD) (h : r ≠ main_v88) : o10 m j r c = o8 m j r c := pick_ne _ _ _ _ _ h
theorem o8_of (j : ℕ) (r : Ref sig .tc) (c : Dev nD) (h0 : r ≠ main_v86_0) (h1 : r ≠ main_v86_1) : o8 m j r c = o6 m j r c :=
  (pick_ne _ _ _ _ _ h0).trans (pick_ne _ _ _ _ _ h1)
theorem o6_of (j : ℕ) (r : Ref sig .tc) (c : Dev nD) (h0 : r ≠ main_v64_0) (h1 : r ≠ main_v64_1) : o6 m j r c = o4 m j r c :=
  (pick_ne _ _ _ _ _ h0).trans (pick_ne _ _ _ _ _ h1)

theorem outs_eq_o10 (j : ℕ) (r : Ref sig .tc) (c : Dev nD) (h0 : r ≠ main_v90) (h1 : r ≠ main_v89) : outs m j r c = o10 m j r c :=
  (outs_of m j r c h0).trans (o11_of m j r c h1)
theorem outs_eq_o8 (j : ℕ) (r : Ref sig .tc) (c : Dev nD) (h0 : r ≠ main_v90) (h1 : r ≠ main_v89) (h2 : r ≠ main_v88) :
    outs m j r c = o8 m j r c := (outs_eq_o10 m j r c h0 h1).trans (o10_of m j r c h2)
theorem outs_eq_o6 (j : ℕ) (r : Ref sig .tc) (c : Dev nD) (h0 : r ≠ main_v90) (h1 : r ≠ main_v89) (h2 : r ≠ main_v88)
    (h3 : r ≠ main_v86_0) (h4 : r ≠ main_v86_1) : outs m j r c = o6 m j r c :=
  (outs_eq_o8 m j r c h0 h1 h2).trans (o8_of m j r c h3 h4)
theorem outs_eq_o4 (j : ℕ) (r : Ref sig .tc) (c : Dev nD) (h0 : r ≠ main_v90) (h1 : r ≠ main_v89) (h2 : r ≠ main_v88)
    (h3 : r ≠ main_v86_0) (h4 : r ≠ main_v86_1) (h5 : r ≠ main_v64_0) (h6 : r ≠ main_v64_1) : outs m j r c = o4 m j r c :=
  (outs_eq_o6 m j r c h0 h1 h2 h3 h4).trans (o6_of m j r c h5 h6)

/-! ### The valuations read the unknowns only at the references the regions before them set -/

section Congr
variable {o o' : Outs (F := F)}
variable (h0 : ∀ c, o 4 main_v42_0 c = o' 4 main_v42_0 c) (h1 : ∀ c, o 4 main_v42_1 c = o' 4 main_v42_1 c)
include h0 h1
theorem V4_congr (c : Dev nD) : V4 m o c = V4 m o' c := by
  show Function.update (Function.update (V3 m c) _ (o 4 main_v42_0 c)) _ (o 4 main_v42_1 c) = Function.update (Function.update (V3 m c) _ (o' 4 main_v42_0 c)) _ (o' 4 main_v42_1 c)
  rw [h0 c, h1 c]
theorem V5_congr (c : Dev nD) : V5 m o c = V5 m o' c := congrArg (StableHlo.after hostOps1) (V4_congr m h0 h1 c)
variable (h2 : ∀ c, o 6 main_v64_0 c = o' 6 main_v64_0 c) (h3 : ∀ c, o 6 main_v64_1 c = o' 6 main_v64_1 c)
include h2 h3
theorem V6_congr (c : Dev nD) : V6 m o c = V6 m o' c := by
  show Function.update (Function.update (V5 m o c) _ (o 6 main_v64_0 c)) _ (o 6 main_v64_1 c) = Function.update (Function.update (V5 m o' c) _ (o' 6 main_v64_0 c)) _ (o' 6 main_v64_1 c)
  rw [h2 c, h3 c, V5_congr m h0 h1 c]
theorem V7_congr (c : Dev nD) : V7 m o c = V7 m o' c := congrArg (StableHlo.after hostOps2) (V6_congr m h0 h1 h2 h3 c)
variable (h4 : ∀ c, o 8 main_v86_0 c = o' 8 main_v86_0 c) (h5 : ∀ c, o 8 main_v86_1 c = o' 8 main_v86_1 c)
include h4 h5
theorem V8_congr (c : Dev nD) : V8 m o c = V8 m o' c := by
  show Function.update (Function.update (V7 m o c) _ (o 8 main_v86_0 c)) _ (o 8 main_v86_1 c) = Function.update (Function.update (V7 m o' c) _ (o' 8 main_v86_0 c)) _ (o' 8 main_v86_1 c)
  rw [h4 c, h5 c, V7_congr m h0 h1 h2 h3 c]
theorem V9_congr (c : Dev nD) : V9 m o c = V9 m o' c := congrArg (StableHlo.after hostOps3) (V8_congr m h0 h1 h2 h3 h4 h5 c)
variable (h6 : ∀ c, o 10 main_v88 c = o' 10 main_v88 c)
include h6
theorem V10_congr (c : Dev nD) : V10 m o c = V10 m o' c := by
  show Function.update (V9 m o c) _ (o 10 main_v88 c) = Function.update (V9 m o' c) _ (o' 10 main_v88 c)
  rw [h6 c, V9_congr m h0 h1 h2 h3 h4 h5 c]
variable (h7 : ∀ c, o 11 main_v89 c = o' 11 main_v89 c)
include h7
theorem V11_congr (c : Dev nD) : V11 m o c = V11 m o' c := by
  show Function.update (V10 m o c) _ (o 11 main_v89 c) = Function.update (V10 m o' c) _ (o' 11 main_v89 c)
  rw [h7 c, V10_congr m h0 h1 h2 h3 h4 h5 h6 c]
end Congr

/-- The contents region 1 is entered from read the unknowns where region 0 set them. -/
theorem V5_outs (c : Dev nD) : V5 m (outs m) c = V5 m (o4 m) c :=
  V5_congr m (fun c => outs_eq_o4 m 4 _ c (by decide) (by decide) (by decide) (by decide) (by decide) (by decide) (by decide))
    (fun c => outs_eq_o4 m 4 _ c (by decide) (by decide) (by decide) (by decide) (by decide) (by decide) (by decide)) c
theorem V7_outs (c : Dev nD) : V7 m (outs m) c = V7 m (o6 m) c :=
  V7_congr m (fun c => outs_eq_o6 m 4 _ c (by decide) (by decide) (by decide) (by decide) (by decide))
    (fun c => outs_eq_o6 m 4 _ c (by decide) (by decide) (by decide) (by decide) (by decide))
    (fun c => outs_eq_o6 m 6 _ c (by decide) (by decide) (by decide) (by decide) (by decide))
    (fun c => outs_eq_o6 m 6 _ c (by decide) (by decide) (by decide) (by decide) (by decide)) c
theorem V9_outs (c : Dev nD) : V9 m (outs m) c = V9 m (o8 m) c :=
  V9_congr m (fun c => outs_eq_o8 m 4 _ c (by decide) (by decide) (by decide))
    (fun c => outs_eq_o8 m 4 _ c (by decide) (by decide) (by decide))
    (fun c => outs_eq_o8 m 6 _ c (by decide) (by decide) (by decide))
    (fun c => outs_eq_o8 m 6 _ c (by decide) (by decide) (by decide))
    (fun c => outs_eq_o8 m 8 _ c (by decide) (by decide) (by decide))
    (fun c => outs_eq_o8 m 8 _ c (by decide) (by decide) (by decide)) c
theorem V10_outs (c : Dev nD) : V10 m (outs m) c = V10 m (o10 m) c :=
  V10_congr m (fun c => outs_eq_o10 m 4 _ c (by decide) (by decide))
    (fun c => outs_eq_o10 m 4 _ c (by decide) (by decide))
    (fun c => outs_eq_o10 m 6 _ c (by decide) (by decide))
    (fun c => outs_eq_o10 m 6 _ c (by decide) (by decide))
    (fun c => outs_eq_o10 m 8 _ c (by decide) (by decide))
    (fun c => outs_eq_o10 m 8 _ c (by decide) (by decide))
    (fun c => outs_eq_o10 m 10 _ c (by decide) (by decide)) c
theorem V11_outs (c : Dev nD) : V11 m (outs m) c = V11 m (o11 m) c :=
  V11_congr m (fun c => outs_of m 4 _ c (by decide)) (fun c => outs_of m 4 _ c (by decide))
    (fun c => outs_of m 6 _ c (by decide)) (fun c => outs_of m 6 _ c (by decide))
    (fun c => outs_of m 8 _ c (by decide)) (fun c => outs_of m 8 _ c (by decide))
    (fun c => outs_of m 10 _ c (by decide)) (fun c => outs_of m 11 _ c (by decide)) c

/-! ### The equations: each region's output arrays are what its pipeline leaves, entered from the contents before it -/

theorem outs_v42_0 (c : Dev nD) : outs m 4 main_v42_0 c = (dat0 (fun c b => V3 m c b) c).arrAt 6 cfg0.N :=
  (outs_eq_o4 m 4 _ c (by decide) (by decide) (by decide) (by decide) (by decide) (by decide) (by decide)).trans (pick_self _ _ _ _)
theorem outs_v42_1 (c : Dev nD) : outs m 4 main_v42_1 c = (dat0 (fun c b => V3 m c b) c).arrAt 7 cfg0.N :=
  (outs_eq_o4 m 4 _ c (by decide) (by decide) (by decide) (by decide) (by decide) (by decide) (by decide)).trans
    ((pick_ne _ _ _ _ _ (by decide)).trans (pick_self _ _ _ _))
theorem outs_v64_0 (c : Dev nD) : outs m 6 main_v64_0 c = (dat1 (fun c b => V5 m (outs m) c b) c).arrAt 6 cfg1.N := by
  rw [show (fun (c : Dev nD) (b : Ref sig .tc) => V5 m (outs m) c b) = fun (c : Dev nD) (b : Ref sig .tc) => V5 m (o4 m) c b from funext fun c => by rw [V5_outs m c]]
  exact (outs_eq_o6 m 6 _ c (by decide) (by decide) (by decide) (by decide) (by decide)).trans (pick_self _ _ _ _)
theorem outs_v64_1 (c : Dev nD) : outs m 6 main_v64_1 c = (dat1 (fun c b => V5 m (outs m) c b) c).arrAt 7 cfg1.N := by
  rw [show (fun (c : Dev nD) (b : Ref sig .tc) => V5 m (outs m) c b) = fun (c : Dev nD) (b : Ref sig .tc) => V5 m (o4 m) c b from funext fun c => by rw [V5_outs m c]]
  exact (outs_eq_o6 m 6 _ c (by decide) (by decide) (by decide) (by decide) (by decide)).trans
    ((pick_ne _ _ _ _ _ (by decide)).trans (pick_self _ _ _ _))
theorem outs_v86_0 (c : Dev nD) : outs m 8 main_v86_0 c = (dat2 (fun c b => V7 m (outs m) c b) c).arrAt 6 cfg2.N := by
  rw [show (fun (c : Dev nD) (b : Ref sig .tc) => V7 m (outs m) c b) = fun (c : Dev nD) (b : Ref sig .tc) => V7 m (o6 m) c b from funext fun c => by rw [V7_outs m c]]
  exact (outs_eq_o8 m 8 _ c (by decide) (by decide) (by decide)).trans (pick_self _ _ _ _)
theorem outs_v86_1 (c : Dev nD) : outs m 8 main_v86_1 c = (dat2 (fun c b => V7 m (outs m) c b) c).arrAt 7 cfg2.N := by
  rw [show (fun (c : Dev nD) (b : Ref sig .tc) => V7 m (outs m) c b) = fun (c : Dev nD) (b : Ref sig .tc) => V7 m (o6 m) c b from funext fun c => by rw [V7_outs m c]]
  exact (outs_eq_o8 m 8 _ c (by decide) (by decide) (by decide)).trans
    ((pick_ne _ _ _ _ _ (by decide)).trans (pick_self _ _ _ _))
theorem outs_v88 (c : Dev nD) : outs m 10 main_v88 c = (dat3 (fun c b => V9 m (outs m) c b) c).arrAt 2 cfg3.N := by
  rw [show (fun (c : Dev nD) (b : Ref sig .tc) => V9 m (outs m) c b) = fun (c : Dev nD) (b : Ref sig .tc) => V9 m (o8 m) c b from funext fun c => by rw [V9_outs m c]]
  exact (outs_eq_o10 m 10 _ c (by decide) (by decide)).trans (pick_self _ _ _ _)
theorem outs_v89 (c : Dev nD) : outs m 11 main_v89 c = (dat4 (fun c b => V10 m (outs m) c b) c).arrAt 2 cfg4.N := by
  rw [show (fun (c : Dev nD) (b : Ref sig .tc) => V10 m (outs m) c b) = fun (c : Dev nD) (b : Ref sig .tc) => V10 m (o10 m) c b from funext fun c => by rw [V10_outs m c]]
  exact (outs_of m 11 _ c (by decide)).trans (pick_self _ _ _ _)
theorem outs_v90 (c : Dev nD) : outs m 12 main_v90 c = (dat5 (fun c b => V11 m (outs m) c b) c).arrAt 2 cfg5.N := by
  rw [show (fun (c : Dev nD) (b : Ref sig .tc) => V11 m (outs m) c b) = fun (c : Dev nD) (b : Ref sig .tc) => V11 m (o11 m) c b from funext fun c => by rw [V11_outs m c]]
  exact pick_self _ _ _ _

/-! ## The proof data family and what rides beside the buffers -/

/-- Every pipeline's proof data, each at the contents its region is entered from — a literal match on the pipeline. -/
def pdats : (p : Fin 6) → (c : Dev nD) → Dat τ (Elt F) Unit ℕ (UR sig nD τ) ℕ (cfgs p) c
  | ⟨0, _⟩ => fun c => dat0 (fun c b => V3 m c b) c
  | ⟨1, _⟩ => fun c => dat1 (fun c b => V5 m (outs m) c b) c
  | ⟨2, _⟩ => fun c => dat2 (fun c b => V7 m (outs m) c b) c
  | ⟨3, _⟩ => fun c => dat3 (fun c b => V9 m (outs m) c b) c
  | ⟨4, _⟩ => fun c => dat4 (fun c b => V10 m (outs m) c b) c
  | ⟨5, _⟩ => fun c => dat5 (fun c b => V11 m (outs m) c b) c

/-- No core owes another anything: no level is assigned. -/
abbrev runL : GSem nD τ sig → Finset Unit := fun _ => ∅
abbrev runLv : GSem nD τ sig → Unit → ℕ := fun _ _ => 0
/-- What rides beside the buffers through every segment: the core's generator register at some state and its dues,
    at nothing. -/
abbrev runR (c : Dev nD) : sProp 𝕄 := iprop((∃ r, prngReg c r) ∗ ∃ W, owes (c : Thread nD τ) (0 : CellTallies nD τ sig Unit) W)

/-! ## A region as a segment, for any pipeline of the family

A region whose invariant takes the class's in at its first point and gives it back after its last, whose data hold
full shares and owe nothing, entered from every unscoped buffer at `Vin` beside the rest and left at `Vout`: the
windows' arrays are split out of the unscoped buffers at entry and put back at exit, where `Vout` has each array at
what the pipeline leaves and every other buffer as entered. -/

section MkReg

variable {p : Fin 6} (hl : Pipeline.LaunchFacts (nD := nD) (τ := τ) cfgs p)
  (Vin Vout : Dev nD → Valuation τ sig (Elt F))
  (hbody : ∀ c, BodyObligation (pdats m p c) (defs₀ (F := F)) Variants.none () Set.univ)
  (hq : ∀ c w, (pdats m p c).q w = fullShare)
  (howed : ∀ c t, (pdats m p c).owed t = 0)
  (hrec : ∀ c t, (pdats m p c).recorded t = Set.univ)
  (hA : ∀ c w, (pdats m p c).A w = Vin c (Pipeline.arrRef (cfgs p).spec w))
  (hF : ∀ c w, (pdats m p c).arrAt w (cfgs p).N = Vout c (Pipeline.arrRef (cfgs p).spec w))
  (hrest : ∀ c (b : Ref sig .tc), b ∉ Finset.univ.image (Pipeline.arrRef (cfgs p).spec) → Vout c b = Vin c b)
  (hΦin : ∀ c, Pipeline.ΦA (cfgs p).spec c ⊢ (pdats m p c).Φ 0)
  (hΦout : ∀ c, (pdats m p c).Φ (Fin.last (cfgs p).N) ⊢ Pipeline.ΦA (cfgs p).spec c)

set_option backward.isDefEq.respectTransparency.types false in
def mkReg : RegionSeg (pcfgs (F := F)) adm (pdats m) () defs₀ Variants.none runL runLv p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ runL runLv p howed
  pre c := iprop(StableHlo.held (c : Thread nD τ) (Pipeline.ucRefs τ sig) (Vin c) ∗ runR c)
  post c := iprop(StableHlo.held (c : Thread nD τ) (Pipeline.ucRefs τ sig) (Vout c) ∗ runR c)
  X c := iprop(∃ r, prngReg c r)
  Y c := iprop(∃ r, prngReg c r)
  Z c := Pipeline.unscopedRest (Ix := Unit) (Name := ℕ) (U := UR sig nD τ) (Lvl := ℕ) (cfgs p).spec c (fun b => Vin c b)
  hentry c := by
    rw [Pipeline.ownSems0_none]
    have hsplit := Pipeline.arrays_of_unscopedBufs (p := p) (pcfgs (F := F)) adm (pdats m) hl.win hl.arr_whole c
      ((pdats m p c).share_full (hq c)) (fun b => Vin c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hrec c 0]; trivial)
      rw [howed c 0]; iexact HO
    isplitl [Hp]; · iexact Hp
    iexact Hrest
  hin c := by
    have h := hΦin c
    unfold Pipeline.ΦA at h
    iintro ⟨Hp, -, Hr⟩
    iapply h
    isplitl [Hr]; · iexact Hr
    iexact Hp
  hout c := by
    have h := hΦout c
    unfold Pipeline.ΦA at h
    rw [Pipeline.ownSems0_none]
    iintro H
    ihave H' := h $$ H
    icases H' with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c (pdats m) ((pdats m p c).share_full (hq c))
      (fun b => Vin c b) (fun b => Vout c b) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; rw [howed c (Fin.last _)]; iexact HO

end MkReg

/-! ### Region 0: entered from `V3`, left at `V4` -/

/-- `V4` at the two references region 0 sets. -/
theorem V4_v42_0 (o : Outs (F := F)) (c : Dev nD) : V4 m o c main_v42_0 = o 4 main_v42_0 c := by
  simp only [V4, Function.update_of_ne (StableHlo.devRef_ne_of_ne (by decide) : (Proc.devRef .tc main_v42_0 : DevRef τ sig) ≠ Proc.devRef .tc main_v42_1), Function.update_self]
theorem V4_v42_1 (o : Outs (F := F)) (c : Dev nD) : V4 m o c main_v42_1 = o 4 main_v42_1 c := by
  simp only [V4, Function.update_self]

/-- An input window's array is never written back: it ends as the region found it, and no region writes it. -/
theorem hF0_in (c : Dev nD) (w : Fin 8) (hin : (cfg0.win w).isOut = false)
    (hw : Pipeline.arrRef spec0 w ∉ ([main_v42_0, main_v42_1] : List (Ref sig .tc))) :
    (dat0 (fun c b => V3 m c b) c).arrAt w cfg0.N = V4 m (outs m) c (Pipeline.arrRef spec0 w) :=
  ((dat0 (fun c b => V3 m c b) c).arrAt_in w hin _).trans ((A_eq0 (fun c b => V3 m c b) c w).trans (V4_of m (outs m) c (Pipeline.arrRef spec0 w) hw).symm)

set_option maxHeartbeats 2000000 in
/-- At region 0's exit each of its arrays holds what the pipeline leaves, -/
theorem hF0 (c : Dev nD) : ∀ w : Fin 8, (dat0 (fun c b => V3 m c b) c).arrAt w cfg0.N = V4 m (outs m) c (Pipeline.arrRef spec0 w)
  | ⟨0, _⟩ => hF0_in m c 0 rfl (by decide)
  | ⟨1, _⟩ => hF0_in m c 1 rfl (by decide)
  | ⟨2, _⟩ => hF0_in m c 2 rfl (by decide)
  | ⟨3, _⟩ => hF0_in m c 3 rfl (by decide)
  | ⟨4, _⟩ => hF0_in m c 4 rfl (by decide)
  | ⟨5, _⟩ => hF0_in m c 5 rfl (by decide)
  | ⟨6, _⟩ => (outs_v42_0 m c).symm.trans (V4_v42_0 m (outs m) c).symm
  | ⟨7, _⟩ => (outs_v42_1 m c).symm.trans (V4_v42_1 m (outs m) c).symm

/-- and every other buffer what it held at entry. -/
theorem hrest0 (c : Dev nD) (b : Ref sig .tc) (hb : b ∉ Finset.univ.image (Pipeline.arrRef spec0)) : V4 m (outs m) c b = V3 m c b :=
  V4_of m (outs m) c b fun hmem => by
    rcases List.mem_cons.mp hmem with rfl | hmem
    · exact hb (Finset.mem_image.mpr ⟨6, Finset.mem_univ _, rfl⟩)
    rcases List.mem_cons.mp hmem with rfl | hmem
    · exact hb (Finset.mem_image.mpr ⟨7, Finset.mem_univ _, rfl⟩)
    cases hmem

set_option backward.isDefEq.respectTransparency.types false in
/-- REGION 0 (custom_call 0) as a segment. -/
def reg0 : RegionSeg (pcfgs (F := F)) adm (pdats m) () defs₀ Variants.none runL runLv 0 :=
  mkReg m (p := 0) launch0 (V3 m) (V4 m (outs m)) (fun c => body_obligation0 (fun c b => V3 m c b) c)
    (fun c w => (rfl : (dat0 (fun c b => V3 m c b) c).q w = fullShare)) (fun c t => (rfl : (dat0 (fun c b => V3 m c b) c).owed t = 0))
    (fun c t => (rfl : (dat0 (fun c b => V3 m c b) c).recorded t = Set.univ))
    (fun c w => A_eq0 (fun c b => V3 m c b) c w) (hF0 m) (hrest0 m)
    (fun c => (BI.Entails.refl _ : Pipeline.ΦA spec0 c ⊢ (dat0 (fun c b => V3 m c b) c).Φ 0))
    (fun c => (BI.Entails.refl _ : (dat0 (fun c b => V3 m c b) c).Φ (Fin.last cfg0.N) ⊢ Pipeline.ΦA spec0 c))

/-! ### Region 1: entered from `V5`, left at `V6` -/

/-- `V6` at the two references region 1 sets. -/
theorem V6_v64_0 (o : Outs (F := F)) (c : Dev nD) : V6 m o c main_v64_0 = o 6 main_v64_0 c := by
  simp only [V6, Function.update_of_ne (StableHlo.devRef_ne_of_ne (by decide) : (Proc.devRef .tc main_v64_0 : DevRef τ sig) ≠ Proc.devRef .tc main_v64_1), Function.update_self]
theorem V6_v64_1 (o : Outs (F := F)) (c : Dev nD) : V6 m o c main_v64_1 = o 6 main_v64_1 c := by
  simp only [V6, Function.update_self]

/-- An input window's array is never written back: it ends as the region found it, and no region writes it. -/
theorem hF1_in (c : Dev nD) (w : Fin 8) (hin : (cfg1.win w).isOut = false)
    (hw : Pipeline.arrRef spec1 w ∉ ([main_v64_0, main_v64_1] : List (Ref sig .tc))) :
    (dat1 (fun c b => V5 m (outs m) c b) c).arrAt w cfg1.N = V6 m (outs m) c (Pipeline.arrRef spec1 w) :=
  ((dat1 (fun c b => V5 m (outs m) c b) c).arrAt_in w hin _).trans ((A_eq1 (fun c b => V5 m (outs m) c b) c w).trans (V6_of m (outs m) c (Pipeline.arrRef spec1 w) hw).symm)

set_option maxHeartbeats 2000000 in
/-- At region 1's exit each of its arrays holds what the pipeline leaves, -/
theorem hF1 (c : Dev nD) : ∀ w : Fin 8, (dat1 (fun c b => V5 m (outs m) c b) c).arrAt w cfg1.N = V6 m (outs m) c (Pipeline.arrRef spec1 w)
  | ⟨0, _⟩ => hF1_in m c 0 rfl (by decide)
  | ⟨1, _⟩ => hF1_in m c 1 rfl (by decide)
  | ⟨2, _⟩ => hF1_in m c 2 rfl (by decide)
  | ⟨3, _⟩ => hF1_in m c 3 rfl (by decide)
  | ⟨4, _⟩ => hF1_in m c 4 rfl (by decide)
  | ⟨5, _⟩ => hF1_in m c 5 rfl (by decide)
  | ⟨6, _⟩ => (outs_v64_0 m c).symm.trans (V6_v64_0 m (outs m) c).symm
  | ⟨7, _⟩ => (outs_v64_1 m c).symm.trans (V6_v64_1 m (outs m) c).symm

/-- and every other buffer what it held at entry. -/
theorem hrest1 (c : Dev nD) (b : Ref sig .tc) (hb : b ∉ Finset.univ.image (Pipeline.arrRef spec1)) : V6 m (outs m) c b = V5 m (outs m) c b :=
  V6_of m (outs m) c b fun hmem => by
    rcases List.mem_cons.mp hmem with rfl | hmem
    · exact hb (Finset.mem_image.mpr ⟨6, Finset.mem_univ _, rfl⟩)
    rcases List.mem_cons.mp hmem with rfl | hmem
    · exact hb (Finset.mem_image.mpr ⟨7, Finset.mem_univ _, rfl⟩)
    cases hmem

set_option backward.isDefEq.respectTransparency.types false in
/-- REGION 1 (custom_call 1) as a segment. -/
def reg1 : RegionSeg (pcfgs (F := F)) adm (pdats m) () defs₀ Variants.none runL runLv 1 :=
  mkReg m (p := 1) launch1 (V5 m (outs m)) (V6 m (outs m)) (fun c => body_obligation1 (fun c b => V5 m (outs m) c b) c)
    (fun c w => (rfl : (dat1 (fun c b => V5 m (outs m) c b) c).q w = fullShare)) (fun c t => (rfl : (dat1 (fun c b => V5 m (outs m) c b) c).owed t = 0))
    (fun c t => (rfl : (dat1 (fun c b => V5 m (outs m) c b) c).recorded t = Set.univ))
    (fun c w => A_eq1 (fun c b => V5 m (outs m) c b) c w) (hF1 m) (hrest1 m)
    (fun c => (BI.Entails.refl _ : Pipeline.ΦA spec1 c ⊢ (dat1 (fun c b => V5 m (outs m) c b) c).Φ 0))
    (fun c => (BI.Entails.refl _ : (dat1 (fun c b => V5 m (outs m) c b) c).Φ (Fin.last cfg1.N) ⊢ Pipeline.ΦA spec1 c))

/-! ### Region 2: entered from `V7`, left at `V8` -/

/-- `V8` at the two references region 2 sets. -/
theorem V8_v86_0 (o : Outs (F := F)) (c : Dev nD) : V8 m o c main_v86_0 = o 8 main_v86_0 c := by
  simp only [V8, Function.update_of_ne (StableHlo.devRef_ne_of_ne (by decide) : (Proc.devRef .tc main_v86_0 : DevRef τ sig) ≠ Proc.devRef .tc main_v86_1), Function.update_self]
theorem V8_v86_1 (o : Outs (F := F)) (c : Dev nD) : V8 m o c main_v86_1 = o 8 main_v86_1 c := by
  simp only [V8, Function.update_self]

/-- An input window's array is never written back: it ends as the region found it, and no region writes it. -/
theorem hF2_in (c : Dev nD) (w : Fin 8) (hin : (cfg2.win w).isOut = false)
    (hw : Pipeline.arrRef spec2 w ∉ ([main_v86_0, main_v86_1] : List (Ref sig .tc))) :
    (dat2 (fun c b => V7 m (outs m) c b) c).arrAt w cfg2.N = V8 m (outs m) c (Pipeline.arrRef spec2 w) :=
  ((dat2 (fun c b => V7 m (outs m) c b) c).arrAt_in w hin _).trans ((A_eq2 (fun c b => V7 m (outs m) c b) c w).trans (V8_of m (outs m) c (Pipeline.arrRef spec2 w) hw).symm)

set_option maxHeartbeats 2000000 in
/-- At region 2's exit each of its arrays holds what the pipeline leaves, -/
theorem hF2 (c : Dev nD) : ∀ w : Fin 8, (dat2 (fun c b => V7 m (outs m) c b) c).arrAt w cfg2.N = V8 m (outs m) c (Pipeline.arrRef spec2 w)
  | ⟨0, _⟩ => hF2_in m c 0 rfl (by decide)
  | ⟨1, _⟩ => hF2_in m c 1 rfl (by decide)
  | ⟨2, _⟩ => hF2_in m c 2 rfl (by decide)
  | ⟨3, _⟩ => hF2_in m c 3 rfl (by decide)
  | ⟨4, _⟩ => hF2_in m c 4 rfl (by decide)
  | ⟨5, _⟩ => hF2_in m c 5 rfl (by decide)
  | ⟨6, _⟩ => (outs_v86_0 m c).symm.trans (V8_v86_0 m (outs m) c).symm
  | ⟨7, _⟩ => (outs_v86_1 m c).symm.trans (V8_v86_1 m (outs m) c).symm

/-- and every other buffer what it held at entry. -/
theorem hrest2 (c : Dev nD) (b : Ref sig .tc) (hb : b ∉ Finset.univ.image (Pipeline.arrRef spec2)) : V8 m (outs m) c b = V7 m (outs m) c b :=
  V8_of m (outs m) c b fun hmem => by
    rcases List.mem_cons.mp hmem with rfl | hmem
    · exact hb (Finset.mem_image.mpr ⟨6, Finset.mem_univ _, rfl⟩)
    rcases List.mem_cons.mp hmem with rfl | hmem
    · exact hb (Finset.mem_image.mpr ⟨7, Finset.mem_univ _, rfl⟩)
    cases hmem

set_option backward.isDefEq.respectTransparency.types false in
/-- REGION 2 (custom_call 2) as a segment. -/
def reg2 : RegionSeg (pcfgs (F := F)) adm (pdats m) () defs₀ Variants.none runL runLv 2 :=
  mkReg m (p := 2) launch2 (V7 m (outs m)) (V8 m (outs m)) (fun c => body_obligation2 (fun c b => V7 m (outs m) c b) c)
    (fun c w => (rfl : (dat2 (fun c b => V7 m (outs m) c b) c).q w = fullShare)) (fun c t => (rfl : (dat2 (fun c b => V7 m (outs m) c b) c).owed t = 0))
    (fun c t => (rfl : (dat2 (fun c b => V7 m (outs m) c b) c).recorded t = Set.univ))
    (fun c w => A_eq2 (fun c b => V7 m (outs m) c b) c w) (hF2 m) (hrest2 m)
    (fun c => (BI.Entails.refl _ : Pipeline.ΦA spec2 c ⊢ (dat2 (fun c b => V7 m (outs m) c b) c).Φ 0))
    (fun c => (BI.Entails.refl _ : (dat2 (fun c b => V7 m (outs m) c b) c).Φ (Fin.last cfg2.N) ⊢ Pipeline.ΦA spec2 c))

/-! ### Region 3: entered from `V9`, left at `V10` -/

/-- `V10` at the reference region 3 sets. -/
theorem V10_v88 (o : Outs (F := F)) (c : Dev nD) : V10 m o c main_v88 = o 10 main_v88 c := by
  simp only [V10, Function.update_self]

/-- An input window's array is never written back: it ends as the region found it, and no region writes it. -/
theorem hF3_in (c : Dev nD) (w : Fin 3) (hin : (cfg3.win w).isOut = false)
    (hw : Pipeline.arrRef spec3 w ∉ ([main_v88] : List (Ref sig .tc))) :
    (dat3 (fun c b => V9 m (outs m) c b) c).arrAt w cfg3.N = V10 m (outs m) c (Pipeline.arrRef spec3 w) :=
  ((dat3 (fun c b => V9 m (outs m) c b) c).arrAt_in w hin _).trans ((A_eq3 (fun c b => V9 m (outs m) c b) c w).trans (V10_of m (outs m) c (Pipeline.arrRef spec3 w) hw).symm)

/-- At region 3's exit each of its arrays holds what the pipeline leaves, -/
theorem hF3 (c : Dev nD) : ∀ w : Fin 3, (dat3 (fun c b => V9 m (outs m) c b) c).arrAt w cfg3.N = V10 m (outs m) c (Pipeline.arrRef spec3 w)
  | ⟨0, _⟩ => hF3_in m c 0 rfl (by decide)
  | ⟨1, _⟩ => hF3_in m c 1 rfl (by decide)
  | ⟨2, _⟩ => (outs_v88 m c).symm.trans (V10_v88 m (outs m) c).symm

/-- and every other buffer what it held at entry. -/
theorem hrest3 (c : Dev nD) (b : Ref sig .tc) (hb : b ∉ Finset.univ.image (Pipeline.arrRef spec3)) : V10 m (outs m) c b = V9 m (outs m) c b :=
  V10_of m (outs m) c b fun hmem => by
    rcases List.mem_cons.mp hmem with rfl | hmem
    · exact hb (Finset.mem_image.mpr ⟨2, Finset.mem_univ _, rfl⟩)
    cases hmem

set_option backward.isDefEq.respectTransparency.types false in
/-- REGION 3 (custom_call 3) as a segment: the class's invariant goes into the carried scratch's at the first point and
    comes back out of it after the last. -/
def reg3 : RegionSeg (pcfgs (F := F)) adm (pdats m) () defs₀ Variants.none runL runLv 3 :=
  mkReg m (p := 3) launch3 (V9 m (outs m)) (V10 m (outs m)) (fun c => body_obligation3 (fun c b => V9 m (outs m) c b) c)
    (fun c w => (rfl : (dat3 (fun c b => V9 m (outs m) c b) c).q w = fullShare)) (fun c t => (rfl : (dat3 (fun c b => V9 m (outs m) c b) c).owed t = 0))
    (fun c t => (rfl : (dat3 (fun c b => V9 m (outs m) c b) c).recorded t = Set.univ))
    (fun c w => A_eq3 (fun c b => V9 m (outs m) c b) c w) (hF3 m) (hrest3 m) (fun c => hin3 (fun c b => V9 m (outs m) c b) c) (fun c => hout3 (fun c b => V9 m (outs m) c b) c)

/-! ### Region 4: entered from `V10`, left at `V11` -/

/-- `V11` at the reference region 4 sets. -/
theorem V11_v89 (o : Outs (F := F)) (c : Dev nD) : V11 m o c main_v89 = o 11 main_v89 c := by
  simp only [V11, Function.update_self]

/-- An input window's array is never written back: it ends as the region found it, and no region writes it. -/
theorem hF4_in (c : Dev nD) (w : Fin 3) (hin : (cfg4.win w).isOut = false)
    (hw : Pipeline.arrRef spec4 w ∉ ([main_v89] : List (Ref sig .tc))) :
    (dat4 (fun c b => V10 m (outs m) c b) c).arrAt w cfg4.N = V11 m (outs m) c (Pipeline.arrRef spec4 w) :=
  ((dat4 (fun c b => V10 m (outs m) c b) c).arrAt_in w hin _).trans ((A_eq4 (fun c b => V10 m (outs m) c b) c w).trans (V11_of m (outs m) c (Pipeline.arrRef spec4 w) hw).symm)

/-- At region 4's exit each of its arrays holds what the pipeline leaves, -/
theorem hF4 (c : Dev nD) : ∀ w : Fin 3, (dat4 (fun c b => V10 m (outs m) c b) c).arrAt w cfg4.N = V11 m (outs m) c (Pipeline.arrRef spec4 w)
  | ⟨0, _⟩ => hF4_in m c 0 rfl (by decide)
  | ⟨1, _⟩ => hF4_in m c 1 rfl (by decide)
  | ⟨2, _⟩ => (outs_v89 m c).symm.trans (V11_v89 m (outs m) c).symm

/-- and every other buffer what it held at entry. -/
theorem hrest4 (c : Dev nD) (b : Ref sig .tc) (hb : b ∉ Finset.univ.image (Pipeline.arrRef spec4)) : V11 m (outs m) c b = V10 m (outs m) c b :=
  V11_of m (outs m) c b fun hmem => by
    rcases List.mem_cons.mp hmem with rfl | hmem
    · exact hb (Finset.mem_image.mpr ⟨2, Finset.mem_univ _, rfl⟩)
    cases hmem

set_option backward.isDefEq.respectTransparency.types false in
/-- REGION 4 (custom_call 4) as a segment: the class's invariant goes into the carried scratch's at the first point and
    comes back out of it after the last. -/
def reg4 : RegionSeg (pcfgs (F := F)) adm (pdats m) () defs₀ Variants.none runL runLv 4 :=
  mkReg m (p := 4) launch4 (V10 m (outs m)) (V11 m (outs m)) (fun c => body_obligation4 (fun c b => V10 m (outs m) c b) c)
    (fun c w => (rfl : (dat4 (fun c b => V10 m (outs m) c b) c).q w = fullShare)) (fun c t => (rfl : (dat4 (fun c b => V10 m (outs m) c b) c).owed t = 0))
    (fun c t => (rfl : (dat4 (fun c b => V10 m (outs m) c b) c).recorded t = Set.univ))
    (fun c w => A_eq4 (fun c b => V10 m (outs m) c b) c w) (hF4 m) (hrest4 m) (fun c => hin4 (fun c b => V10 m (outs m) c b) c) (fun c => hout4 (fun c b => V10 m (outs m) c b) c)

/-! ### Region 5: entered from `V11`, left at `V12` -/

/-- `V12` at the reference region 5 sets. -/
theorem V12_v90 (o : Outs (F := F)) (c : Dev nD) : V12 m o c main_v90 = o 12 main_v90 c := by
  simp only [V12, Function.update_self]

/-- An input window's array is never written back: it ends as the region found it, and no region writes it. -/
theorem hF5_in (c : Dev nD) (w : Fin 3) (hin : (cfg5.win w).isOut = false)
    (hw : Pipeline.arrRef spec5 w ∉ ([main_v90] : List (Ref sig .tc))) :
    (dat5 (fun c b => V11 m (outs m) c b) c).arrAt w cfg5.N = V12 m (outs m) c (Pipeline.arrRef spec5 w) :=
  ((dat5 (fun c b => V11 m (outs m) c b) c).arrAt_in w hin _).trans ((A_eq5 (fun c b => V11 m (outs m) c b) c w).trans (V12_of m (outs m) c (Pipeline.arrRef spec5 w) hw).symm)

/-- At region 5's exit each of its arrays holds what the pipeline leaves, -/
theorem hF5 (c : Dev nD) : ∀ w : Fin 3, (dat5 (fun c b => V11 m (outs m) c b) c).arrAt w cfg5.N = V12 m (outs m) c (Pipeline.arrRef spec5 w)
  | ⟨0, _⟩ => hF5_in m c 0 rfl (by decide)
  | ⟨1, _⟩ => hF5_in m c 1 rfl (by decide)
  | ⟨2, _⟩ => (outs_v90 m c).symm.trans (V12_v90 m (outs m) c).symm

/-- and every other buffer what it held at entry. -/
theorem hrest5 (c : Dev nD) (b : Ref sig .tc) (hb : b ∉ Finset.univ.image (Pipeline.arrRef spec5)) : V12 m (outs m) c b = V11 m (outs m) c b :=
  V12_of m (outs m) c b fun hmem => by
    rcases List.mem_cons.mp hmem with rfl | hmem
    · exact hb (Finset.mem_image.mpr ⟨2, Finset.mem_univ _, rfl⟩)
    cases hmem

set_option backward.isDefEq.respectTransparency.types false in
/-- REGION 5 (custom_call 5) as a segment: the class's invariant goes into the carried scratch's at the first point and
    comes back out of it after the last. -/
def reg5 : RegionSeg (pcfgs (F := F)) adm (pdats m) () defs₀ Variants.none runL runLv 5 :=
  mkReg m (p := 5) launch5 (V11 m (outs m)) (V12 m (outs m)) (fun c => body_obligation5 (fun c b => V11 m (outs m) c b) c)
    (fun c w => (rfl : (dat5 (fun c b => V11 m (outs m) c b) c).q w = fullShare)) (fun c t => (rfl : (dat5 (fun c b => V11 m (outs m) c b) c).owed t = 0))
    (fun c t => (rfl : (dat5 (fun c b => V11 m (outs m) c b) c).recorded t = Set.univ))
    (fun c w => A_eq5 (fun c b => V11 m (outs m) c b) c w) (hF5 m) (hrest5 m) (fun c => hin5 (fun c b => V11 m (outs m) c b) c) (fun c => hout5 (fun c b => V11 m (outs m) c b) c)

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The rest beside any state is the generator register beside it, and the core owing nothing. -/
theorem runR_split (P : sProp 𝕄) (c : Dev nD) :
    iprop(P ∗ runR c) ⊢ iprop((P ∗ ∃ r, prngReg c r) ∗ ∃ W, owes (c : Thread nD τ) (0 : CellTallies nD τ sig Unit) W) := by
  iintro ⟨Hh, Hp, HO⟩
  isplitl [Hh Hp]
  · isplitl [Hh] <;> iassumption
  iexact HO

set_option backward.isDefEq.respectTransparency.types false in
/-- THE RUN. From any memory with zero counters, every weakly fair execution of @main terminates, and every final memory
    holds, on every core, every unscoped buffer at the last valuation: the launch contents carried through the host
    stretches, each region's output arrays at what its pipeline leaves. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = V13 m (outs m) c b) := by
  refine Pipeline.θ_run_regions_kit_dev (pcfgs (F := F)) adm (pdats m) () cellOf_inj emb₁ defs₀ Variants.none runL runLv m ρ main
    (segs m (outs m) Variants.none runL runLv (fun _ => runR) () (pdats m) (reg0 m) (reg1 m) (reg2 m) (reg3 m) (reg4 m) (reg5 m))
    (fun c Q => by
      rewrite [main_chain c, Seg.run_eq_chain,
        show (segs m (outs m) Variants.none runL runLv (fun _ => runR) () (pdats m) (reg0 m) (reg1 m) (reg2 m) (reg3 m) (reg4 m) (reg5 m) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          Prog.lift (.customCall (Pipeline.entry 4) ()),
          Prog.lift (.customCall (Pipeline.entry 5) ()),
          StableHlo.seq hostOps6 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ runR c))
    (Tₙ := fun c => iprop(StableHlo.held (c : Thread nD τ) (Pipeline.ucRefs τ sig) (V13 m (outs m) c) ∗ ∃ r, prngReg c r))
    (hch := fun c => ⟨.rfl, .rfl, .rfl, .rfl, .rfl, .rfl, .rfl, .rfl, .rfl, .rfl, .rfl, .rfl, .rfl, runR_split _ c⟩)
    (hinit := by
      refine Pipeline.initEach runL runLv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = V13 m (outs m) c b)
    (hfin := fun c s' => by
      iintro ⟨⟨Hh, -⟩, HSI⟩
      unfold StableHlo.held
      imodintro
      iapply (pointsTo_read_all (Pipeline.ucRefs τ sig) (fun b => ((c : Thread nD τ).1, b)) (V13 m (outs m) c) s')
      isplitl [Hh] <;> iassumption)
    (hQ := fun s h => h)

/-- THE FRAME: every argument array ends as launched — no host stretch writes one and no region may change one, so the
    last valuation at an argument walks back to the launch memory. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (V13_main_arg0 m (outs m) c),
      (h c _ (mem_uc main_arg1 (by decide))).trans (V13_main_arg1 m (outs m) c),
      (h c _ (mem_uc main_arg2 (by decide))).trans (V13_main_arg2 m (outs m) c),
      (h c _ (mem_uc main_arg3 (by decide))).trans (V13_main_arg3 m (outs m) c),
      (h c _ (mem_uc main_arg4 (by decide))).trans (V13_main_arg4 m (outs m) c),
      (h c _ (mem_uc main_arg5 (by decide))).trans (V13_main_arg5 m (outs m) c),
      (h c _ (mem_uc main_arg6 (by decide))).trans (V13_main_arg6 m (outs m) c)⟩) (run_all m ρ)

end Run

end Cert.KernelIdeal.Gen

end
-- ==== Proof.Spec.lean ====
/-
  What the network computes, index by index, over the extended reals.

  One layer sends the node features h (50000 rows of 128) to relu(relu((S h + h) W1 + b1) W2 + b2), where
  (S h)(n, q) is the sum, over the edges e whose destination is the node n, of h(row(src e), q): the source
  index is read as a signed integer, a negative one moved up by the number of nodes, and the result clamped into
  the node range; an edge whose destination, read signed, is no node contributes nothing.  The pooled features
  of a graph g are the sum of the rows of the nodes whose batch entry is g.
-/
import Idealize.ShloMosaic.PureOps.Ideal
import Idealize.ShloMosaic.Lib.ValueIdx

noncomputable section

namespace Cert.Spec

open Idealize.ShloMosaic Idealize.ShloMosaic.ValueIdx

/-- Node features, one layer's weight matrix, its bias as one row, the pooled features, a column of batch entries. -/
abbrev Nodes : Type := (⟨2, ![50000, 128]⟩ : Shape).Idx → EReal
abbrev Mat : Type := (⟨2, ![128, 128]⟩ : Shape).Idx → EReal
abbrev Row : Type := (⟨2, ![1, 128]⟩ : Shape).Idx → EReal
abbrev Pooled : Type := (⟨2, ![500, 128]⟩ : Shape).Idx → EReal
abbrev BatchCol : Type := (⟨2, ![50000, 1]⟩ : Shape).Idx → BitVec 32

/-- The row a source index names: read signed, moved up by 50000 when negative (in 32-bit arithmetic), clamped into
    the 50000 rows. -/
def srcRow (s : BitVec 32) : Fin 50000 :=
  ⟨min (if s.slt 0#32 then s + 50000#32 else s).toInt.toNat (50000 - 1), by omega⟩

/-- The neighbourhood sum: at (n, q), the sum over the edges whose destination is n of h at (the source's row, q). -/
def segSum (h : Nodes) (src dst : Fin 800000 → BitVec 32) : Nodes :=
  fun i => ∑ e : Fin 800000, if (dst e).toInt = ((i 0).val : Int) then h (ix2 (srcRow (src e)) (i 1)) else 0

/-- The hidden row of the two-layer perceptron at node n, column k, from the aggregate a. -/
def hidden (a : Nodes) (w1 : Mat) (b1 : Row) (n : Fin 50000) (k : Fin 128) : EReal :=
  max ((∑ k' : Fin 128, a (ix2 n k') * w1 (ix2 k' k)) + b1 (ix2 (0 : Fin 1) k)) 0

/-- The perceptron's output at (n, j) from the aggregate a. -/
def mlpAt (a : Nodes) (w1 : Mat) (b1 : Row) (w2 : Mat) (b2 : Row) (n : Fin 50000) (j : Fin 128) : EReal :=
  max ((∑ k : Fin 128, hidden a w1 b1 n k * w2 (ix2 k j)) + b2 (ix2 (0 : Fin 1) j)) 0

/-- One layer's perceptron on the aggregate `seg + h`. -/
def mlp (seg h : Nodes) (w1 : Mat) (b1 : Row) (w2 : Mat) (b2 : Row) : Nodes :=
  fun i => mlpAt (fun y => seg y + h y) w1 b1 w2 b2 (i 0) (i 1)

/-- The pooled features: at (g, d), the sum over the nodes whose batch entry is g of x(n, d). -/
def pool (b : BatchCol) (x : Nodes) : Pooled :=
  fun i => ∑ n : Fin 50000, if b (ix2 n (0 : Fin 1)) = BitVec.ofNat 32 (i 0).val then x (ix2 n (i 1)) else 0

theorem mlp_apply (seg h : Nodes) (w1 : Mat) (b1 : Row) (w2 : Mat) (b2 : Row) (n : Fin 50000) (j : Fin 128) :
    mlp seg h w1 b1 w2 b2 (ix2 n j) = mlpAt (fun y => seg y + h y) w1 b1 w2 b2 n j := rfl

theorem pool_apply (b : BatchCol) (x : Nodes) (g : Fin 500) (d : Fin 128) :
    pool b x (ix2 g d) = ∑ n : Fin 50000, if b (ix2 n (0 : Fin 1)) = BitVec.ofNat 32 g.val then x (ix2 n d) else 0 := rfl

theorem segSum_apply (h : Nodes) (src dst : Fin 800000 → BitVec 32) (n : Fin 50000) (q : Fin 128) :
    segSum h src dst (ix2 n q) = ∑ e : Fin 800000, if (dst e).toInt = (n.val : Int) then h (ix2 (srcRow (src e)) q) else 0 := rfl

end Cert.Spec

end
-- ==== Proof.LibCols.lean ====
/-
  Two re-layings of a vector that agree: a vector of n entries laid out as one row [1, n] by a reshape is the
  same array as its broadcast along a new leading axis of extent one, and laid out as one column [N, 1] the same
  as its broadcast along a new trailing axis of extent one.
-/
import Idealize.ShloMosaic.Lib.Pipeline.Value
import Idealize.ShloMosaic.Lib.ValueIdx

noncomputable section

namespace Cert.LibCols

open Idealize.ShloMosaic Idealize.ShloMosaic.ValueIdx

/-- A vector reshaped to one row is the vector broadcast to one row: both hold v(k) at (0, k). -/
theorem shapeCast_row_eq_bcast {α : Type} {n : Nat} (hn : n ≠ 1) (v : (⟨1, ![n]⟩ : Shape).Idx → α)
    (h : (⟨1, ![n]⟩ : Shape).ShapeCasts ⟨2, ![1, n]⟩)
    (h' : (⟨1, ![n]⟩ : Shape).BroadcastsInDim ⟨2, ![1, n]⟩ ![1]) :
    shapeCast ⟨2, ![1, n]⟩ v h = broadcastInDim ⟨2, ![1, n]⟩ ![1] h' v := by
  funext j
  have e1 : shapeCast ⟨2, ![1, n]⟩ v h j = v (ix1 (j 1)) := by
    refine shapeCast_apply v h j (ix1 (j 1)) ?_
    have h0 : (j 0).val = 0 := by have := (j 0).isLt; simp at this; omega
    rw [Shape.rowMajor_val_two]
    show (Shape.rowMajor (⟨1, ![n]⟩ : Shape) (ix1 (j 1))).val = _
    simp [Shape.rowMajor_val_one, h0]
    rfl
  have e2 : broadcastInDim ⟨2, ![1, n]⟩ ![1] h' v j = v (ix1 (j 1)) := by
    refine broadcastInDim_apply _ h' v j (ix1 (j 1)) ?_
    intro a
    match a with
    | ⟨0, _⟩ =>
      show (j 1).val = if n = 1 then 0 else (j 1).val
      rw [if_neg hn]
  rw [e1, e2]

/-- A vector reshaped to one column is the vector broadcast to one column: both hold b(r) at (r, 0). -/
theorem shapeCast_col_eq_bcast {α : Type} {N : Nat} (hN : N ≠ 1) (b : (⟨1, ![N]⟩ : Shape).Idx → α)
    (h : (⟨1, ![N]⟩ : Shape).ShapeCasts ⟨2, ![N, 1]⟩)
    (h' : (⟨1, ![N]⟩ : Shape).BroadcastsInDim ⟨2, ![N, 1]⟩ ![0]) :
    shapeCast ⟨2, ![N, 1]⟩ b h = broadcastInDim ⟨2, ![N, 1]⟩ ![0] h' b := by
  funext j
  have e1 : shapeCast ⟨2, ![N, 1]⟩ b h j = b (ix1 (j 0)) := by
    refine shapeCast_apply b h j (ix1 (j 0)) ?_
    have h1 : (j 1).val = 0 := by have := (j 1).isLt; simp at this; omega
    rw [Shape.rowMajor_val_two]
    show (Shape.rowMajor (⟨1, ![N]⟩ : Shape) (ix1 (j 0))).val = _
    simp [Shape.rowMajor_val_one, h1]
    rfl
  have e2 : broadcastInDim ⟨2, ![N, 1]⟩ ![0] h' b j = b (ix1 (j 0)) := by
    refine broadcastInDim_apply _ h' b j (ix1 (j 0)) ?_
    intro a
    match a with
    | ⟨0, _⟩ =>
      show (j 0).val = if N = 1 then 0 else (j 0).val
      rw [if_neg hN]
  rw [e1, e2]

end Cert.LibCols

end
-- ==== Proof.LibRows.lean ====
/-
  Rows taken from, and rows added into, a two-dimensional table: `stablehlo.gather` and the accumulating
  `stablehlo.scatter` with one start index per row, read at an index.

  `table[idx]` over a table of N rows and K columns reads, at result position (e, q), the table's entry
  (r, q) where r is the e-th start index read as a signed integer and clamped into [0, N - 1].  The
  accumulating scatter with the same dimension numbers sends update (e, q) to table entry (r, q) where r
  is the e-th start index read signed and NOT clamped: the update is dropped when r is outside [0, N).
-/
import Idealize.ShloMosaic.PureOps.Ideal
import Idealize.ShloMosaic.Lib.ValueIdx
import Idealize.ShloMosaic.Lib.StableHlo.Predicate

noncomputable section

namespace Cert.LibRows

open Idealize.ShloMosaic Idealize.ShloMosaic.ValueIdx

/-- A start index read as a signed integer and clamped into the rows [0, N - 1] of a table. -/
def clampRow (N : Nat) (hN : 0 < N) {w : Nat} (b : BitVec w) : Fin N := ⟨min b.toInt.toNat (N - 1), by omega⟩

/-- A start index that, read signed, IS the row `r` clamps to `r`. -/
theorem clampRow_of_toInt {N : Nat} (hN : 0 < N) {w : Nat} (b : BitVec w) (r : Fin N) (h : b.toInt = (r.val : Int)) :
    clampRow N hN b = r := by
  apply Fin.ext
  show min b.toInt.toNat (N - 1) = r.val
  have hr := r.isLt
  rw [h, Int.toNat_natCast]
  omega

/-- Rows of a two-dimensional table taken at a column of start indices: result (e, q) is the table at
    (the e-th start index clamped, q). -/
theorem gather_rows_apply {α : Type} {N E K w : Nat} (hN : 0 < N)
    (d : GatherDims ⟨2, ![N, K]⟩ ⟨2, ![E, 1]⟩ ⟨2, ![E, K]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, K]⟩ : Shape).Idx → α) (idx : IVec ⟨2, ![E, 1]⟩ w) (e : Fin E) (q : Fin K) :
    Host.gather d x idx (ix2 e q) = x (ix2 (clampRow N hN (idx (ix2 e (0 : Fin 1)))) q) := by
  unfold Host.gather
  congr 1
  funext a
  have hb : ∀ a : Fin 2, a ∉ d.operandBatchingDims := fun a => by rw [hob]; exact List.not_mem_nil
  -- the result's batch axes are [0], its offset axes [1]
  have hbd : d.batchDims = [0] := by
    show Shape.kept _ d.offsetDims = [0]
    rw [hoff]; rfl
  have hbm : ∀ a ∈ d.batchDims, a = 0 := fun a ha => by
    rw [hbd] at ha; exact List.mem_singleton.mp ha
  have hom : ∀ a ∈ d.offsetDims, a = 1 := fun a ha => by
    rw [hoff] at ha; exact List.mem_singleton.mp ha
  have hb0 : ∀ (i : Nat) (hi : i < d.batchDims.length), d.batchDims[i] = 0 := fun i hi =>
    hbm _ (List.getElem_mem hi)
  have ho1 : ∀ (i : Nat) (hi : i < d.offsetDims.length), d.offsetDims[i] = 1 := fun i hi =>
    hom _ (List.getElem_mem hi)
  have c0 : ∀ a : Fin 2, a = 0 → ((ix2 e q) a).val = e.val := by rintro _ rfl; rfl
  have c1 : ∀ a : Fin 2, a = 1 → ((ix2 e q) a).val = q.val := by rintro _ rfl; rfl
  match a with
  | ⟨0, _⟩ =>
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e q) idx 0 + d.batchCoord (ix2 e q) 0 + d.offCoord (ix2 e q) 0 = _
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ix2 e (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact c0 _ (hb0 _ _)
    | ⟨1, _⟩ =>
      unfold GatherDims.siIdx
      rw [dif_pos (by rw [hivd])]
      apply Fin.ext
      show List.idxOf (0 : Fin 2) d.startIndexMap = 0
      rw [hsim]; simp
  | ⟨1, _⟩ =>
    apply Fin.ext
    have hk : (1 : Fin 2) ∈ d.sKept := by rw [GatherDims.mem_sKept, hcoll, hob]; simp
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb 1), Nat.add_zero]
    unfold GatherDims.start GatherDims.offCoord
    rw [dif_neg hm, dif_pos hk, Nat.zero_add]
    exact c1 _ (ho1 _ _)

/-- Entries of a one-dimensional table taken at a column of start indices: result e is the table at the
    e-th start index clamped. -/
theorem gather_take_apply1 {α : Type} {N E w : Nat} (hN : 0 < N)
    (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (e : Fin E) :
    Host.gather d x idx (ix1 e) = x (ix1 (clampRow N hN (idx (ix2 e (0 : Fin 1))))) := by
  -- the two spellings of a rank-1 index, and of row e of a one-column table, agree coordinate by coordinate
  have e1 : ∀ {n : Nat} (k : Fin n), (Shape.Idx.ofFin k : (⟨1, ![n]⟩ : Shape).Idx) = ix1 k := fun k => by
    funext a; match a with | ⟨0, _⟩ => rfl
  have e2 : StableHlo.Predicate.ixP e = ix2 e (0 : Fin 1) := by
    funext a; match a with | ⟨0, _⟩ => rfl | ⟨1, _⟩ => rfl
  rw [← e1 e, StableHlo.Predicate.gather_take d hcoll hob hsim hivd x idx e hN, e1]
  congr 2
  apply Fin.ext
  show min (idx (StableHlo.Predicate.ixP e)).toInt.toNat (N - 1) = min (idx (ix2 e (0 : Fin 1))).toInt.toNat (N - 1)
  rw [e2]

/-- Where update (e, q) of a row scatter lands: at table entry (r, q) exactly when the e-th start index,
    read signed, is the row r. -/
theorem scatter_rows_result {N E K w : Nat}
    (d : ScatterDims ⟨2, ![N, K]⟩ ⟨2, ![E, 1]⟩ ⟨2, ![E, K]⟩)
    (huw : d.updateWindowDims = [1]) (hiw : d.insertedWindowDims = [0]) (hsd : d.scatterDimsToOperandDims = [0])
    (hivd : d.indexVectorDim = 1)
    (idx : IVec ⟨2, ![E, 1]⟩ w) (e : Fin E) (q : Fin K) (r : Fin N) (q' : Fin K) :
    d.resultIdx? (ix2 e q) idx = some (ix2 r q') ↔ ((idx (ix2 e (0 : Fin 1))).toInt = (r.val : Int) ∧ q = q') := by
  have hin0 : (0 : Fin 2) ∈ d.scatterDimsToOperandDims := by rw [hsd]; exact List.mem_singleton.mpr rfl
  have hnin1 : (1 : Fin 2) ∉ d.scatterDimsToOperandDims := by rw [hsd]; simp
  have hk0 : (0 : Fin 2) ∉ d.sKept := by
    show (0 : Fin 2) ∉ Shape.kept _ d.insertedWindowDims
    rw [hiw]; simp [Shape.kept]
  have hk1 : (1 : Fin 2) ∈ d.sKept := by
    show (1 : Fin 2) ∈ Shape.kept _ d.insertedWindowDims
    rw [hiw]; simp [Shape.kept]
  -- the update's scatter axes are [0], its window axes [1]
  have hus : d.uScatter = [0] := by
    show Shape.kept _ d.updateWindowDims = [0]
    rw [huw]; rfl
  have husm : ∀ a ∈ d.uScatter, a = 0 := fun a ha => by rw [hus] at ha; exact List.mem_singleton.mp ha
  have huwm : ∀ a ∈ d.updateWindowDims, a = 1 := fun a ha => by rw [huw] at ha; exact List.mem_singleton.mp ha
  have c0 : ∀ a : Fin 2, a = 0 → ((ix2 e q) a).val = e.val := by rintro _ rfl; rfl
  have c1 : ∀ a : Fin 2, a = 1 → ((ix2 e q) a).val = q.val := by rintro _ rfl; rfl
  -- axis 0: the start is the e-th start index read signed, the window coordinate 0
  have hs0 : d.start (ix2 e q) idx 0 = (idx (ix2 e (0 : Fin 1))).toInt := by
    unfold ScatterDims.start
    rw [dif_pos hin0]
    congr 2
    funext b
    match b with
    | ⟨0, _⟩ =>
      unfold ScatterDims.siIdx
      rw [dif_neg (by rw [hivd]; simp)]
      unfold ScatterDims.siCoord
      apply Fin.ext
      simp only [Fin.val_cast]
      exact c0 _ (husm _ (List.getElem_mem _))
    | ⟨1, _⟩ =>
      unfold ScatterDims.siIdx
      rw [dif_pos (by rw [hivd])]
      apply Fin.ext
      show List.idxOf (0 : Fin 2) d.scatterDimsToOperandDims = 0
      rw [hsd]; simp
  have hw0 : d.window (ix2 e q) 0 = 0 := by
    unfold ScatterDims.window; rw [dif_neg hk0]
  -- axis 1: the start is 0, the window coordinate q
  have hs1 : d.start (ix2 e q) idx 1 = 0 := by
    unfold ScatterDims.start; rw [dif_neg hnin1]
  have hw1 : d.window (ix2 e q) 1 = q.val := by
    unfold ScatterDims.window; rw [dif_pos hk1]
    exact c1 _ (huwm _ (List.getElem_mem _))
  have hr := r.isLt
  have hq := q.isLt
  have hq' := q'.isLt
  unfold ScatterDims.resultIdx?
  split
  · next h =>
    rw [Option.some.injEq]
    constructor
    · intro heq
      have h0 : (d.start (ix2 e q) idx 0 + d.window (ix2 e q) 0).toNat = r.val := congrArg (fun f => (f 0).val) heq
      have h1 : (d.start (ix2 e q) idx 1 + d.window (ix2 e q) 1).toNat = q'.val := congrArg (fun f => (f 1).val) heq
      have hh0 := (h 0).1
      rw [hs0, hw0] at h0 hh0
      rw [hs1, hw1] at h1
      exact ⟨by omega, Fin.ext (by omega)⟩
    · rintro ⟨hr', hqq⟩
      funext a
      match a with
      | ⟨0, _⟩ =>
        apply Fin.ext
        show (d.start (ix2 e q) idx 0 + d.window (ix2 e q) 0).toNat = r.val
        rw [hs0, hw0, hr']; omega
      | ⟨1, _⟩ =>
        apply Fin.ext
        show (d.start (ix2 e q) idx 1 + d.window (ix2 e q) 1).toNat = q'.val
        rw [hs1, hw1, hqq]; omega
  · next h =>
    constructor
    · intro heq; exact absurd heq (by simp)
    · rintro ⟨hr', hqq⟩
      exfalso; apply h
      intro a
      match a with
      | ⟨0, _⟩ =>
        show 0 ≤ d.start (ix2 e q) idx 0 + d.window (ix2 e q) 0 ∧ d.start (ix2 e q) idx 0 + d.window (ix2 e q) 0 < (N : Int)
        rw [hs0, hw0, hr']; omega
      | ⟨1, _⟩ =>
        show 0 ≤ d.start (ix2 e q) idx 1 + d.window (ix2 e q) 1 ∧ d.start (ix2 e q) idx 1 + d.window (ix2 e q) 1 < (K : Int)
        rw [hs1, hw1]; omega

end Cert.LibRows

end
-- ==== Proof.SegPerm.lean ====
/-
  The neighbourhood sum of a graph layer, as the host computes it, and its independence of the order of the
  edge list.

  The host takes the rows of the node table at the source indices (negative ones moved up by the number of
  rows, then clamped) and adds them into a zero table at the destination indices (read signed, dropped when
  outside the table).  Read at an index, the result is the sum over the edges whose destination is that row
  of the source row's entry: a sum over the edges, which does not change when the edges are listed in another
  order.  The other order used here is the one a stable sort of the destinations carries on a counting column:
  a bijection of the edge positions.
-/
import Idealize.ShloMosaic.PureOps.Ideal
import Idealize.ShloMosaic.Lib.ValueIdx
import Idealize.ShloMosaic.Lib.IdealHost
import Idealize.ShloMosaic.Lib.SortFacts
import Idealize.ShloMosaic.Lib.StableHlo.Predicate
import proofs.«428858_j8770323218938_3_alg».proof.Proof.Spec
import proofs.«428858_j8770323218938_3_alg».proof.Proof.LibRows

noncomputable section

namespace Cert.SegPerm

open Idealize.ShloMosaic Idealize.ShloMosaic.ValueIdx

/-! ## The index arithmetic, read at a position -/

/-- A list of indices with the negative ones moved up by c, read at a position. -/
theorem wrap_apply {m : Nat} (hb2 : (⟨0, ![]⟩ : Shape).BroadcastsInDim ⟨1, ![m]⟩ ![]) (c : BitVec 32)
    (x : IVec ⟨1, ![m]⟩ 32) (j : (⟨1, ![m]⟩ : Shape).Idx) :
    select (cmpi .slt x (broadcastInDim ⟨1, ![m]⟩ ![] hb2 (constantI ⟨0, ![]⟩ 32 0#32)))
        (addi x (broadcastInDim ⟨1, ![m]⟩ ![] hb2 (constantI ⟨0, ![]⟩ 32 c))) x j
      = if (x j).slt 0#32 then x j + c else x j := by
  have hc : IntOp.cmpi .slt (x j) 0#32 = BitVec.ofBool ((x j).slt 0#32) := rfl
  show Scalar.select (IntOp.cmpi .slt (x j) 0#32) (x j + c) (x j) = _
  rw [hc]
  unfold Scalar.select
  cases (x j).slt 0#32
  · rfl
  · rfl

/-- A list laid out as a one-column table, read at row e. -/
theorem col_apply {α : Type} {m : Nat} (hm : m ≠ 1) (hb1 : (⟨1, ![m]⟩ : Shape).BroadcastsInDim ⟨2, ![m, 1]⟩ ![0])
    (v : (⟨1, ![m]⟩ : Shape).Idx → α) (e : Fin m) :
    broadcastInDim ⟨2, ![m, 1]⟩ ![0] hb1 v (ix2 e (0 : Fin 1)) = v (ix1 e) := by
  unfold broadcastInDim
  refine congrArg v ?_
  funext a
  match a with
  | ⟨0, _⟩ =>
    have h1 : ¬ (⟨1, ![m]⟩ : Shape).size (⟨0, by decide⟩ : Fin 1) = 1 := hm
    rw [dif_neg h1]
    rfl

/-! ## The accumulating row scatter and the row gather, read at an index (any sizes) -/

/-- The accumulating row scatter read at (n, q): the operand's entry plus the sum, over the rows e of the update
    whose start index read signed is n, of the update's entry (e, q). -/
theorem scatterAdd_rows_apply {φ : FTy} {N E K w : Nat}
    (ds : ScatterDims ⟨2, ![N, K]⟩ ⟨2, ![E, 1]⟩ ⟨2, ![E, K]⟩)
    (huw : ds.updateWindowDims = [1]) (hiw : ds.insertedWindowDims = [0]) (hsd : ds.scatterDimsToOperandDims = [0])
    (hsiv : ds.indexVectorDim = 1)
    (x : FVec Ideal ⟨2, ![N, K]⟩ φ) (idx : IVec ⟨2, ![E, 1]⟩ w) (upd : FVec Ideal ⟨2, ![E, K]⟩ φ)
    (n : Fin N) (q : Fin K) :
    Host.scatterAdd ds x idx upd (ix2 n q)
      = x (ix2 n q)
        + ∑ e : Fin E, if (idx (ix2 e (0 : Fin 1))).toInt = (n.val : Int) then upd (ix2 e q) else (0 : EReal) := by
  show Ideal.hostScatterAdd ds x idx upd (ix2 n q) = _
  unfold Ideal.hostScatterAdd
  rw [Finset.sum_filter, sum_idx2]
  refine congrArg (fun t : EReal => x (ix2 n q) + t) (Finset.sum_congr rfl fun e _ => ?_)
  -- the update (e, q') lands at (n, q) exactly when row e's start index is n and q' = q
  have key : ∀ q' : Fin K,
      (if ds.resultIdx? (ix2 e q') idx = some (ix2 n q) then upd (ix2 e q') else (0 : EReal))
        = if q' = q then (if (idx (ix2 e (0 : Fin 1))).toInt = (n.val : Int) then upd (ix2 e q) else (0 : EReal))
          else 0 := by
    intro q'
    have hiff := Cert.LibRows.scatter_rows_result ds huw hiw hsd hsiv idx e q' n q
    by_cases hq : q' = q
    · subst hq
      rw [if_pos rfl]
      by_cases hd : (idx (ix2 e (0 : Fin 1))).toInt = (n.val : Int)
      · rw [if_pos (hiff.mpr ⟨hd, rfl⟩), if_pos hd]
      · rw [if_neg (fun hc => hd (hiff.mp hc).1), if_neg hd]
    · rw [if_neg (fun hc => hq (hiff.mp hc).2), if_neg hq]
  rw [Finset.sum_congr rfl fun q' _ => key q', Finset.sum_ite_eq' Finset.univ q, if_pos (Finset.mem_univ q)]

/-- Rows taken at the wrapped source indices and added into a zero table at the destination indices, read at
    (n, q): the sum over the edges whose destination is n of the table's entry (the source's row, q). -/
theorem scatter_gather_apply {N E K : Nat} (hN : 0 < N) (hE : E ≠ 1) (c : BitVec 32)
    (ds : ScatterDims ⟨2, ![N, K]⟩ ⟨2, ![E, 1]⟩ ⟨2, ![E, K]⟩)
    (huw : ds.updateWindowDims = [1]) (hiw : ds.insertedWindowDims = [0]) (hsd : ds.scatterDimsToOperandDims = [0])
    (hsiv : ds.indexVectorDim = 1)
    (dg : GatherDims ⟨2, ![N, K]⟩ ⟨2, ![E, 1]⟩ ⟨2, ![E, K]⟩)
    (hoff : dg.offsetDims = [1]) (hcoll : dg.collapsedSliceDims = [0]) (hob : dg.operandBatchingDims = [])
    (hsb : dg.startIndicesBatchingDims = []) (hsim : dg.startIndexMap = [0]) (hivd : dg.indexVectorDim = 1)
    (hb0 : (⟨0, ![]⟩ : Shape).BroadcastsInDim ⟨2, ![N, K]⟩ ![])
    (hb1 : (⟨1, ![E]⟩ : Shape).BroadcastsInDim ⟨2, ![E, 1]⟩ ![0])
    (hb2 : (⟨0, ![]⟩ : Shape).BroadcastsInDim ⟨1, ![E]⟩ ![])
    (h : (⟨2, ![N, K]⟩ : Shape).Idx → EReal) (src dst : IVec ⟨1, ![E]⟩ 32) (n : Fin N) (q : Fin K) :
    Host.scatterAdd (F := Ideal) (φ := .f32) ds
        (broadcastInDim ⟨2, ![N, K]⟩ ![] hb0 (constant ⟨0, ![]⟩ .f32 0x00000000#32))
        (broadcastInDim ⟨2, ![E, 1]⟩ ![0] hb1 dst)
        (Host.gather dg h (broadcastInDim ⟨2, ![E, 1]⟩ ![0] hb1
          (select (cmpi .slt src (broadcastInDim ⟨1, ![E]⟩ ![] hb2 (constantI ⟨0, ![]⟩ 32 0#32)))
            (addi src (broadcastInDim ⟨1, ![E]⟩ ![] hb2 (constantI ⟨0, ![]⟩ 32 c))) src))) (ix2 n q)
      = ∑ e : Fin E, if (dst (ix1 e)).toInt = (n.val : Int) then
          h (ix2 (Cert.LibRows.clampRow N hN
            (if (src (ix1 e)).slt 0#32 then src (ix1 e) + c else src (ix1 e))) q) else (0 : EReal) := by
  rw [scatterAdd_rows_apply ds huw hiw hsd hsiv]
  have hz : broadcastInDim ⟨2, ![N, K]⟩ ![] hb0 (constant (F := Ideal) ⟨0, ![]⟩ .f32 0x00000000#32) (ix2 n q)
      = (0 : EReal) := Ideal.ofBits_zero_f32
  rw [hz, zero_add]
  refine Finset.sum_congr rfl fun e _ => ?_
  rw [col_apply hE hb1 dst e, Cert.LibRows.gather_rows_apply hN dg hoff hcoll hob hsb hsim hivd, col_apply hE hb1,
    wrap_apply hb2]

/-! ## The reference's aggregate -/

/-- The reference's aggregate is the neighbourhood sum. -/
theorem scatter_gather_eq
    (ds : ScatterDims ⟨2, ![50000, 128]⟩ ⟨2, ![800000, 1]⟩ ⟨2, ![800000, 128]⟩)
    (huw : ds.updateWindowDims = [1]) (hiw : ds.insertedWindowDims = [0]) (hsd : ds.scatterDimsToOperandDims = [0])
    (hsiv : ds.indexVectorDim = 1)
    (dg : GatherDims ⟨2, ![50000, 128]⟩ ⟨2, ![800000, 1]⟩ ⟨2, ![800000, 128]⟩)
    (hoff : dg.offsetDims = [1]) (hcoll : dg.collapsedSliceDims = [0]) (hob : dg.operandBatchingDims = [])
    (hsb : dg.startIndicesBatchingDims = []) (hsim : dg.startIndexMap = [0]) (hivd : dg.indexVectorDim = 1)
    (hb0 : (⟨0, ![]⟩ : Shape).BroadcastsInDim ⟨2, ![50000, 128]⟩ ![])
    (hb1 : (⟨1, ![800000]⟩ : Shape).BroadcastsInDim ⟨2, ![800000, 1]⟩ ![0])
    (hb2 : (⟨0, ![]⟩ : Shape).BroadcastsInDim ⟨1, ![800000]⟩ ![])
    (h : Cert.Spec.Nodes) (src dst : IVec ⟨1, ![800000]⟩ 32) :
    Host.scatterAdd (F := Ideal) (φ := .f32) ds
        (broadcastInDim ⟨2, ![50000, 128]⟩ ![] hb0 (constant ⟨0, ![]⟩ .f32 0x00000000#32))
        (broadcastInDim ⟨2, ![800000, 1]⟩ ![0] hb1 dst)
        (Host.gather dg h (broadcastInDim ⟨2, ![800000, 1]⟩ ![0] hb1
          (select (cmpi .slt src (broadcastInDim ⟨1, ![800000]⟩ ![] hb2 (constantI ⟨0, ![]⟩ 32 0#32)))
            (addi src (broadcastInDim ⟨1, ![800000]⟩ ![] hb2 (constantI ⟨0, ![]⟩ 32 50000#32))) src)))
      = Cert.Spec.segSum h (fun e => src (ix1 e)) (fun e => dst (ix1 e)) := by
  funext i
  obtain ⟨n, q, rfl⟩ : ∃ (n : Fin 50000) (q : Fin 128), i = ix2 n q := ⟨i 0, i 1, eq_ix2 i⟩
  rw [Cert.Spec.segSum_apply]
  refine (scatter_gather_apply (by decide) (by decide) 50000#32 ds huw hiw hsd hsiv dg hoff hcoll hob hsb hsim hivd
    hb0 hb1 hb2 h src dst n q).trans (Finset.sum_congr rfl fun e _ => ?_)
  -- the clamped wrapped source index is the row the specification names
  rfl

/-! ## The order a stable sort carries on a counting column -/

/-- The second column a stable sort of two columns returns, on a one-dimensional shape: the second operand read
    through one self-map of the positions, the sorting map of the comparator on the rows. -/
theorem sort2_snd_rank1 {m : Nat} {α β : Type} (cmp : α × β → α × β → BitVec 1)
    (x : (⟨1, ![m]⟩ : Shape).Idx → α) (y : (⟨1, ![m]⟩ : Shape).Idx → β) (j : (⟨1, ![m]⟩ : Shape).Idx) :
    (Host.sort2 ⟨1, ![m]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- The sorting map of the positions is a bijection of them. -/
def sortPerm {m : Nat} (before : Fin m → Fin m → Bool) : Equiv.Perm (Fin m) :=
  Equiv.ofBijective (sortedFrom before) ⟨sortedFrom_injective before, sortedFrom_surjective before⟩

theorem sortPerm_apply {m : Nat} (before : Fin m → Fin m → Bool) (k : Fin m) :
    sortPerm before k = sortedFrom before k := rfl

/-- A stable sort carrying the counting column 0, 1, 2, … returns, in that column, a bijection of the positions
    (any number of positions, any comparator). -/
theorem order_perm_of {m : Nat} (cmp : BitVec 32 × BitVec 32 → BitVec 32 × BitVec 32 → BitVec 1)
    (keys : IVec ⟨1, ![m]⟩ 32) :
    ∃ σ : Equiv.Perm (Fin m), ∀ e : Fin m,
      (Host.sort2 ⟨1, ![m]⟩ 0 cmp keys (iotaInDim ⟨1, ![m]⟩ 32 0)).2 (ix1 e) = BitVec.ofNat 32 (σ e).val := by
  refine ⟨sortPerm (fun k k' => cmp (keys (Shape.Idx.ofFin k), iotaInDim ⟨1, ![m]⟩ 32 0 (Shape.Idx.ofFin k))
    (keys (Shape.Idx.ofFin k'), iotaInDim ⟨1, ![m]⟩ 32 0 (Shape.Idx.ofFin k')) == 1#1), fun e => ?_⟩
  rw [sort2_snd_rank1, sortPerm_apply]
  rfl

attribute [irreducible] sortPerm

/-- The argsort of 800000 keys is a bijection of the positions. -/
theorem order_perm (cmp : BitVec 32 × BitVec 32 → BitVec 32 × BitVec 32 → BitVec 1)
    (keys : IVec ⟨1, ![800000]⟩ 32) :
    ∃ σ : Equiv.Perm (Fin 800000), ∀ e : Fin 800000,
      (Host.sort2 ⟨1, ![800000]⟩ 0 cmp keys (iotaInDim ⟨1, ![800000]⟩ 32 0)).2 (ix1 e)
        = BitVec.ofNat 32 (σ e).val :=
  order_perm_of cmp keys

/-! ## A list read through a bijection of its positions -/

/-- A position below 2 ^ 31, as a 32-bit word read signed, is itself. -/
theorem toInt_ofNat_of_lt (k : Nat) (hk : k < 2 ^ 31) : (BitVec.ofNat 32 k).toInt = (k : Int) := by
  rw [BitVec.toInt_eq_toNat_cond, BitVec.toNat_ofNat, Nat.mod_eq_of_lt (by omega)]
  split <;> omega

/-- … and is not negative. -/
theorem slt_zero_ofNat_of_lt (k : Nat) (hk : k < 2 ^ 31) : (BitVec.ofNat 32 k).slt 0#32 = false := by
  unfold BitVec.slt
  rw [toInt_ofNat_of_lt k hk, BitVec.toInt_zero]
  exact decide_eq_false (by omega)

/-- A list taken at the wrapped positions σ 0, σ 1, … (any length below 2 ^ 31): entry e is the list's entry σ e. -/
theorem take_order_of {α : Type} {m : Nat} (hm0 : 0 < m) (hm1 : m ≠ 1) (hm : m < 2 ^ 31) (c : BitVec 32)
    (d1 : GatherDims ⟨1, ![m]⟩ ⟨2, ![m, 1]⟩ ⟨1, ![m]⟩)
    (hcoll : d1.collapsedSliceDims = [0]) (hob : d1.operandBatchingDims = [])
    (hsim : d1.startIndexMap = [0]) (hivd : d1.indexVectorDim = 1)
    (hb1 : (⟨1, ![m]⟩ : Shape).BroadcastsInDim ⟨2, ![m, 1]⟩ ![0])
    (hb2 : (⟨0, ![]⟩ : Shape).BroadcastsInDim ⟨1, ![m]⟩ ![])
    (v : (⟨1, ![m]⟩ : Shape).Idx → α) (order : IVec ⟨1, ![m]⟩ 32) (σ : Equiv.Perm (Fin m))
    (horder : ∀ e : Fin m, order (ix1 e) = BitVec.ofNat 32 (σ e).val) (e : Fin m) :
    Host.gather d1 v (broadcastInDim ⟨2, ![m, 1]⟩ ![0] hb1
        (select (cmpi .slt order (broadcastInDim ⟨1, ![m]⟩ ![] hb2 (constantI ⟨0, ![]⟩ 32 0#32)))
          (addi order (broadcastInDim ⟨1, ![m]⟩ ![] hb2 (constantI ⟨0, ![]⟩ 32 c))) order)) (ix1 e)
      = v (ix1 (σ e)) := by
  have hk : (σ e).val < 2 ^ 31 := lt_trans (σ e).isLt hm
  rw [Cert.LibRows.gather_take_apply1 hm0 d1 hcoll hob hsim hivd, col_apply hm1 hb1, wrap_apply hb2, horder e,
    slt_zero_ofNat_of_lt _ hk, if_neg (by decide),
    Cert.LibRows.clampRow_of_toInt hm0 _ (σ e) (toInt_ofNat_of_lt _ hk)]

/-- The list of 800000 entries taken at the wrapped argsort positions. -/
theorem take_order {α : Type}
    (d1 : GatherDims ⟨1, ![800000]⟩ ⟨2, ![800000, 1]⟩ ⟨1, ![800000]⟩)
    (hcoll : d1.collapsedSliceDims = [0]) (hob : d1.operandBatchingDims = [])
    (hsim : d1.startIndexMap = [0]) (hivd : d1.indexVectorDim = 1)
    (hb1 : (⟨1, ![800000]⟩ : Shape).BroadcastsInDim ⟨2, ![800000, 1]⟩ ![0])
    (hb2 : (⟨0, ![]⟩ : Shape).BroadcastsInDim ⟨1, ![800000]⟩ ![])
    (v : (⟨1, ![800000]⟩ : Shape).Idx → α) (order : IVec ⟨1, ![800000]⟩ 32) (σ : Equiv.Perm (Fin 800000))
    (horder : ∀ e : Fin 800000, order (ix1 e) = BitVec.ofNat 32 (σ e).val) (e : Fin 800000) :
    Host.gather d1 v (broadcastInDim ⟨2, ![800000, 1]⟩ ![0] hb1
        (select (cmpi .slt order (broadcastInDim ⟨1, ![800000]⟩ ![] hb2 (constantI ⟨0, ![]⟩ 32 0#32)))
          (addi order (broadcastInDim ⟨1, ![800000]⟩ ![] hb2 (constantI ⟨0, ![]⟩ 32 800000#32))) order)) (ix1 e)
      = v (ix1 (σ e)) :=
  take_order_of (by decide) (by decide) (by decide) 800000#32 d1 hcoll hob hsim hivd hb1 hb2 v order σ horder e

/-! ## The neighbourhood sum does not depend on the order of the edges -/

/-- A sum over the positions, read through a bijection of them, is the same sum. -/
theorem sum_comp_perm {m : Nat} {M : Type} [AddCommMonoid M] (σ : Equiv.Perm (Fin m)) (f : Fin m → M) :
    ∑ e : Fin m, f (σ e) = ∑ e : Fin m, f e := Equiv.sum_comp σ f

/-- Listing the edges in another order leaves the neighbourhood sum as it is. -/
theorem segSum_perm (h : Cert.Spec.Nodes) (src dst : Fin 800000 → BitVec 32) (σ : Equiv.Perm (Fin 800000)) :
    Cert.Spec.segSum h (src ∘ σ) (dst ∘ σ) = Cert.Spec.segSum h src dst := by
  funext i
  exact sum_comp_perm σ fun e =>
    if (dst e).toInt = ((i 0).val : Int) then h (ix2 (Cert.Spec.srcRow (src e)) (i 1)) else 0

/-! ## The kernel's aggregate -/

/-- The kernel's aggregate — the same rows taken and added, but with the edges listed in another order, given by a
    column of positions that is a bijection of them — is the neighbourhood sum of the edges as given. -/
theorem kernel_seg_eq_of
    (ds : ScatterDims ⟨2, ![50000, 128]⟩ ⟨2, ![800000, 1]⟩ ⟨2, ![800000, 128]⟩)
    (huw : ds.updateWindowDims = [1]) (hiw : ds.insertedWindowDims = [0]) (hsd : ds.scatterDimsToOperandDims = [0])
    (hsiv : ds.indexVectorDim = 1)
    (dg : GatherDims ⟨2, ![50000, 128]⟩ ⟨2, ![800000, 1]⟩ ⟨2, ![800000, 128]⟩)
    (hoff : dg.offsetDims = [1]) (hcoll : dg.collapsedSliceDims = [0]) (hob : dg.operandBatchingDims = [])
    (hsb : dg.startIndicesBatchingDims = []) (hsim : dg.startIndexMap = [0]) (hivd : dg.indexVectorDim = 1)
    (d1 : GatherDims ⟨1, ![800000]⟩ ⟨2, ![800000, 1]⟩ ⟨1, ![800000]⟩)
    (hcoll1 : d1.collapsedSliceDims = [0]) (hob1 : d1.operandBatchingDims = [])
    (hsim1 : d1.startIndexMap = [0]) (hivd1 : d1.indexVectorDim = 1)
    (hb0 : (⟨0, ![]⟩ : Shape).BroadcastsInDim ⟨2, ![50000, 128]⟩ ![])
    (hb1 : (⟨1, ![800000]⟩ : Shape).BroadcastsInDim ⟨2, ![800000, 1]⟩ ![0])
    (hb2 : (⟨0, ![]⟩ : Shape).BroadcastsInDim ⟨1, ![800000]⟩ ![])
    (h : Cert.Spec.Nodes) (src dst order : IVec ⟨1, ![800000]⟩ 32)
    (hord : ∃ σ : Equiv.Perm (Fin 800000), ∀ e : Fin 800000, order (ix1 e) = BitVec.ofNat 32 (σ e).val) :
    Host.scatterAdd (F := Ideal) (φ := .f32) ds
        (broadcastInDim ⟨2, ![50000, 128]⟩ ![] hb0 (constant ⟨0, ![]⟩ .f32 0x00000000#32))
        (broadcastInDim ⟨2, ![800000, 1]⟩ ![0] hb1 (Host.gather d1 dst (broadcastInDim ⟨2, ![800000, 1]⟩ ![0] hb1 (select (cmpi .slt order (broadcastInDim ⟨1, ![800000]⟩ ![] hb2 (constantI ⟨0, ![]⟩ 32 0#32)))
              (addi order (broadcastInDim ⟨1, ![800000]⟩ ![] hb2 (constantI ⟨0, ![]⟩ 32 800000#32))) order))))
        (Host.gather dg h (broadcastInDim ⟨2, ![800000, 1]⟩ ![0] hb1 (select (cmpi .slt (Host.gather d1 src (broadcastInDim ⟨2, ![800000, 1]⟩ ![0] hb1 (select (cmpi .slt order (broadcastInDim ⟨1, ![800000]⟩ ![] hb2 (constantI ⟨0, ![]⟩ 32 0#32)))
              (addi order (broadcastInDim ⟨1, ![800000]⟩ ![] hb2 (constantI ⟨0, ![]⟩ 32 800000#32))) order))) (broadcastInDim ⟨1, ![800000]⟩ ![] hb2 (constantI ⟨0, ![]⟩ 32 0#32)))
              (addi (Host.gather d1 src (broadcastInDim ⟨2, ![800000, 1]⟩ ![0] hb1 (select (cmpi .slt order (broadcastInDim ⟨1, ![800000]⟩ ![] hb2 (constantI ⟨0, ![]⟩ 32 0#32)))
              (addi order (broadcastInDim ⟨1, ![800000]⟩ ![] hb2 (constantI ⟨0, ![]⟩ 32 800000#32))) order))) (broadcastInDim ⟨1, ![800000]⟩ ![] hb2 (constantI ⟨0, ![]⟩ 32 50000#32))) (Host.gather d1 src (broadcastInDim ⟨2, ![800000, 1]⟩ ![0] hb1 (select (cmpi .slt order (broadcastInDim ⟨1, ![800000]⟩ ![] hb2 (constantI ⟨0, ![]⟩ 32 0#32)))
              (addi order (broadcastInDim ⟨1, ![800000]⟩ ![] hb2 (constantI ⟨0, ![]⟩ 32 800000#32))) order))))))
      = Cert.Spec.segSum h (fun e => src (ix1 e)) (fun e => dst (ix1 e)) := by
  obtain ⟨σ, hσ⟩ := hord
  rw [scatter_gather_eq ds huw hiw hsd hsiv dg hoff hcoll hob hsb hsim hivd hb0 hb1 hb2 h]
  have hs : (fun e : Fin 800000 => (Host.gather d1 src (broadcastInDim ⟨2, ![800000, 1]⟩ ![0] hb1 (select (cmpi .slt order (broadcastInDim ⟨1, ![800000]⟩ ![] hb2 (constantI ⟨0, ![]⟩ 32 0#32)))
              (addi order (broadcastInDim ⟨1, ![800000]⟩ ![] hb2 (constantI ⟨0, ![]⟩ 32 800000#32))) order))) (ix1 e))
      = (fun e : Fin 800000 => src (ix1 e)) ∘ σ :=
    funext fun e => take_order d1 hcoll1 hob1 hsim1 hivd1 hb1 hb2 src order σ hσ e
  have hd : (fun e : Fin 800000 => (Host.gather d1 dst (broadcastInDim ⟨2, ![800000, 1]⟩ ![0] hb1 (select (cmpi .slt order (broadcastInDim ⟨1, ![800000]⟩ ![] hb2 (constantI ⟨0, ![]⟩ 32 0#32)))
              (addi order (broadcastInDim ⟨1, ![800000]⟩ ![] hb2 (constantI ⟨0, ![]⟩ 32 800000#32))) order))) (ix1 e))
      = (fun e : Fin 800000 => dst (ix1 e)) ∘ σ :=
    funext fun e => take_order d1 hcoll1 hob1 hsim1 hivd1 hb1 hb2 dst order σ hσ e
  rw [hs, hd, segSum_perm]

/-- The kernel's aggregate, the order being the argsort of the destinations: the neighbourhood sum. -/
theorem kernel_seg_eq
    (ds : ScatterDims ⟨2, ![50000, 128]⟩ ⟨2, ![800000, 1]⟩ ⟨2, ![800000, 128]⟩)
    (huw : ds.updateWindowDims = [1]) (hiw : ds.insertedWindowDims = [0]) (hsd : ds.scatterDimsToOperandDims = [0])
    (hsiv : ds.indexVectorDim = 1)
    (dg : GatherDims ⟨2, ![50000, 128]⟩ ⟨2, ![800000, 1]⟩ ⟨2, ![800000, 128]⟩)
    (hoff : dg.offsetDims = [1]) (hcoll : dg.collapsedSliceDims = [0]) (hob : dg.operandBatchingDims = [])
    (hsb : dg.startIndicesBatchingDims = []) (hsim : dg.startIndexMap = [0]) (hivd : dg.indexVectorDim = 1)
    (d1 : GatherDims ⟨1, ![800000]⟩ ⟨2, ![800000, 1]⟩ ⟨1, ![800000]⟩)
    (hcoll1 : d1.collapsedSliceDims = [0]) (hob1 : d1.operandBatchingDims = [])
    (hsim1 : d1.startIndexMap = [0]) (hivd1 : d1.indexVectorDim = 1)
    (hb0 : (⟨0, ![]⟩ : Shape).BroadcastsInDim ⟨2, ![50000, 128]⟩ ![])
    (hb1 : (⟨1, ![800000]⟩ : Shape).BroadcastsInDim ⟨2, ![800000, 1]⟩ ![0])
    (hb2 : (⟨0, ![]⟩ : Shape).BroadcastsInDim ⟨1, ![800000]⟩ ![])
    (cmp : BitVec 32 × BitVec 32 → BitVec 32 × BitVec 32 → BitVec 1)
    (h : Cert.Spec.Nodes) (src dst : IVec ⟨1, ![800000]⟩ 32) :
    Host.scatterAdd (F := Ideal) (φ := .f32) ds
        (broadcastInDim ⟨2, ![50000, 128]⟩ ![] hb0 (constant ⟨0, ![]⟩ .f32 0x00000000#32))
        (broadcastInDim ⟨2, ![800000, 1]⟩ ![0] hb1 (Host.gather d1 dst (broadcastInDim ⟨2, ![800000, 1]⟩ ![0] hb1 (select (cmpi .slt (Host.sort2 ⟨1, ![800000]⟩ 0 cmp dst (iotaInDim ⟨1, ![800000]⟩ 32 0)).2 (broadcastInDim ⟨1, ![800000]⟩ ![] hb2 (constantI ⟨0, ![]⟩ 32 0#32)))
              (addi (Host.sort2 ⟨1, ![800000]⟩ 0 cmp dst (iotaInDim ⟨1, ![800000]⟩ 32 0)).2 (broadcastInDim ⟨1, ![800000]⟩ ![] hb2 (constantI ⟨0, ![]⟩ 32 800000#32))) (Host.sort2 ⟨1, ![800000]⟩ 0 cmp dst (iotaInDim ⟨1, ![800000]⟩ 32 0)).2))))
        (Host.gather dg h (broadcastInDim ⟨2, ![800000, 1]⟩ ![0] hb1 (select (cmpi .slt (Host.gather d1 src (broadcastInDim ⟨2, ![800000, 1]⟩ ![0] hb1 (select (cmpi .slt (Host.sort2 ⟨1, ![800000]⟩ 0 cmp dst (iotaInDim ⟨1, ![800000]⟩ 32 0)).2 (broadcastInDim ⟨1, ![800000]⟩ ![] hb2 (constantI ⟨0, ![]⟩ 32 0#32)))
              (addi (Host.sort2 ⟨1, ![800000]⟩ 0 cmp dst (iotaInDim ⟨1, ![800000]⟩ 32 0)).2 (broadcastInDim ⟨1, ![800000]⟩ ![] hb2 (constantI ⟨0, ![]⟩ 32 800000#32))) (Host.sort2 ⟨1, ![800000]⟩ 0 cmp dst (iotaInDim ⟨1, ![800000]⟩ 32 0)).2))) (broadcastInDim ⟨1, ![800000]⟩ ![] hb2 (constantI ⟨0, ![]⟩ 32 0#32)))
              (addi (Host.gather d1 src (broadcastInDim ⟨2, ![800000, 1]⟩ ![0] hb1 (select (cmpi .slt (Host.sort2 ⟨1, ![800000]⟩ 0 cmp dst (iotaInDim ⟨1, ![800000]⟩ 32 0)).2 (broadcastInDim ⟨1, ![800000]⟩ ![] hb2 (constantI ⟨0, ![]⟩ 32 0#32)))
              (addi (Host.sort2 ⟨1, ![800000]⟩ 0 cmp dst (iotaInDim ⟨1, ![800000]⟩ 32 0)).2 (broadcastInDim ⟨1, ![800000]⟩ ![] hb2 (constantI ⟨0, ![]⟩ 32 800000#32))) (Host.sort2 ⟨1, ![800000]⟩ 0 cmp dst (iotaInDim ⟨1, ![800000]⟩ 32 0)).2))) (broadcastInDim ⟨1, ![800000]⟩ ![] hb2 (constantI ⟨0, ![]⟩ 32 50000#32))) (Host.gather d1 src (broadcastInDim ⟨2, ![800000, 1]⟩ ![0] hb1 (select (cmpi .slt (Host.sort2 ⟨1, ![800000]⟩ 0 cmp dst (iotaInDim ⟨1, ![800000]⟩ 32 0)).2 (broadcastInDim ⟨1, ![800000]⟩ ![] hb2 (constantI ⟨0, ![]⟩ 32 0#32)))
              (addi (Host.sort2 ⟨1, ![800000]⟩ 0 cmp dst (iotaInDim ⟨1, ![800000]⟩ 32 0)).2 (broadcastInDim ⟨1, ![800000]⟩ ![] hb2 (constantI ⟨0, ![]⟩ 32 800000#32))) (Host.sort2 ⟨1, ![800000]⟩ 0 cmp dst (iotaInDim ⟨1, ![800000]⟩ 32 0)).2))))))
      = Cert.Spec.segSum h (fun e => src (ix1 e)) (fun e => dst (ix1 e)) :=
  kernel_seg_eq_of ds huw hiw hsd hsiv dg hoff hcoll hob hsb hsim hivd d1 hcoll1 hob1 hsim1 hivd1 hb0 hb1 hb2 h src dst
    (Host.sort2 ⟨1, ![800000]⟩ 0 cmp dst (iotaInDim ⟨1, ![800000]⟩ 32 0)).2 (order_perm cmp dst)

end Cert.SegPerm

end
-- ==== Proof.RefVals.lean ====
/-
  The reference's value in the specification's words.

  The reference program is three rounds of: a neighbourhood sum (rows taken at the edges' sources and added
  into the rows of the edges' destinations), the node's own row added, and a two-layer perceptron with a
  rectifier after each layer; the three rounds' node features are joined side by side, and so are their sums
  over the nodes of each graph.  Here each piece is read at an index: the matrix product as a sum over the
  contracted axis, the perceptron as the specification's `mlp`, the per-graph sum as the specification's
  `pool`, and then the two results of the whole program as joins of the specification's three layers.
-/
import proofs.«428858_j8770323218938_3_alg».proof.Proof.Spec
import proofs.«428858_j8770323218938_3_alg».proof.Proof.LibRows
import proofs.«428858_j8770323218938_3_alg».proof.Proof.SegPerm
import proofs.«428858_j8770323218938_3_alg».proof.Proof.Gen.ReferenceIdeal.Run
import Idealize.ShloMosaic.Lib.KernelVsHost
import Idealize.ShloMosaic.Lib.IdealHost
import Idealize.ShloMosaic.Lib.ValueIdx
import Idealize.ShloMosaic.PureOps.Ideal.Laws

noncomputable section

namespace Cert.ReferenceIdeal.RefVals

open Cert.ReferenceIdeal Cert.ReferenceIdeal.Gen Idealize.ShloMosaic Idealize.ShloMosaic.TcCoe Idealize.SL.Sem Idealize.ShloMosaic.StableHlo
open Idealize.ShloMosaic.ValueIdx

/-! ## The matrix product at an index -/

/-- The left operand's index at output index `i` and contraction index `q`: its row is the output's row. -/
theorem lhs_dot_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
/-- … and its column is the contraction index. -/
theorem lhs_dot_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
/-- The right operand's row is the contraction index. -/
theorem rhs_dot_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
/-- … and its column is the output's column. -/
theorem rhs_dot_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The product of a [50000,128] by a [128,128] matrix at (n, j) is the sum over k of l(n, k) · r(k, j). -/
theorem dot_apply (l : Cert.Spec.Nodes) (r : Cert.Spec.Mat) (n : Fin 50000) (j : Fin 128) :
    Host.dotGeneral (F := Ideal) (φ₁ := .f32) (φ₂ := .f32) dot_S50000x128_S128x128_S50000x128_1_0_0_1_n_n none l r (ix2 n j)
      = ∑ k : Fin 128, l (ix2 n k) * r (ix2 k j) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 n j) ((ValueIdx.contrEquiv1 dot_S50000x128_S128x128_S50000x128_1_0_0_1_n_n 128 rfl rfl).symm k) = ix2 n k := funext fun a => Fin.ext (by
    match a with
    | ⟨0, _⟩ => exact lhs_dot_0 _ _
    | ⟨1, _⟩ => exact (lhs_dot_1 _ _).trans hk)
  have er : dot_S50000x128_S128x128_S50000x128_1_0_0_1_n_n.rhsIdx (ix2 n j) ((ValueIdx.contrEquiv1 dot_S50000x128_S128x128_S50000x128_1_0_0_1_n_n 128 rfl rfl).symm k) = ix2 k j := funext fun a => Fin.ext (by
    match a with
    | ⟨0, _⟩ => exact (rhs_dot_0 _ _).trans hk
    | ⟨1, _⟩ => exact rhs_dot_1 _ _)
  rw [el, er]

/-! ## The perceptron -/

/-- The zero word broadcast over the node features reads the extended real zero everywhere. -/
theorem zeroNodes_apply (i : S50000x128.Idx) :
    (broadcastInDim S50000x128 ![] bcast_S_S50000x128 (constant (F := Ideal) S_ .f32 0x00000000#32)) i = (0 : EReal) := by
  rw [broadcastInDim_scalar_apply, constant_apply, Ideal.ofBits_zero_f32]

/-- The reference's perceptron — a product, a bias row added down the rows, a rectifier, twice over — on the
    aggregate `seg + h` is the specification's `mlp`, whatever the two bias rows. -/
theorem layer_eq_row (seg h : Cert.Spec.Nodes) (w1 w2 : Cert.Spec.Mat) (b1 b2 : Cert.Spec.Row) :
    maximumf (F := Ideal) (φ := .f32) (addf (Host.dotGeneral (φ₁ := .f32) (φ₂ := .f32) dot_S50000x128_S128x128_S50000x128_1_0_0_1_n_n none
        (maximumf (addf (Host.dotGeneral (φ₁ := .f32) (φ₂ := .f32) dot_S50000x128_S128x128_S50000x128_1_0_0_1_n_n none (addf seg h) w1)
          (broadcastInDim S50000x128 ![0, 1] bcast_S1x128_S50000x128_0_1 b1))
          (broadcastInDim S50000x128 ![] bcast_S_S50000x128 (constant (F := Ideal) S_ .f32 0x00000000#32)))
        w2)
        (broadcastInDim S50000x128 ![0, 1] bcast_S1x128_S50000x128_0_1 b2))
        (broadcastInDim S50000x128 ![] bcast_S_S50000x128 (constant (F := Ideal) S_ .f32 0x00000000#32))
      = Cert.Spec.mlp seg h w1 b1 w2 b2 := by
  funext i
  obtain ⟨n, j, rfl⟩ : ∃ (n : Fin 50000) (j : Fin 128), i = ix2 n j := ⟨i 0, i 1, eq_ix2 i⟩
  rw [Cert.Spec.mlp_apply]
  unfold Cert.Spec.mlpAt Cert.Spec.hidden
  rw [maximumf_apply, addf_apply, dot_apply, broadcastInDim_oneRow_apply, zeroNodes_apply]
  congr 2
  refine Finset.sum_congr rfl fun k _ => ?_
  rw [maximumf_apply, addf_apply, dot_apply, broadcastInDim_oneRow_apply, zeroNodes_apply]
  rfl

/-- … in particular with each bias a vector of 128 entries laid out as one row. -/
theorem layer_eq (seg h : Cert.Spec.Nodes) (w1 w2 : Cert.Spec.Mat) (v1 v2 : (⟨1, ![128]⟩ : Shape).Idx → EReal) :
    maximumf (F := Ideal) (φ := .f32) (addf (Host.dotGeneral (φ₁ := .f32) (φ₂ := .f32) dot_S50000x128_S128x128_S50000x128_1_0_0_1_n_n none
        (maximumf (addf (Host.dotGeneral (φ₁ := .f32) (φ₂ := .f32) dot_S50000x128_S128x128_S50000x128_1_0_0_1_n_n none (addf seg h) w1)
          (broadcastInDim S50000x128 ![0, 1] bcast_S1x128_S50000x128_0_1 (broadcastInDim S1x128 ![1] bcast_S128_S1x128_1 v1)))
          (broadcastInDim S50000x128 ![] bcast_S_S50000x128 (constant (F := Ideal) S_ .f32 0x00000000#32)))
        w2)
        (broadcastInDim S50000x128 ![0, 1] bcast_S1x128_S50000x128_0_1 (broadcastInDim S1x128 ![1] bcast_S128_S1x128_1 v2)))
        (broadcastInDim S50000x128 ![] bcast_S_S50000x128 (constant (F := Ideal) S_ .f32 0x00000000#32))
      = Cert.Spec.mlp seg h w1 (broadcastInDim S1x128 ![1] bcast_S128_S1x128_1 v1) w2 (broadcastInDim S1x128 ![1] bcast_S128_S1x128_1 v2) := by
  rw [layer_eq_row]

/-! ## The sum over the nodes of each graph -/

/-- A 32-bit word whose signed value is `g`, below 500, is the word of `g`, and conversely. -/
theorem toInt_eq_iff_eq_ofNat (b : BitVec 32) (g : Fin 500) :
    b.toInt = (g.val : Int) ↔ b = BitVec.ofNat 32 g.val := by
  have hg := g.isLt
  have e : (BitVec.ofNat 32 g.val).toInt = (g.val : Int) := by
    rw [BitVec.toInt_eq_toNat_of_lt (by rw [BitVec.toNat_ofNat]; omega), BitVec.toNat_ofNat]
    omega
  constructor
  · intro hb
    exact BitVec.eq_of_toInt_eq (hb.trans e.symm)
  · rintro rfl
    exact e

/-- The accumulating scatter of the node rows into 500 zero rows at the batch entries is the specification's `pool`. -/
theorem pool_eq (batch : (⟨1, ![50000]⟩ : Shape).Idx → BitVec 32) (x : Cert.Spec.Nodes) :
    Host.scatterAdd (F := Ideal) (φ := .f32) scatter_S500x128_S50000x1_S50000x128_1_0_0_1
        (broadcastInDim S500x128 ![] bcast_S_S500x128 (constant (F := Ideal) S_ .f32 0x00000000#32))
        (broadcastInDim S50000x1 ![0] bcast_S50000_S50000x1_0 batch) x
      = Cert.Spec.pool (broadcastInDim S50000x1 ![0] bcast_S50000_S50000x1_0 batch) x := by
  funext i
  obtain ⟨g, d, rfl⟩ : ∃ (g : Fin 500) (d : Fin 128), i = ix2 g d := ⟨i 0, i 1, eq_ix2 i⟩
  rw [Cert.Spec.pool_apply]
  generalize (broadcastInDim S50000x1 ![0] bcast_S50000_S50000x1_0 batch) = col
  unfold Host.scatterAdd
  rw [Ideal.hostScatterAdd_def]
  unfold Ideal.hostScatterAdd
  show (broadcastInDim S500x128 ![] bcast_S_S500x128 (constant (F := Ideal) S_ .f32 0x00000000#32)) (ix2 g d) + _ = _
  rw [broadcastInDim_scalar_apply, constant_apply, Ideal.ofBits_zero_f32, zero_add, Finset.sum_filter, ValueIdx.sum_idx2]
  refine Finset.sum_congr rfl fun n _ => ?_
  simp only [Cert.LibRows.scatter_rows_result scatter_S500x128_S50000x1_S50000x128_1_0_0_1 rfl rfl rfl rfl col n _ g d]
  by_cases hb : (col (ix2 n (0 : Fin 1))).toInt = (g.val : Int)
  · rw [if_pos ((toInt_eq_iff_eq_ofNat _ g).mp hb)]
    simp only [hb, true_and]
    rw [Finset.sum_ite_eq' Finset.univ d (fun q => x (ix2 n q)), if_pos (Finset.mem_univ d)]
  · rw [if_neg (fun hc => hb ((toInt_eq_iff_eq_ofNat _ g).mpr hc))]
    simp only [hb, false_and, if_false, Finset.sum_const_zero]

/-! ## The program's pieces by name -/

/-- The edges' sources and destinations: rows 0 and 1 of the edge array, as one-dimensional vectors of words. -/
def srcVec (m : (ℓ : Loc nD τ sig) → Buf (Elt Ideal) ℓ) (c : Dev nD) : IVec S800000 32 :=
  shapeCast _ (extractStridedSlice S1x800000 ![0, 0] (m ((c.tc : Thread nD τ).loc main_arg1)) slices_S2x800000_S1x800000_0_0) shapeCasts_S1x800000_S800000
def dstVec (m : (ℓ : Loc nD τ sig) → Buf (Elt Ideal) ℓ) (c : Dev nD) : IVec S800000 32 :=
  shapeCast _ (extractStridedSlice S1x800000 ![1, 0] (m ((c.tc : Thread nD τ).loc main_arg1)) slices_S2x800000_S1x800000_1_0) shapeCasts_S1x800000_S800000
/-- … and read at an edge. -/
def src (m : (ℓ : Loc nD τ sig) → Buf (Elt Ideal) ℓ) (c : Dev nD) : Fin 800000 → BitVec 32 := fun e => srcVec m c (ix1 e)
def dst (m : (ℓ : Loc nD τ sig) → Buf (Elt Ideal) ℓ) (c : Dev nD) : Fin 800000 → BitVec 32 := fun e => dstVec m c (ix1 e)

/-- The three layers' weight matrices (slices of the two weight stacks) and bias rows (slices of the two bias
    stacks, each as a one-row matrix). -/
def w1_0 (m : (ℓ : Loc nD τ sig) → Buf (Elt Ideal) ℓ) (c : Dev nD) : Cert.Spec.Mat :=
  shapeCast _ (extractStridedSlice S1x128x128 ![0, 0, 0] (m ((c.tc : Thread nD τ).loc main_arg3)) slices_S3x128x128_S1x128x128_0_0_0) shapeCasts_S1x128x128_S128x128
def w2_0 (m : (ℓ : Loc nD τ sig) → Buf (Elt Ideal) ℓ) (c : Dev nD) : Cert.Spec.Mat :=
  shapeCast _ (extractStridedSlice S1x128x128 ![0, 0, 0] (m ((c.tc : Thread nD τ).loc main_arg5)) slices_S3x128x128_S1x128x128_0_0_0) shapeCasts_S1x128x128_S128x128
def b1_0 (m : (ℓ : Loc nD τ sig) → Buf (Elt Ideal) ℓ) (c : Dev nD) : Cert.Spec.Row :=
  broadcastInDim S1x128 ![1] bcast_S128_S1x128_1 (shapeCast _ (extractStridedSlice S1x128 ![0, 0] (m ((c.tc : Thread nD τ).loc main_arg4)) slices_S3x128_S1x128_0_0) shapeCasts_S1x128_S128)
def b2_0 (m : (ℓ : Loc nD τ sig) → Buf (Elt Ideal) ℓ) (c : Dev nD) : Cert.Spec.Row :=
  broadcastInDim S1x128 ![1] bcast_S128_S1x128_1 (shapeCast _ (extractStridedSlice S1x128 ![0, 0] (m ((c.tc : Thread nD τ).loc main_arg6)) slices_S3x128_S1x128_0_0) shapeCasts_S1x128_S128)
def w1_1 (m : (ℓ : Loc nD τ sig) → Buf (Elt Ideal) ℓ) (c : Dev nD) : Cert.Spec.Mat :=
  shapeCast _ (extractStridedSlice S1x128x128 ![1, 0, 0] (m ((c.tc : Thread nD τ).loc main_arg3)) slices_S3x128x128_S1x128x128_1_0_0) shapeCasts_S1x128x128_S128x128
def w2_1 (m : (ℓ : Loc nD τ sig) → Buf (Elt Ideal) ℓ) (c : Dev nD) : Cert.Spec.Mat :=
  shapeCast _ (extractStridedSlice S1x128x128 ![1, 0, 0] (m ((c.tc : Thread nD τ).loc main_arg5)) slices_S3x128x128_S1x128x128_1_0_0) shapeCasts_S1x128x128_S128x128
def b1_1 (m : (ℓ : Loc nD τ sig) → Buf (Elt Ideal) ℓ) (c : Dev nD) : Cert.Spec.Row :=
  broadcastInDim S1x128 ![1] bcast_S128_S1x128_1 (shapeCast _ (extractStridedSlice S1x128 ![1, 0] (m ((c.tc : Thread nD τ).loc main_arg4)) slices_S3x128_S1x128_1_0) shapeCasts_S1x128_S128)
def b2_1 (m : (ℓ : Loc nD τ sig) → Buf (Elt Ideal) ℓ) (c : Dev nD) : Cert.Spec.Row :=
  broadcastInDim S1x128 ![1] bcast_S128_S1x128_1 (shapeCast _ (extractStridedSlice S1x128 ![1, 0] (m ((c.tc : Thread nD τ).loc main_arg6)) slices_S3x128_S1x128_1_0) shapeCasts_S1x128_S128)
def w1_2 (m : (ℓ : Loc nD τ sig) → Buf (Elt Ideal) ℓ) (c : Dev nD) : Cert.Spec.Mat :=
  shapeCast _ (extractStridedSlice S1x128x128 ![2, 0, 0] (m ((c.tc : Thread nD τ).loc main_arg3)) slices_S3x128x128_S1x128x128_2_0_0) shapeCasts_S1x128x128_S128x128
def w2_2 (m : (ℓ : Loc nD τ sig) → Buf (Elt Ideal) ℓ) (c : Dev nD) : Cert.Spec.Mat :=
  shapeCast _ (extractStridedSlice S1x128x128 ![2, 0, 0] (m ((c.tc : Thread nD τ).loc main_arg5)) slices_S3x128x128_S1x128x128_2_0_0) shapeCasts_S1x128x128_S128x128
def b1_2 (m : (ℓ : Loc nD τ sig) → Buf (Elt Ideal) ℓ) (c : Dev nD) : Cert.Spec.Row :=
  broadcastInDim S1x128 ![1] bcast_S128_S1x128_1 (shapeCast _ (extractStridedSlice S1x128 ![2, 0] (m ((c.tc : Thread nD τ).loc main_arg4)) slices_S3x128_S1x128_2_0) shapeCasts_S1x128_S128)
def b2_2 (m : (ℓ : Loc nD τ sig) → Buf (Elt Ideal) ℓ) (c : Dev nD) : Cert.Spec.Row :=
  broadcastInDim S1x128 ![1] bcast_S128_S1x128_1 (shapeCast _ (extractStridedSlice S1x128 ![2, 0] (m ((c.tc : Thread nD τ).loc main_arg6)) slices_S3x128_S1x128_2_0) shapeCasts_S1x128_S128)

/-- The batch entries as a one-column table. -/
def batchCol (m : (ℓ : Loc nD τ sig) → Buf (Elt Ideal) ℓ) (c : Dev nD) : Cert.Spec.BatchCol :=
  broadcastInDim S50000x1 ![0] bcast_S50000_S50000x1_0 (m ((c.tc : Thread nD τ).loc main_arg2))

/-- The specification's three layers on the program's arguments. -/
def H1 (m : (ℓ : Loc nD τ sig) → Buf (Elt Ideal) ℓ) (c : Dev nD) : Cert.Spec.Nodes :=
  Cert.Spec.mlp (Cert.Spec.segSum (m ((c.tc : Thread nD τ).loc main_arg0)) (src m c) (dst m c)) (m ((c.tc : Thread nD τ).loc main_arg0)) (w1_0 m c) (b1_0 m c) (w2_0 m c) (b2_0 m c)
def H2 (m : (ℓ : Loc nD τ sig) → Buf (Elt Ideal) ℓ) (c : Dev nD) : Cert.Spec.Nodes :=
  Cert.Spec.mlp (Cert.Spec.segSum (H1 m c) (src m c) (dst m c)) (H1 m c) (w1_1 m c) (b1_1 m c) (w2_1 m c) (b2_1 m c)
def H3 (m : (ℓ : Loc nD τ sig) → Buf (Elt Ideal) ℓ) (c : Dev nD) : Cert.Spec.Nodes :=
  Cert.Spec.mlp (Cert.Spec.segSum (H2 m c) (src m c) (dst m c)) (H2 m c) (w1_2 m c) (b1_2 m c) (w2_2 m c) (b2_2 m c)

/-! ## The program's own layer terms -/

/-- The neighbourhood sum as the program computes it: rows taken at the sources (a negative source moved up by the
    number of nodes), added into zero rows at the destinations. -/
def aggR (m : (ℓ : Loc nD τ sig) → Buf (Elt Ideal) ℓ) (c : Dev nD) (h : FVec Ideal S50000x128 .f32) : FVec Ideal S50000x128 .f32 :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 (dstVec m c)) (Host.gather gather_S50000x128_S800000x1_S800000x128_1_0_n_n_0_1_1128 h (broadcastInDim S800000x1 ![0] bcast_S800000_S800000x1_0 (select (cmpi .slt (srcVec m c) (broadcastInDim S800000 ![] bcast_S_S800000 (constantI S_ 32 0#32))) (addi (srcVec m c) (broadcastInDim S800000 ![] bcast_S_S800000 (constantI S_ 32 50000#32))) (srcVec m c))))

/-- One layer as the program computes it. -/
def layerR (m : (ℓ : Loc nD τ sig) → Buf (Elt Ideal) ℓ) (c : Dev nD) (h : FVec Ideal S50000x128 .f32) (w1 : FVec Ideal S128x128 .f32) (b1 : FVec Ideal S1x128 .f32)
    (w2 : FVec Ideal S128x128 .f32) (b2 : FVec Ideal S1x128 .f32) : FVec Ideal S50000x128 .f32 :=
  maximumf (addf (Host.dotGeneral dot_S50000x128_S128x128_S50000x128_1_0_0_1_n_n none (maximumf (addf (Host.dotGeneral dot_S50000x128_S128x128_S50000x128_1_0_0_1_n_n none (addf (aggR m c h) h) w1) (broadcastInDim S50000x128 ![0, 1] bcast_S1x128_S50000x128_0_1 b1)) (broadcastInDim S50000x128 ![] bcast_S_S50000x128 (constant S_ .f32 0x00000000#32))) w2) (broadcastInDim S50000x128 ![0, 1] bcast_S1x128_S50000x128_0_1 b2)) (broadcastInDim S50000x128 ![] bcast_S_S50000x128 (constant S_ .f32 0x00000000#32))

def R1 (m : (ℓ : Loc nD τ sig) → Buf (Elt Ideal) ℓ) (c : Dev nD) : Cert.Spec.Nodes := layerR m c (m ((c.tc : Thread nD τ).loc main_arg0)) (w1_0 m c) (b1_0 m c) (w2_0 m c) (b2_0 m c)
def R2 (m : (ℓ : Loc nD τ sig) → Buf (Elt Ideal) ℓ) (c : Dev nD) : Cert.Spec.Nodes := layerR m c (R1 m c) (w1_1 m c) (b1_1 m c) (w2_1 m c) (b2_1 m c)
def R3 (m : (ℓ : Loc nD τ sig) → Buf (Elt Ideal) ℓ) (c : Dev nD) : Cert.Spec.Nodes := layerR m c (R2 m c) (w1_2 m c) (b1_2 m c) (w2_2 m c) (b2_2 m c)

/-- The per-graph sum as the program computes it. -/
def poolR (m : (ℓ : Loc nD τ sig) → Buf (Elt Ideal) ℓ) (c : Dev nD) (x : FVec Ideal S50000x128 .f32) : FVec Ideal S500x128 .f32 :=
  Host.scatterAdd scatter_S500x128_S50000x1_S50000x128_1_0_0_1 (broadcastInDim S500x128 ![] bcast_S_S500x128 (constant S_ .f32 0x00000000#32)) (broadcastInDim S50000x1 ![0] bcast_S50000_S50000x1_0 (m ((c.tc : Thread nD τ).loc main_arg2))) x

/-! ## The program's two results over its own layer terms -/

set_option maxRecDepth 16384 in
/-- The joined node features are the join of the program's three layer terms: the same text, with the layers named. -/
theorem res_out1_R (m : (ℓ : Loc nD τ sig) → Buf (Elt Ideal) ℓ) (c : Dev nD) :
    Cert.ReferenceIdeal.Value.res_main_v107 m c
      = concatenate S50000x384 1 [⟨S50000x128, R1 m c⟩, ⟨S50000x128, R2 m c⟩, ⟨S50000x128, R3 m c⟩] concatenates_S50000x128_S50000x128_S50000x128_S50000x384_d1 := by
  unfold Cert.ReferenceIdeal.Value.res_main_v107
  rfl

set_option maxRecDepth 16384 in
/-- … and the joined pooled features the join of their per-graph sums. -/
theorem res_out0_R (m : (ℓ : Loc nD τ sig) → Buf (Elt Ideal) ℓ) (c : Dev nD) :
    Cert.ReferenceIdeal.Value.res_main_v106 m c
      = concatenate S500x384 1 [⟨S500x128, poolR m c (R1 m c)⟩, ⟨S500x128, poolR m c (R2 m c)⟩, ⟨S500x128, poolR m c (R3 m c)⟩] concatenates_S500x128_S500x128_S500x128_S500x384_d1 := by
  unfold Cert.ReferenceIdeal.Value.res_main_v106
  rfl

/-! ## The layer terms are the specification's layers -/

/-- The program's neighbourhood sum is the specification's. -/
theorem aggR_eq (m : (ℓ : Loc nD τ sig) → Buf (Elt Ideal) ℓ) (c : Dev nD) (h : Cert.Spec.Nodes) :
    aggR m c h = Cert.Spec.segSum h (src m c) (dst m c) := by
  unfold aggR
  exact Cert.SegPerm.scatter_gather_eq scatter_S50000x128_S800000x1_S800000x128_1_0_0_1 rfl rfl rfl rfl
    gather_S50000x128_S800000x1_S800000x128_1_0_n_n_0_1_1128 rfl rfl rfl rfl rfl rfl
    bcast_S_S50000x128 bcast_S800000_S800000x1_0 bcast_S_S800000 h (srcVec m c) (dstVec m c)

/-- One layer of the program is one layer of the specification. -/
theorem layerR_eq (m : (ℓ : Loc nD τ sig) → Buf (Elt Ideal) ℓ) (c : Dev nD) (h : Cert.Spec.Nodes) (w1 : Cert.Spec.Mat) (b1 : Cert.Spec.Row)
    (w2 : Cert.Spec.Mat) (b2 : Cert.Spec.Row) :
    layerR m c h w1 b1 w2 b2 = Cert.Spec.mlp (Cert.Spec.segSum h (src m c) (dst m c)) h w1 b1 w2 b2 := by
  unfold layerR
  rw [aggR_eq]
  exact layer_eq_row _ h w1 w2 b1 b2

theorem R1_eq (m : (ℓ : Loc nD τ sig) → Buf (Elt Ideal) ℓ) (c : Dev nD) : R1 m c = H1 m c := layerR_eq m c _ _ _ _ _

theorem R2_eq (m : (ℓ : Loc nD τ sig) → Buf (Elt Ideal) ℓ) (c : Dev nD) : R2 m c = H2 m c := by
  unfold R2 H2
  rw [R1_eq]
  exact layerR_eq m c _ _ _ _ _

theorem R3_eq (m : (ℓ : Loc nD τ sig) → Buf (Elt Ideal) ℓ) (c : Dev nD) : R3 m c = H3 m c := by
  unfold R3 H3
  rw [R2_eq]
  exact layerR_eq m c _ _ _ _ _

/-- The program's per-graph sum is the specification's. -/
theorem poolR_eq (m : (ℓ : Loc nD τ sig) → Buf (Elt Ideal) ℓ) (c : Dev nD) (x : Cert.Spec.Nodes) :
    poolR m c x = Cert.Spec.pool (batchCol m c) x :=
  pool_eq (m ((c.tc : Thread nD τ).loc main_arg2)) x

/-! ## The program's two results in the specification's words -/

/-- The joined node features: the specification's three layers side by side. -/
theorem res_out1_eq (m : (ℓ : Loc nD τ sig) → Buf (Elt Ideal) ℓ) (c : Dev nD) :
    Cert.ReferenceIdeal.Value.res_main_v107 m c
      = concatenate S50000x384 1 [⟨S50000x128, H1 m c⟩, ⟨S50000x128, H2 m c⟩, ⟨S50000x128, H3 m c⟩] concatenates_S50000x128_S50000x128_S50000x128_S50000x384_d1 := by
  rw [res_out1_R, R1_eq, R2_eq, R3_eq]

/-- The joined pooled features: the per-graph sums of the specification's three layers side by side. -/
theorem res_out0_eq (m : (ℓ : Loc nD τ sig) → Buf (Elt Ideal) ℓ) (c : Dev nD) :
    Cert.ReferenceIdeal.Value.res_main_v106 m c
      = concatenate S500x384 1 [⟨S500x128, Cert.Spec.pool (batchCol m c) (H1 m c)⟩, ⟨S500x128, Cert.Spec.pool (batchCol m c) (H2 m c)⟩, ⟨S500x128, Cert.Spec.pool (batchCol m c) (H3 m c)⟩] concatenates_S500x128_S500x128_S500x128_S500x384_d1 := by
  rw [res_out0_R, poolR_eq, poolR_eq, poolR_eq, R1_eq, R2_eq, R3_eq]

end Cert.ReferenceIdeal.RefVals

end
-- ==== Proof.KI.HostVals.lean ====
/- What the host stretches leave in the buffers the kernel regions read, read off the valuations between the
   program's items: the sorted edge order and the gathered and scattered neighbour sums that feed each layer, the
   layers' weight and bias slices, the regions' own inputs, and the two concatenated results. -/
import proofs.«428858_j8770323218938_3_alg».proof.Proof.Gen.KernelIdeal.Regions
import Idealize.ShloMosaic.Lib.StableHlo.Run
import Idealize.ShloMosaic.PureOps.Ideal

set_option maxRecDepth 16384

noncomputable section

namespace Cert.KernelIdeal.HostVals

open Idealize.ShloMosaic Idealize.ShloMosaic.TcCoe Idealize.ShloMosaic.StableHlo
open Idealize.SL Idealize.SL.Sem
open Cert.KernelIdeal.Gen

variable (m : (ℓ : Loc nD τ sig) → Buf (Elt Ideal) ℓ) (outs : Outs (F := Ideal)) (c : Dev nD)

/-! ## The edge list, sorted by destination -/

/-- Row 0 of the edge array: the sources. -/
def srcRow (ei : IVec S2x800000 32) : IVec S800000 32 :=
  shapeCast S800000 (extractStridedSlice S1x800000 ![0, 0] ei slices_S2x800000_S1x800000_0_0) shapeCasts_S1x800000_S800000

/-- Row 1 of the edge array: the destinations. -/
def dstRow (ei : IVec S2x800000 32) : IVec S800000 32 :=
  shapeCast S800000 (extractStridedSlice S1x800000 ![1, 0] ei slices_S2x800000_S1x800000_1_0) shapeCasts_S1x800000_S800000

/-- The argsort of the destinations: the positions' row carried through the sort of the destination row. -/
def order (ei : IVec S2x800000 32) : IVec S800000 32 :=
  (Host.sort2 S800000 0 comparator_i32_i32_d0 (dstRow ei) (iotaInDim S800000 32 0)).2

/-- The sources in sorted order: the source row taken at the order, a negative position counted from the end. -/
def srcS (ei : IVec S2x800000 32) : IVec S800000 32 :=
  Host.gather gather_S800000_S800000x1_S800000_n_0_n_n_0_1_1 (srcRow ei) (broadcastInDim S800000x1 ![0] bcast_S800000_S800000x1_0 (select (cmpi .slt (order ei) (broadcastInDim S800000 ![] bcast_S_S800000 (constantI S_ 32 0#32))) (addi (order ei) (broadcastInDim S800000 ![] bcast_S_S800000 (constantI S_ 32 800000#32))) (order ei)))

/-- The destinations in sorted order. -/
def dstS (ei : IVec S2x800000 32) : IVec S800000 32 :=
  Host.gather gather_S800000_S800000x1_S800000_n_0_n_n_0_1_1 (dstRow ei) (broadcastInDim S800000x1 ![0] bcast_S800000_S800000x1_0 (select (cmpi .slt (order ei) (broadcastInDim S800000 ![] bcast_S_S800000 (constantI S_ 32 0#32))) (addi (order ei) (broadcastInDim S800000 ![] bcast_S_S800000 (constantI S_ 32 800000#32))) (order ei)))

/-! ## The neighbour sum -/

/-- The neighbour sum of a bf16 table `hb` over the sorted edges: each edge's source row, widened to f32, added
    into a zero table at the edge's destination row (a negative source counted from the end). -/
def KSeg (hb : FVec Ideal S50000x128 .bf16) (ei : IVec S2x800000 32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 (dstS ei))
    (extf .f32 (Host.gather gather_S50000x128_S800000x1_S800000x128_1_0_n_n_0_1_1128 hb
      (broadcastInDim S800000x1 ![0] bcast_S800000_S800000x1_0 (select (cmpi .slt (srcS ei) (broadcastInDim S800000 ![] bcast_S_S800000 (constantI S_ 32 0#32))) (addi (srcS ei) (broadcastInDim S800000 ![] bcast_S_S800000 (constantI S_ 32 50000#32))) (srcS ei)))) bitsLt_bf16_f32)

/-! ## The layers' weights -/

/-- Layer 0's first weight matrix, second weight matrix and their bias rows, each a slice of its stacked argument. -/
def w1k0 : Vec Ideal S128x128 .f32 := shapeCast S128x128 (extractStridedSlice S1x128x128 ![0, 0, 0] (V0 m c (Proc.tc.devRef main_arg3)) slices_S3x128x128_S1x128x128_0_0_0) shapeCasts_S1x128x128_S128x128
def b1k0 : Vec Ideal S1x128 .f32 := shapeCast S1x128 (shapeCast S128 (extractStridedSlice S1x128 ![0, 0] (V0 m c (Proc.tc.devRef main_arg4)) slices_S3x128_S1x128_0_0) shapeCasts_S1x128_S128) shapeCasts_S128_S1x128
def w2k0 : Vec Ideal S128x128 .f32 := shapeCast S128x128 (extractStridedSlice S1x128x128 ![0, 0, 0] (V0 m c (Proc.tc.devRef main_arg5)) slices_S3x128x128_S1x128x128_0_0_0) shapeCasts_S1x128x128_S128x128
def b2k0 : Vec Ideal S1x128 .f32 := shapeCast S1x128 (shapeCast S128 (extractStridedSlice S1x128 ![0, 0] (V0 m c (Proc.tc.devRef main_arg6)) slices_S3x128_S1x128_0_0) shapeCasts_S1x128_S128) shapeCasts_S128_S1x128

/-- Layer 1's first weight matrix, second weight matrix and their bias rows, each a slice of its stacked argument. -/
def w1k1 : Vec Ideal S128x128 .f32 := shapeCast S128x128 (extractStridedSlice S1x128x128 ![1, 0, 0] (V0 m c (Proc.tc.devRef main_arg3)) slices_S3x128x128_S1x128x128_1_0_0) shapeCasts_S1x128x128_S128x128
def b1k1 : Vec Ideal S1x128 .f32 := shapeCast S1x128 (shapeCast S128 (extractStridedSlice S1x128 ![1, 0] (V0 m c (Proc.tc.devRef main_arg4)) slices_S3x128_S1x128_1_0) shapeCasts_S1x128_S128) shapeCasts_S128_S1x128
def w2k1 : Vec Ideal S128x128 .f32 := shapeCast S128x128 (extractStridedSlice S1x128x128 ![1, 0, 0] (V0 m c (Proc.tc.devRef main_arg5)) slices_S3x128x128_S1x128x128_1_0_0) shapeCasts_S1x128x128_S128x128
def b2k1 : Vec Ideal S1x128 .f32 := shapeCast S1x128 (shapeCast S128 (extractStridedSlice S1x128 ![1, 0] (V0 m c (Proc.tc.devRef main_arg6)) slices_S3x128_S1x128_1_0) shapeCasts_S1x128_S128) shapeCasts_S128_S1x128

/-- Layer 2's first weight matrix, second weight matrix and their bias rows, each a slice of its stacked argument. -/
def w1k2 : Vec Ideal S128x128 .f32 := shapeCast S128x128 (extractStridedSlice S1x128x128 ![2, 0, 0] (V0 m c (Proc.tc.devRef main_arg3)) slices_S3x128x128_S1x128x128_2_0_0) shapeCasts_S1x128x128_S128x128
def b1k2 : Vec Ideal S1x128 .f32 := shapeCast S1x128 (shapeCast S128 (extractStridedSlice S1x128 ![2, 0] (V0 m c (Proc.tc.devRef main_arg4)) slices_S3x128_S1x128_2_0) shapeCasts_S1x128_S128) shapeCasts_S128_S1x128
def w2k2 : Vec Ideal S128x128 .f32 := shapeCast S128x128 (extractStridedSlice S1x128x128 ![2, 0, 0] (V0 m c (Proc.tc.devRef main_arg5)) slices_S3x128x128_S1x128x128_2_0_0) shapeCasts_S1x128x128_S128x128
def b2k2 : Vec Ideal S1x128 .f32 := shapeCast S1x128 (shapeCast S128 (extractStridedSlice S1x128 ![2, 0] (V0 m c (Proc.tc.devRef main_arg6)) slices_S3x128_S1x128_2_0) shapeCasts_S1x128_S128) shapeCasts_S128_S1x128

/-! ## What a region's update leaves at its own outputs -/

theorem v42_1_V4 : V4 m outs c main_v42_1 = outs 4 main_v42_1 c := by
  simp only [V4, Function.update_self]
theorem v42_0_V4 : V4 m outs c main_v42_0 = outs 4 main_v42_0 c := by
  simp only [V4, Function.update_of_ne (StableHlo.devRef_ne_of_ne (by decide : main_v42_0 ≠ main_v42_1) : (Proc.devRef .tc main_v42_0 : DevRef τ sig) ≠ Proc.devRef .tc main_v42_1), Function.update_self]
theorem v64_1_V6 : V6 m outs c main_v64_1 = outs 6 main_v64_1 c := by
  simp only [V6, Function.update_self]
theorem v64_0_V6 : V6 m outs c main_v64_0 = outs 6 main_v64_0 c := by
  simp only [V6, Function.update_of_ne (StableHlo.devRef_ne_of_ne (by decide : main_v64_0 ≠ main_v64_1) : (Proc.devRef .tc main_v64_0 : DevRef τ sig) ≠ Proc.devRef .tc main_v64_1), Function.update_self]
theorem v86_0_V8 : V8 m outs c main_v86_0 = outs 8 main_v86_0 c := by
  simp only [V8, Function.update_of_ne (StableHlo.devRef_ne_of_ne (by decide : main_v86_0 ≠ main_v86_1) : (Proc.devRef .tc main_v86_0 : DevRef τ sig) ≠ Proc.devRef .tc main_v86_1), Function.update_self]
theorem v88_V10 : V10 m outs c main_v88 = outs 10 main_v88 c := by
  simp only [V10, Function.update_self]
theorem v89_V11 : V11 m outs c main_v89 = outs 11 main_v89 c := by
  simp only [V11, Function.update_self]
theorem v90_V12 : V12 m outs c main_v90 = outs 12 main_v90 c := by
  simp only [V12, Function.update_self]

/-! ## What the first host stretches leave -/

set_option maxHeartbeats 1000000 in
/-- The argsort, as the sort's stretch leaves it. -/
theorem v5_V2 : V2 m c main_v5 = order (V0 m c (Proc.tc.devRef main_arg1)) := by
  dsimp only [V2]; after_results_simp; rfl

set_option maxHeartbeats 1000000 in
/-- The sorted sources and destinations, as the third stretch leaves them. -/
theorem v12_V3 : V3 m c main_v12 = srcS (V0 m c (Proc.tc.devRef main_arg1)) := by
  dsimp only [V3]; after_results_simp; rfl
set_option maxHeartbeats 1000000 in
theorem v19_V3 : V3 m c main_v19 = dstS (V0 m c (Proc.tc.devRef main_arg1)) := by
  dsimp only [V3]; after_results_simp; rfl

set_option maxHeartbeats 1000000 in
/-- Layer 0's neighbour sum: of the node features rounded to bf16. The memory reads are spelled as the fold over
    the stretches leaves them: the launch valuation at the argument's device reference. -/
theorem v31_eq : V3 m c main_v31 = KSeg (truncf .bf16 (V0 m c (Proc.tc.devRef main_arg0)) bitsLt_bf16_f32) (V0 m c (Proc.tc.devRef main_arg1)) := by
  dsimp only [V3]; after_results_simp; rfl

set_option maxHeartbeats 1000000 in
/-- Layer 1's neighbour sum: of what region 0 leaves in its bf16 output. -/
theorem v53_eq : V5 m outs c main_v53 = KSeg (outs 4 main_v42_1 c) (V0 m c (Proc.tc.devRef main_arg1)) := by
  dsimp only [V5]; after_results_simp
  rw [v42_1_V4, V4_of m outs c main_v12 (by decide), V4_of m outs c main_v19 (by decide), v12_V3, v19_V3]; rfl

set_option maxHeartbeats 1000000 in
/-- Layer 2's neighbour sum: of what region 1 leaves in its bf16 output. -/
theorem v75_eq : V7 m outs c main_v75 = KSeg (outs 6 main_v64_1 c) (V0 m c (Proc.tc.devRef main_arg1)) := by
  dsimp only [V7]; after_results_simp
  rw [v64_1_V6, V6_of m outs c main_v12 (by decide), V5_of m outs c main_v12 (by decide), V4_of m outs c main_v12 (by decide), V6_of m outs c main_v19 (by decide), V5_of m outs c main_v19 (by decide), V4_of m outs c main_v19 (by decide), v12_V3, v19_V3]; rfl

/-! ## The weights the regions read -/

set_option maxHeartbeats 1000000 in
theorem v33_eq : V3 m c main_v33 = w1k0 m c := by
  dsimp only [V3]; after_results_simp; rfl
set_option maxHeartbeats 1000000 in
theorem v40_eq : V3 m c main_v40 = b1k0 m c := by
  dsimp only [V3]; after_results_simp; rfl
set_option maxHeartbeats 1000000 in
theorem v37_eq : V3 m c main_v37 = w2k0 m c := by
  dsimp only [V3]; after_results_simp; rfl
set_option maxHeartbeats 1000000 in
theorem v41_eq : V3 m c main_v41 = b2k0 m c := by
  dsimp only [V3]; after_results_simp; rfl
set_option maxHeartbeats 1000000 in
theorem v55_eq : V5 m outs c main_v55 = w1k1 m c := by
  dsimp only [V5]; after_results_simp
  rw [V4_of m outs c main_arg3 (by decide), V3_of m c main_arg3 (by decide), V2_of m c main_arg3 (by decide), V1_of m c main_arg3 (by decide)]; rfl
set_option maxHeartbeats 1000000 in
theorem v62_eq : V5 m outs c main_v62 = b1k1 m c := by
  dsimp only [V5]; after_results_simp
  rw [V4_of m outs c main_arg4 (by decide), V3_of m c main_arg4 (by decide), V2_of m c main_arg4 (by decide), V1_of m c main_arg4 (by decide)]; rfl
set_option maxHeartbeats 1000000 in
theorem v59_eq : V5 m outs c main_v59 = w2k1 m c := by
  dsimp only [V5]; after_results_simp
  rw [V4_of m outs c main_arg5 (by decide), V3_of m c main_arg5 (by decide), V2_of m c main_arg5 (by decide), V1_of m c main_arg5 (by decide)]; rfl
set_option maxHeartbeats 1000000 in
theorem v63_eq : V5 m outs c main_v63 = b2k1 m c := by
  dsimp only [V5]; after_results_simp
  rw [V4_of m outs c main_arg6 (by decide), V3_of m c main_arg6 (by decide), V2_of m c main_arg6 (by decide), V1_of m c main_arg6 (by decide)]; rfl
set_option maxHeartbeats 1000000 in
theorem v77_eq : V7 m outs c main_v77 = w1k2 m c := by
  dsimp only [V7]; after_results_simp
  rw [V6_of m outs c main_arg3 (by decide), V5_of m outs c main_arg3 (by decide), V4_of m outs c main_arg3 (by decide), V3_of m c main_arg3 (by decide), V2_of m c main_arg3 (by decide), V1_of m c main_arg3 (by decide)]; rfl
set_option maxHeartbeats 1000000 in
theorem v84_eq : V7 m outs c main_v84 = b1k2 m c := by
  dsimp only [V7]; after_results_simp
  rw [V6_of m outs c main_arg4 (by decide), V5_of m outs c main_arg4 (by decide), V4_of m outs c main_arg4 (by decide), V3_of m c main_arg4 (by decide), V2_of m c main_arg4 (by decide), V1_of m c main_arg4 (by decide)]; rfl
set_option maxHeartbeats 1000000 in
theorem v81_eq : V7 m outs c main_v81 = w2k2 m c := by
  dsimp only [V7]; after_results_simp
  rw [V6_of m outs c main_arg5 (by decide), V5_of m outs c main_arg5 (by decide), V4_of m outs c main_arg5 (by decide), V3_of m c main_arg5 (by decide), V2_of m c main_arg5 (by decide), V1_of m c main_arg5 (by decide)]; rfl
set_option maxHeartbeats 1000000 in
theorem v85_eq : V7 m outs c main_v85 = b2k2 m c := by
  dsimp only [V7]; after_results_simp
  rw [V6_of m outs c main_arg6 (by decide), V5_of m outs c main_arg6 (by decide), V4_of m outs c main_arg6 (by decide), V3_of m c main_arg6 (by decide), V2_of m c main_arg6 (by decide), V1_of m c main_arg6 (by decide)]; rfl

/-! ## The regions' own inputs -/

/-- The node features are still the launch contents when region 0 reads them. -/
theorem arg0_V3 : V3 m c main_arg0 = (V0 m c (Proc.tc.devRef main_arg0)) := by
  rw [V3_of m c main_arg0 (by decide), V2_of m c main_arg0 (by decide), V1_of m c main_arg0 (by decide)]
/-- Region 1 reads what region 0 left; region 2 what region 1 left. -/
theorem v42_0_V5 : V5 m outs c main_v42_0 = outs 4 main_v42_0 c := by
  rw [V5_of m outs c main_v42_0 (by decide), v42_0_V4]
theorem v64_0_V7 : V7 m outs c main_v64_0 = outs 6 main_v64_0 c := by
  rw [V7_of m outs c main_v64_0 (by decide), v64_0_V6]

/-! ## The pooling regions' inputs -/

set_option maxHeartbeats 1000000 in
/-- The graph assignment as a column, unchanged from the first stretch on. -/
theorem v4_V9 : V9 m outs c main_v4 = shapeCast S50000x1 (V0 m c (Proc.tc.devRef main_arg2)) shapeCasts_S50000_S50000x1 := by
  rw [V9_of m outs c main_v4 (by decide), V8_of m outs c main_v4 (by decide), V7_of m outs c main_v4 (by decide), V6_of m outs c main_v4 (by decide), V5_of m outs c main_v4 (by decide), V4_of m outs c main_v4 (by decide), V3_of m c main_v4 (by decide), V2_of m c main_v4 (by decide)]
  dsimp only [V1]; after_results_simp; rfl
theorem v4_V10 : V10 m outs c main_v4 = shapeCast S50000x1 (V0 m c (Proc.tc.devRef main_arg2)) shapeCasts_S50000_S50000x1 := by
  rw [V10_of m outs c main_v4 (by decide), v4_V9]
theorem v4_V11 : V11 m outs c main_v4 = shapeCast S50000x1 (V0 m c (Proc.tc.devRef main_arg2)) shapeCasts_S50000_S50000x1 := by
  rw [V11_of m outs c main_v4 (by decide), v4_V10]

/-- Each pooling region reads one layer's f32 output, as the layer's region left it. -/
theorem v42_0_V9 : V9 m outs c main_v42_0 = outs 4 main_v42_0 c := by
  rw [V9_of m outs c main_v42_0 (by decide), V8_of m outs c main_v42_0 (by decide), V7_of m outs c main_v42_0 (by decide), V6_of m outs c main_v42_0 (by decide), V5_of m outs c main_v42_0 (by decide), v42_0_V4]
theorem v64_0_V10 : V10 m outs c main_v64_0 = outs 6 main_v64_0 c := by
  rw [V10_of m outs c main_v64_0 (by decide), V9_of m outs c main_v64_0 (by decide), V8_of m outs c main_v64_0 (by decide), V7_of m outs c main_v64_0 (by decide), v64_0_V6]
theorem v86_0_V11 : V11 m outs c main_v86_0 = outs 8 main_v86_0 c := by
  rw [V11_of m outs c main_v86_0 (by decide), V10_of m outs c main_v86_0 (by decide), V9_of m outs c main_v86_0 (by decide), v86_0_V8]

/-! ## The results -/

set_option maxHeartbeats 1000000 in
/-- The node result: the three layers' f32 outputs side by side. -/
theorem v87_V13 : V13 m outs c main_v87 = concatenate S50000x384 1 [⟨S50000x128, outs 4 main_v42_0 c⟩, ⟨S50000x128, outs 6 main_v64_0 c⟩, ⟨S50000x128, outs 8 main_v86_0 c⟩] concatenates_S50000x128_S50000x128_S50000x128_S50000x384_d1 := by
  rw [V13_of m outs c main_v87 (by decide), V12_of m outs c main_v87 (by decide), V11_of m outs c main_v87 (by decide), V10_of m outs c main_v87 (by decide)]
  refine Eq.trans (b := concatenate S50000x384 1 [⟨S50000x128, V8 m outs c main_v42_0⟩, ⟨S50000x128, V8 m outs c main_v64_0⟩, ⟨S50000x128, V8 m outs c main_v86_0⟩] concatenates_S50000x128_S50000x128_S50000x128_S50000x384_d1) (by dsimp only [V9]; after_results; rfl) ?_
  rw [V8_of m outs c main_v42_0 (by decide), V7_of m outs c main_v42_0 (by decide), V6_of m outs c main_v42_0 (by decide), V5_of m outs c main_v42_0 (by decide), v42_0_V4, V8_of m outs c main_v64_0 (by decide), V7_of m outs c main_v64_0 (by decide), v64_0_V6, v86_0_V8]

set_option maxHeartbeats 1000000 in
/-- The graph result: the three pooled tables side by side. -/
theorem v91_V13 : V13 m outs c main_v91 = concatenate S500x384 1 [⟨S500x128, outs 10 main_v88 c⟩, ⟨S500x128, outs 11 main_v89 c⟩, ⟨S500x128, outs 12 main_v90 c⟩] concatenates_S500x128_S500x128_S500x128_S500x384_d1 := by
  refine Eq.trans (b := concatenate S500x384 1 [⟨S500x128, V12 m outs c main_v88⟩, ⟨S500x128, V12 m outs c main_v89⟩, ⟨S500x128, V12 m outs c main_v90⟩] concatenates_S500x128_S500x128_S500x128_S500x384_d1) (by dsimp only [V13]; after_results; rfl) ?_
  rw [V12_of m outs c main_v88 (by decide), V11_of m outs c main_v88 (by decide), v88_V10, V12_of m outs c main_v89 (by decide), v89_V11, v90_V12]

end Cert.KernelIdeal.HostVals

end
-- ==== Proof.KI.ValMlp0Pay.lean ====
/- The arithmetic of region 0's body read at an index, at the ideal values: each of the two block products is the
   sum over the contraction coordinate of the operands' products, the bias row is added to every row, and the
   rectifier is the maximum with zero; the narrowing to bf16 changes nothing at the ideal values.  So the body's
   f32 result at (p, q) of the block, and its bf16 copy, are the two-layer perceptron of row p of the sum of the
   first two blocks. -/
import proofs.«428858_j8770323218938_3_alg».proof.Proof.Gen.KernelIdeal.Skeleton
import proofs.«428858_j8770323218938_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.ValMlp0

open Idealize.ShloMosaic Idealize.ShloMosaic.ValueIdx Idealize.SL.Sem
open Cert.KernelIdeal.Gen

/-! ## The block product's operand indices -/

theorem lhs_dot0_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_dot0_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_dot0_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_dot0_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A [2000,128] by [128,128] block product into the zero splat, at (p, q): row p of the left operand against
    column q of the right one. -/
theorem matmul0_apply {φ₁ φ₂ : FTy} (A : FVec Ideal S2000x128 φ₁) (W : FVec Ideal S128x128 φ₂) (p : Fin 2000) (q : Fin 128) :
    FloatOps.matmul dot_S2000x128_S128x128_S2000x128_1_0_0_1_n_n none A W (constant S2000x128 .f32 0x00000000#32) (ix2 p q)
      = ∑ k : Fin 128, A (ix2 p k) * W (ix2 k q) := by
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_dot0_0 _ _
    | ⟨1, _⟩ => exact (lhs_dot0_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_dot0_0 _ _).trans hk
    | ⟨1, _⟩ => exact rhs_dot0_1 _ _)
  rw [el, er]

/-- One layer at (p, q): the product of the block A with the weights W, the bias row b added to every row,
    rectified. -/
theorem layer0_apply (A : FVec Ideal S2000x128 .f32) (W : FVec Ideal S128x128 .f32) (b : FVec Ideal S1x128 .f32) (p : Fin 2000) (q : Fin 128) :
    maximumf (addf (matmul dot_S2000x128_S128x128_S2000x128_1_0_0_1_n_n none (truncf .bf16 A bitsLt_bf16_f32) (truncf .bf16 W bitsLt_bf16_f32) (constant S2000x128 .f32 0x00000000#32))
        (broadcastTo S2000x128 b broadcasts_S1x128_S2000x128)) (broadcast S2000x128 (Scalar.ofBits (F := Ideal) .f32 0x00000000#32)) (ix2 p q)
      = max ((∑ k : Fin 128, A (ix2 p k) * W (ix2 k q)) + b (ix2 (0 : Fin 1) q)) 0 := by
  rw [maximumf_apply, addf_apply, broadcast_apply]
  simp only [matmul]
  rw [matmul0_apply, broadcastTo_1b_ab_apply]
  simp only [truncf_apply]
  show max _ (Ideal.ofBits .f32 0x00000000#32) = _
  rw [Ideal.ofBits_zero_f32]

/-! ## The body's two results -/

/-- The body's f32 result at (p, q) of the block: the second layer on the first layer's row p, the first layer
    on row p of the sum of the first two blocks. -/
theorem k0_pay1_apply (x0 x1 : Vec Ideal S2000x128 .f32) (x2 : Vec Ideal S128x128 .f32) (x3 : Vec Ideal S1x128 .f32)
    (x4 : Vec Ideal S128x128 .f32) (x5 : Vec Ideal S1x128 .f32) (p : Fin 2000) (q : Fin 128) :
    k0_pay1 (F := Ideal) x0 x1 x2 x3 x4 x5 (ix2 p q)
      = max ((∑ k : Fin 128, max ((∑ k' : Fin 128, (x0 (ix2 p k') + x1 (ix2 p k')) * x2 (ix2 k' k)) + x3 (ix2 (0 : Fin 1) k)) 0 * x4 (ix2 k q))
          + x5 (ix2 (0 : Fin 1) q)) 0 := by
  unfold k0_pay1
  simp only [shapeCast_self]
  rw [layer0_apply]
  simp only [layer0_apply, addf_apply]

/-- The bf16 copy is the same number. -/
theorem k0_pay2_apply (x0 x1 : Vec Ideal S2000x128 .f32) (x2 : Vec Ideal S128x128 .f32) (x3 : Vec Ideal S1x128 .f32)
    (x4 : Vec Ideal S128x128 .f32) (x5 : Vec Ideal S1x128 .f32) (p : Fin 2000) (q : Fin 128) :
    k0_pay2 (F := Ideal) x0 x1 x2 x3 x4 x5 (ix2 p q)
      = max ((∑ k : Fin 128, max ((∑ k' : Fin 128, (x0 (ix2 p k') + x1 (ix2 p k')) * x2 (ix2 k' k)) + x3 (ix2 (0 : Fin 1) k)) 0 * x4 (ix2 k q))
          + x5 (ix2 (0 : Fin 1) q)) 0 := by
  unfold k0_pay2
  rw [truncf_apply, k0_pay1_apply]

end Cert.KernelIdeal.ValMlp0

end
-- ==== Proof.KI.ValMlp0.lean ====
/- The value of region 0's two output arrays at the ideal values.  Point t of the grid reads rows
   [2000 t, 2000 t + 2000) of the neighbourhood sum and of the node features and the whole of the two weight
   matrices and bias rows, and writes back rows [2000 t, 2000 t + 2000) of the two-layer perceptron of those
   rows; the 25 points' blocks tile the 50000 rows, so each output array ends holding the perceptron of the whole
   arrays, the bf16 copy being the same numbers. -/
import proofs.«428858_j8770323218938_3_alg».proof.Proof.KI.Mlp0
import proofs.«428858_j8770323218938_3_alg».proof.Proof.KI.ValMlp0Pay
import Idealize.ShloMosaic.Lib.Pipeline.Value

set_option maxRecDepth 16384

noncomputable section

namespace Cert.KernelIdeal.ValMlp0

open Idealize.ShloMosaic Idealize.ShloMosaic.TcCoe Idealize.ShloMosaic.ValueIdx Idealize.SL.Sem
open Idealize.ShloMosaic.Pipeline (Dat Cfg Window)
open Cert.KernelIdeal.Gen

/-! ## The body's stores at an index -/

theorem hz0 : (![0, 0] : Fin 2 → Nat) = fun _ => 0 := funext fun a => by fin_cases a <;> rfl

/-- What the body leaves in output window 6's buffer, at (p, q). -/
theorem out0_6_apply (x0 x1 : Vec Ideal S2000x128 .f32) (x2 : Vec Ideal S128x128 .f32) (x3 : Vec Ideal S1x128 .f32)
    (x4 : Vec Ideal S128x128 .f32) (x5 : Vec Ideal S1x128 .f32) (p : Fin 2000) (q : Fin 128) :
    out0_6 (F := Ideal) x0 x1 x2 x3 x4 x5 (ix2 p q)
      = max ((∑ k : Fin 128, max ((∑ k' : Fin 128, (x0 (ix2 p k') + x1 (ix2 p k')) * x2 (ix2 k' k)) + x3 (ix2 (0 : Fin 1) k)) 0 * x4 (ix2 k q))
          + x5 (ix2 (0 : Fin 1) q)) 0 := by
  unfold out0_6
  rw [View.canon_unit_zero hz0]
  simp only [View.ld_unit_zero (S := S2000x128) hz0, View.ld_unit_zero (S := S128x128) hz0, View.ld_unit_zero (S := S1x128) hz0]
  exact k0_pay1_apply x0 x1 x2 x3 x4 x5 p q

/-- What the body leaves in output window 7's buffer, at (p, q): the same number. -/
theorem out0_7_apply (x0 x1 : Vec Ideal S2000x128 .f32) (x2 : Vec Ideal S128x128 .f32) (x3 : Vec Ideal S1x128 .f32)
    (x4 : Vec Ideal S128x128 .f32) (x5 : Vec Ideal S1x128 .f32) (p : Fin 2000) (q : Fin 128) :
    out0_7 (F := Ideal) x0 x1 x2 x3 x4 x5 (ix2 p q)
      = max ((∑ k : Fin 128, max ((∑ k' : Fin 128, (x0 (ix2 p k') + x1 (ix2 p k')) * x2 (ix2 k' k)) + x3 (ix2 (0 : Fin 1) k)) 0 * x4 (ix2 k q))
          + x5 (ix2 (0 : Fin 1) q)) 0 := by
  unfold out0_7
  rw [View.canon_unit_zero hz0]
  simp only [View.ld_unit_zero (S := S2000x128) hz0, View.ld_unit_zero (S := S128x128) hz0, View.ld_unit_zero (S := S1x128) hz0]
  exact k0_pay2_apply x0 x1 x2 x3 x4 x5 p q

/-! ## The windows' blocks -/

/-- The printed index maps, decided over the 25 points: the row-blocked windows are at block (t, 0), the others at
    block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

section Blocks
variable (V : (c : Dev nD) → (b : Ref sig .tc) → Buf (Elt Ideal) ((c : Thread nD τ).loc b))

/-- Window 0's block at point t is rows [2000 t, 2000 t + 2000) of the neighbourhood sum. -/
theorem iblk0_0_apply (c : Dev nD) (t : Fin cfg0.N) (p : Fin 2000) (q : Fin 128) (r : Fin 50000) (hr : r.val = 2000 * t.val + p.val) :
    (iblk0 V c 0 t : Vec Ideal S2000x128 .f32) (ix2 p q) = (V c main_v31 : S50000x128.Idx → EReal) (ix2 r q) := by
  show (V c main_v31 : S50000x128.Idx → EReal) (((cfg0.win 0).blk t).view.emb (ix2 p q)) = _
  refine congrArg (V c main_v31 : S50000x128.Idx → EReal) (funext fun a => Fin.ext ?_)
  obtain ⟨e0, e1, -⟩ := idx_facts0 t
  match a with
  | ⟨0, _⟩ => show win0_0.index t (0 : Fin 2) * 2000 + 1 * p.val = r.val; omega
  | ⟨1, _⟩ => show win0_0.index t (1 : Fin 2) * 128 + 1 * q.val = q.val; omega

/-- Window 1's block at point t is rows [2000 t, 2000 t + 2000) of the node features. -/
theorem iblk0_1_apply (c : Dev nD) (t : Fin cfg0.N) (p : Fin 2000) (q : Fin 128) (r : Fin 50000) (hr : r.val = 2000 * t.val + p.val) :
    (iblk0 V c 1 t : Vec Ideal S2000x128 .f32) (ix2 p q) = (V c main_arg0 : S50000x128.Idx → EReal) (ix2 r q) := by
  show (V c main_arg0 : S50000x128.Idx → EReal) (((cfg0.win 1).blk t).view.emb (ix2 p q)) = _
  refine congrArg (V c main_arg0 : S50000x128.Idx → EReal) (funext fun a => Fin.ext ?_)
  obtain ⟨e00, e01, e10, e11, e20, e21, e30, e31, e40, e41, e50, e51, e60, e61, e70, e71⟩ := idx_facts0 t
  match a with
  | ⟨0, _⟩ => show win0_1.index t (0 : Fin 2) * 2000 + 1 * p.val = r.val; omega
  | ⟨1, _⟩ => show win0_1.index t (1 : Fin 2) * 128 + 1 * q.val = q.val; omega

/-- Window 2's block at every point is the whole of the first weight matrix. -/
theorem iblk0_2_apply (c : Dev nD) (t : Fin cfg0.N) (k : Fin 128) (q : Fin 128) :
    (iblk0 V c 2 t : Vec Ideal S128x128 .f32) (ix2 k q) = (V c main_v33 : S128x128.Idx → EReal) (ix2 k q) := by
  show (V c main_v33 : S128x128.Idx → EReal) (((cfg0.win 2).blk t).view.emb (ix2 k q)) = _
  refine congrArg (V c main_v33 : S128x128.Idx → EReal) (funext fun a => Fin.ext ?_)
  obtain ⟨e00, e01, e10, e11, e20, e21, e30, e31, e40, e41, e50, e51, e60, e61, e70, e71⟩ := idx_facts0 t
  match a with
  | ⟨0, _⟩ => show win0_2.index t (0 : Fin 2) * 128 + 1 * k.val = k.val; omega
  | ⟨1, _⟩ => show win0_2.index t (1 : Fin 2) * 128 + 1 * q.val = q.val; omega

/-- Window 3's block at every point is the whole of the first bias row. -/
theorem iblk0_3_apply (c : Dev nD) (t : Fin cfg0.N) (k : Fin 1) (q : Fin 128) :
    (iblk0 V c 3 t : Vec Ideal S1x128 .f32) (ix2 k q) = (V c main_v40 : S1x128.Idx → EReal) (ix2 k q) := by
  show (V c main_v40 : S1x128.Idx → EReal) (((cfg0.win 3).blk t).view.emb (ix2 k q)) = _
  refine congrArg (V c main_v40 : S1x128.Idx → EReal) (funext fun a => Fin.ext ?_)
  obtain ⟨e00, e01, e10, e11, e20, e21, e30, e31, e40, e41, e50, e51, e60, e61, e70, e71⟩ := idx_facts0 t
  match a with
  | ⟨0, _⟩ => show win0_3.index t (0 : Fin 2) * 1 + 1 * k.val = k.val; omega
  | ⟨1, _⟩ => show win0_3.index t (1 : Fin 2) * 128 + 1 * q.val = q.val; omega

/-- Window 4's block at every point is the whole of the second weight matrix. -/
theorem iblk0_4_apply (c : Dev nD) (t : Fin cfg0.N) (k : Fin 128) (q : Fin 128) :
    (iblk0 V c 4 t : Vec Ideal S128x128 .f32) (ix2 k q) = (V c main_v37 : S128x128.Idx → EReal) (ix2 k q) := by
  show (V c main_v37 : S128x128.Idx → EReal) (((cfg0.win 4).blk t).view.emb (ix2 k q)) = _
  refine congrArg (V c main_v37 : S128x128.Idx → EReal) (funext fun a => Fin.ext ?_)
  obtain ⟨e00, e01, e10, e11, e20, e21, e30, e31, e40, e41, e50, e51, e60, e61, e70, e71⟩ := idx_facts0 t
  match a with
  | ⟨0, _⟩ => show win0_4.index t (0 : Fin 2) * 128 + 1 * k.val = k.val; omega
  | ⟨1, _⟩ => show win0_4.index t (1 : Fin 2) * 128 + 1 * q.val = q.val; omega

/-- Window 5's block at every point is the whole of the second bias row. -/
theorem iblk0_5_apply (c : Dev nD) (t : Fin cfg0.N) (k : Fin 1) (q : Fin 128) :
    (iblk0 V c 5 t : Vec Ideal S1x128 .f32) (ix2 k q) = (V c main_v41 : S1x128.Idx → EReal) (ix2 k q) := by
  show (V c main_v41 : S1x128.Idx → EReal) (((cfg0.win 5).blk t).view.emb (ix2 k q)) = _
  refine congrArg (V c main_v41 : S1x128.Idx → EReal) (funext fun a => Fin.ext ?_)
  obtain ⟨e00, e01, e10, e11, e20, e21, e30, e31, e40, e41, e50, e51, e60, e61, e70, e71⟩ := idx_facts0 t
  match a with
  | ⟨0, _⟩ => show win0_5.index t (0 : Fin 2) * 1 + 1 * k.val = k.val; omega
  | ⟨1, _⟩ => show win0_5.index t (1 : Fin 2) * 128 + 1 * q.val = q.val; omega

end Blocks

/-! ## One point -/

/-- The body's result at (p, q) of the block, over blocks that are rows [r - p, r - p + 2000) of two arrays and the
    whole of the weights and biases, is the perceptron of the arrays at (r, q). -/
theorem point0 (a0 a1 : Cert.Spec.Nodes) (w1 : Cert.Spec.Mat) (b1 : Cert.Spec.Row) (w2 : Cert.Spec.Mat) (b2 : Cert.Spec.Row)
    (x0 x1 : Vec Ideal S2000x128 .f32) (x2 : Vec Ideal S128x128 .f32) (x3 : Vec Ideal S1x128 .f32)
    (x4 : Vec Ideal S128x128 .f32) (x5 : Vec Ideal S1x128 .f32) (p : Fin 2000) (q : Fin 128) (r : Fin 50000)
    (h0 : ∀ k : Fin 128, x0 (ix2 p k) = a0 (ix2 r k)) (h1 : ∀ k : Fin 128, x1 (ix2 p k) = a1 (ix2 r k))
    (h2 : ∀ k k' : Fin 128, x2 (ix2 k k') = w1 (ix2 k k')) (h3 : ∀ k : Fin 128, x3 (ix2 (0 : Fin 1) k) = b1 (ix2 (0 : Fin 1) k))
    (h4 : ∀ k k' : Fin 128, x4 (ix2 k k') = w2 (ix2 k k')) (h5 : ∀ k : Fin 128, x5 (ix2 (0 : Fin 1) k) = b2 (ix2 (0 : Fin 1) k)) :
    max ((∑ k : Fin 128, max ((∑ k' : Fin 128, (x0 (ix2 p k') + x1 (ix2 p k')) * x2 (ix2 k' k)) + x3 (ix2 (0 : Fin 1) k)) 0 * x4 (ix2 k q))
          + x5 (ix2 (0 : Fin 1) q)) 0
      = Cert.Spec.mlp a0 a1 w1 b1 w2 b2 (ix2 r q) := by
  rw [Cert.Spec.mlp_apply]
  unfold Cert.Spec.mlpAt Cert.Spec.hidden
  simp only [h0, h1, h2, h3, h4, h5]

section Arrays
variable (V : (c : Dev nD) → (b : Ref sig .tc) → Buf (Elt Ideal) ((c : Thread nD τ).loc b))

/-! ## From blocks to the arrays -/

/-- What point t writes back to output window 6 is its block of the perceptron of the whole arrays. -/
theorem flushed0_6_eq (c : Dev nD) (t : Fin cfg0.N) :
    (dat0 V c).flushed 6 t = ((cfg0.win 6).blk t).view.read (Elt Ideal) (Cert.Spec.mlp (V c main_v31) (V c main_arg0) (V c main_v33) (V c main_v40) (V c main_v37) (V c main_v41)) := by
  show (cfg0.win 6).cut (grid0.coords t) ((dat0 V c).after 6 t) = _
  rw [after0_6]
  funext j
  obtain ⟨p, q, rfl⟩ : ∃ (p : Fin 2000) (q : Fin 128), j = ix2 p q := ⟨j 0, j 1, eq_ix2 j⟩
  have ht : t.val < 25 := t.isLt
  have hp : p.val < 2000 := p.isLt
  have hr : 2000 * t.val + p.val < 50000 := by omega
  have he : ((cfg0.win 6).blk t).view.emb (ix2 p q) = (ix2 (⟨2000 * t.val + p.val, hr⟩ : Fin 50000) q : S50000x128.Idx) := funext fun a => Fin.ext (by
    obtain ⟨e00, e01, e10, e11, e20, e21, e30, e31, e40, e41, e50, e51, e60, e61, e70, e71⟩ := idx_facts0 t
    match a with
    | ⟨0, _⟩ => show win0_6.index t (0 : Fin 2) * 2000 + 1 * p.val = 2000 * t.val + p.val; omega
    | ⟨1, _⟩ => show win0_6.index t (1 : Fin 2) * 128 + 1 * q.val = q.val; omega)
  show out0_6 (iblk0 V c 0 t) (iblk0 V c 1 t) (iblk0 V c 2 t) (iblk0 V c 3 t) (iblk0 V c 4 t) (iblk0 V c 5 t) (ix2 p q) = Cert.Spec.mlp (V c main_v31) (V c main_arg0) (V c main_v33) (V c main_v40) (V c main_v37) (V c main_v41) (((cfg0.win 6).blk t).view.emb (ix2 p q))
  rw [he]
  refine (out0_6_apply (iblk0 V c 0 t) (iblk0 V c 1 t) (iblk0 V c 2 t) (iblk0 V c 3 t) (iblk0 V c 4 t) (iblk0 V c 5 t) p q).trans ?_
  exact point0 (V c main_v31) (V c main_arg0) (V c main_v33) (V c main_v40) (V c main_v37) (V c main_v41)
    (iblk0 V c 0 t) (iblk0 V c 1 t) (iblk0 V c 2 t) (iblk0 V c 3 t) (iblk0 V c 4 t) (iblk0 V c 5 t) p q ⟨2000 * t.val + p.val, hr⟩
    (fun k => iblk0_0_apply V c t p k _ rfl) (fun k => iblk0_1_apply V c t p k _ rfl) (fun k k' => iblk0_2_apply V c t k k')
    (fun k => iblk0_3_apply V c t 0 k) (fun k k' => iblk0_4_apply V c t k k') (fun k => iblk0_5_apply V c t 0 k)

/-- An index of the array is in point t's block of window 6 iff each coordinate is in the block's range. -/
theorem mem_blk0_6 (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v42_0).slice (win0_6.rect t)).set ↔ _
  rw [View.set_slice_whole, Rect.mem_set_unit]
  exact Iff.rfl

/-- Row r of the array is in the block of point r / 2000, which writes its block back. -/
theorem rows_cover0_6 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ : ∃ t : Fin cfg0.N, t.val = (i 0).val / 2000 := ⟨⟨(i 0).val / 2000, by show _ < 25; omega⟩, rfl⟩
  refine ⟨t, flush0_6 t, ?_⟩
  rw [mem_blk0_6]
  obtain ⟨e00, e01, e10, e11, e20, e21, e30, e31, e40, e41, e50, e51, e60, e61, e70, e71⟩ := idx_facts0 t
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- Output array 6 after the region: the perceptron of the arrays as the region finds them. -/
theorem arr0_6 (c : Dev nD) : (dat0 V c).arrAt 6 cfg0.N = Cert.Spec.mlp (V c main_v31) (V c main_arg0) (V c main_v33) (V c main_v40) (V c main_v37) (V c main_v41) :=
  (dat0 V c).arrAt_eq_of_cover 6 _ (fun t _ => flushed0_6_eq V c t) rows_cover0_6

/-- What point t writes back to output window 7 is its block of the perceptron of the whole arrays. -/
theorem flushed0_7_eq (c : Dev nD) (t : Fin cfg0.N) :
    (dat0 V c).flushed 7 t = ((cfg0.win 7).blk t).view.read (Elt Ideal) (Cert.Spec.mlp (V c main_v31) (V c main_arg0) (V c main_v33) (V c main_v40) (V c main_v37) (V c main_v41)) := by
  show (cfg0.win 7).cut (grid0.coords t) ((dat0 V c).after 7 t) = _
  rw [after0_7]
  funext j
  obtain ⟨p, q, rfl⟩ : ∃ (p : Fin 2000) (q : Fin 128), j = ix2 p q := ⟨j 0, j 1, eq_ix2 j⟩
  have ht : t.val < 25 := t.isLt
  have hp : p.val < 2000 := p.isLt
  have hr : 2000 * t.val + p.val < 50000 := by omega
  have he : ((cfg0.win 7).blk t).view.emb (ix2 p q) = (ix2 (⟨2000 * t.val + p.val, hr⟩ : Fin 50000) q : S50000x128.Idx) := funext fun a => Fin.ext (by
    obtain ⟨e00, e01, e10, e11, e20, e21, e30, e31, e40, e41, e50, e51, e60, e61, e70, e71⟩ := idx_facts0 t
    match a with
    | ⟨0, _⟩ => show win0_7.index t (0 : Fin 2) * 2000 + 1 * p.val = 2000 * t.val + p.val; omega
    | ⟨1, _⟩ => show win0_7.index t (1 : Fin 2) * 128 + 1 * q.val = q.val; omega)
  show out0_7 (iblk0 V c 0 t) (iblk0 V c 1 t) (iblk0 V c 2 t) (iblk0 V c 3 t) (iblk0 V c 4 t) (iblk0 V c 5 t) (ix2 p q) = Cert.Spec.mlp (V c main_v31) (V c main_arg0) (V c main_v33) (V c main_v40) (V c main_v37) (V c main_v41) (((cfg0.win 7).blk t).view.emb (ix2 p q))
  rw [he]
  refine (out0_7_apply (iblk0 V c 0 t) (iblk0 V c 1 t) (iblk0 V c 2 t) (iblk0 V c 3 t) (iblk0 V c 4 t) (iblk0 V c 5 t) p q).trans ?_
  exact point0 (V c main_v31) (V c main_arg0) (V c main_v33) (V c main_v40) (V c main_v37) (V c main_v41)
    (iblk0 V c 0 t) (iblk0 V c 1 t) (iblk0 V c 2 t) (iblk0 V c 3 t) (iblk0 V c 4 t) (iblk0 V c 5 t) p q ⟨2000 * t.val + p.val, hr⟩
    (fun k => iblk0_0_apply V c t p k _ rfl) (fun k => iblk0_1_apply V c t p k _ rfl) (fun k k' => iblk0_2_apply V c t k k')
    (fun k => iblk0_3_apply V c t 0 k) (fun k k' => iblk0_4_apply V c t k k') (fun k => iblk0_5_apply V c t 0 k)

/-- An index of the array is in point t's block of window 7 iff each coordinate is in the block's range. -/
theorem mem_blk0_7 (t : Fin cfg0.N) (i : S50000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v42_1).slice (win0_7.rect t)).set ↔ _
  rw [View.set_slice_whole, Rect.mem_set_unit]
  exact Iff.rfl

/-- Row r of the array is in the block of point r / 2000, which writes its block back. -/
theorem rows_cover0_7 (i : S50000x128.Idx) : ∃ t : Fin cfg0.N, (cfg0.win 7).flush t = true ∧ i ∈ ((cfg0.win 7).blk t).view.set := by
  have hi0 : (i 0).val < 50000 := (i 0).isLt
  have hi1 : (i 1).val < 128 := (i 1).isLt
  obtain ⟨t, ht⟩ : ∃ t : Fin cfg0.N, t.val = (i 0).val / 2000 := ⟨⟨(i 0).val / 2000, by show _ < 25; omega⟩, rfl⟩
  refine ⟨t, flush0_7 t, ?_⟩
  rw [mem_blk0_7]
  obtain ⟨e00, e01, e10, e11, e20, e21, e30, e31, e40, e41, e50, e51, e60, e61, e70, e71⟩ := idx_facts0 t
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 128 ≤ (i 1).val ∧ (i 1).val < win0_7.index t (1 : Fin 2) * 128 + 128; omega

/-- Output array 7 after the region: the perceptron of the arrays as the region finds them. -/
theorem arr0_7 (c : Dev nD) : (dat0 V c).arrAt 7 cfg0.N = Cert.Spec.mlp (V c main_v31) (V c main_arg0) (V c main_v33) (V c main_v40) (V c main_v37) (V c main_v41) :=
  (dat0 V c).arrAt_eq_of_cover 7 _ (fun t _ => flushed0_7_eq V c t) rows_cover0_7

end Arrays

end Cert.KernelIdeal.ValMlp0

end
-- ==== Proof.KI.ValPool3Pay.lean ====
/-
  The pooling kernel's arithmetic at an index, over the extended reals.

  One accumulation step adds to the [500,128] accumulator the product (one-hot of the batch column)ᵀ · x of a block
  of 2000 rows: at (g, d) that is the sum of x(p, d) over the rows p whose batch entry is the word g.  Starting from
  the zero fill and accumulating block after block, the accumulator after the point n holds, at (g, d), the sum over
  the blocks t ≤ n and their rows.  A sum over 50000 rows is the sum over 25 blocks of 2000 rows.
-/
import proofs.«428858_j8770323218938_3_alg».proof.Proof.Gen.KernelIdeal.Skeleton
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.ValPool3

open Idealize.ShloMosaic Idealize.ShloMosaic.ValueIdx Idealize.SL.Sem
open Cert.KernelIdeal Cert.KernelIdeal.Gen

/-- The one-hot matrix of a batch column block at (p, g): the real 1 where row p's batch entry is the word g, else 0. -/
theorem onehot_apply (b : Vec Ideal S2000x1 .i32) (p : Fin 2000) (g : Fin 500) :
    (sitofp .f32 (extui 32 (cmpi .eq (broadcastTo S2000x500 (shapeCast S2000x1 b shapeCasts_S2000x1_S2000x1) broadcasts_S2000x1_S2000x500)
      (iota .tc S2000x500 32 [1] iota_S2000x500_d1_w32)) natLt_1_32) : FVec Ideal S2000x500 .f32) (ix2 p g)
      = if b (ix2 p (0 : Fin 1)) = BitVec.ofNat 32 g.val then 1 else 0 := by
  rw [sitofp_apply, extui_apply]
  show FloatOps.sitofp (F := Ideal) .f32 (BitVec.setWidth 32 (IntOp.cmpi .eq
    (broadcastTo S2000x500 (shapeCast S2000x1 b shapeCasts_S2000x1_S2000x1) broadcasts_S2000x1_S2000x500 (ix2 p g))
    (iota .tc S2000x500 32 [1] iota_S2000x500_d1_w32 (ix2 p g)))) = _
  rw [iota_single_apply, shapeCast_self,
    broadcastTo_apply b broadcasts_S2000x1_S2000x500 (ix2 p g) (ix2 p (0 : Fin 1)) (fun a => by
      match a with
      | ⟨0, _⟩ => rfl
      | ⟨1, _⟩ => rfl)]
  show ((((BitVec.setWidth 32 (IntOp.cmpi .eq (b (ix2 p (0 : Fin 1))) (BitVec.ofNat 32 g.val))).toInt : ℤ) : ℝ) : EReal) = _
  unfold IntOp.cmpi
  by_cases h : b (ix2 p (0 : Fin 1)) = BitVec.ofNat 32 g.val
  · rw [if_pos h, h]
    simp
  · rw [if_neg h]
    have : (b (ix2 p (0 : Fin 1)) == BitVec.ofNat 32 g.val) = false := by simpa using h
    simp [this]

/-! The operand indices of the product that contracts axis 0 of both operands ([2000,500]ᵀ × [2000,128]). -/

theorem lhs_pool_0 (i : S500x128.Idx) (q : dot_S2000x500_S2000x128_S500x128_0_0_1_1_n_n.contr.Idx) :
    (dot_S2000x500_S2000x128_S500x128_0_0_1_1_n_n.lhsIdx i q 0).val = (q ⟨0, by decide⟩).val :=
  dot_S2000x500_S2000x128_S500x128_0_0_1_1_n_n.lhsIdx_val_of_single rfl i q
theorem lhs_pool_1 (i : S500x128.Idx) (q : dot_S2000x500_S2000x128_S500x128_0_0_1_1_n_n.contr.Idx) :
    (dot_S2000x500_S2000x128_S500x128_0_0_1_1_n_n.lhsIdx i q 1).val = (i 0).val := by
  unfold DotDims.lhsIdx
  rw [dif_neg (show ¬(1 : Fin S2000x500.rank) ∈ dot_S2000x500_S2000x128_S500x128_0_0_1_1_n_n.lhsBatch by decide), dif_pos (show (1 : Fin S2000x500.rank) ∈ dot_S2000x500_S2000x128_S500x128_0_0_1_1_n_n.lhsNonContracting by decide)]
  rfl
theorem rhs_pool_0 (i : S500x128.Idx) (q : dot_S2000x500_S2000x128_S500x128_0_0_1_1_n_n.contr.Idx) :
    (dot_S2000x500_S2000x128_S500x128_0_0_1_1_n_n.rhsIdx i q 0).val = (q ⟨0, by decide⟩).val :=
  dot_S2000x500_S2000x128_S500x128_0_0_1_1_n_n.rhsIdx_val_of_single rfl i q
theorem rhs_pool_1 (i : S500x128.Idx) (q : dot_S2000x500_S2000x128_S500x128_0_0_1_1_n_n.contr.Idx) :
    (dot_S2000x500_S2000x128_S500x128_0_0_1_1_n_n.rhsIdx i q 1).val = (i 1).val := by
  unfold DotDims.rhsIdx
  rw [dif_neg (show ¬(1 : Fin S2000x128.rank) ∈ dot_S2000x500_S2000x128_S500x128_0_0_1_1_n_n.rhsBatch by decide), dif_pos (show (1 : Fin S2000x128.rank) ∈ dot_S2000x500_S2000x128_S500x128_0_0_1_1_n_n.rhsNonContracting by decide)]
  rfl

/-- The product at (g, d): the sum over the 2000 rows p of lhs(p, g) · rhs(p, d). -/
theorem matmul_pool_apply (A : FVec Ideal S2000x500 .f32) (B : FVec Ideal S2000x128 .f32) (g : Fin 500) (d : Fin 128) :
    (matmul dot_S2000x500_S2000x128_S500x128_0_0_1_1_n_n (some .fp32) A B (constant S500x128 .f32 0x00000000#32) : FVec Ideal S500x128 .f32) (ix2 g d)
      = ∑ p : Fin 2000, A (ix2 p g) * B (ix2 p d) := by
  simp only [matmul]
  rw [Ideal.matmul_constant_zero_apply, ← Equiv.sum_comp (ValueIdx.contrEquiv1 dot_S2000x500_S2000x128_S500x128_0_0_1_1_n_n 2000 rfl rfl).symm]
  refine Finset.sum_congr rfl fun k _ => ?_
  have hk := ValueIdx.contrEquiv1_symm_val dot_S2000x500_S2000x128_S500x128_0_0_1_1_n_n 2000 rfl rfl k
  have el : dot_S2000x500_S2000x128_S500x128_0_0_1_1_n_n.lhsIdx (ix2 g d) ((ValueIdx.contrEquiv1 dot_S2000x500_S2000x128_S500x128_0_0_1_1_n_n 2000 rfl rfl).symm k) = ix2 k g := funext fun a => Fin.ext (by
    match a with
    | ⟨0, _⟩ => exact (lhs_pool_0 _ _).trans hk
    | ⟨1, _⟩ => exact lhs_pool_1 _ _)
  have er : dot_S2000x500_S2000x128_S500x128_0_0_1_1_n_n.rhsIdx (ix2 g d) ((ValueIdx.contrEquiv1 dot_S2000x500_S2000x128_S500x128_0_0_1_1_n_n 2000 rfl rfl).symm k) = ix2 k d := funext fun a => Fin.ext (by
    match a with
    | ⟨0, _⟩ => exact (rhs_pool_0 _ _).trans hk
    | ⟨1, _⟩ => exact rhs_pool_1 _ _)
  rw [el, er]

/-- The zero fill at an index. -/
theorem pay1_apply (j : S500x128.Idx) : k3_pay1 (F := Ideal) j = 0 := by
  unfold k3_pay1
  rw [shapeCast_self]
  exact Ideal.ofBits_zero_f32

/-- One accumulation at (g, d): the accumulator there plus the rows of the x block whose batch entry is g, column d. -/
theorem pay2_apply (b : Vec Ideal S2000x1 .i32) (x : Vec Ideal S2000x128 .f32) (acc : Vec Ideal S500x128 .f32) (g : Fin 500) (d : Fin 128) :
    k3_pay2 (F := Ideal) b x acc (ix2 g d)
      = acc (ix2 g d) + ∑ p : Fin 2000, if b (ix2 p (0 : Fin 1)) = BitVec.ofNat 32 g.val then x (ix2 p d) else 0 := by
  unfold k3_pay2
  rw [shapeCast_self, addf_apply, matmul_pool_apply]
  refine congrArg (acc (ix2 g d) + ·) (Finset.sum_congr rfl fun p _ => ?_)
  rw [onehot_apply, shapeCast_self]
  by_cases h : b (ix2 p (0 : Fin 1)) = BitVec.ofNat 32 g.val
  · rw [if_pos h, if_pos h, one_mul]
  · rw [if_neg h, if_neg h, zero_mul]

/-! The accumulation over the grid points, over abstract sequences of loaded blocks. -/

/-- If the accumulator starts as one accumulation into the zero fill and every later point accumulates its blocks
    into the accumulator of the point before, then after point n it holds, at (g, d), the sum over the points t ≤ n
    and the rows p of the x block of point t whose batch entry is g, column d. -/
theorem acc_closed (N : ℕ) (bs : ℕ → Vec Ideal S2000x1 .i32) (xs : ℕ → Vec Ideal S2000x128 .f32)
    (acc : ℕ → Vec Ideal S500x128 .f32)
    (h0 : acc 0 = k3_pay2 (F := Ideal) (bs 0) (xs 0) (k3_pay1 (F := Ideal)))
    (hs : ∀ n, n + 1 < N → acc (n + 1) = k3_pay2 (F := Ideal) (bs (n + 1)) (xs (n + 1)) (acc n))
    (n : ℕ) (hn : n < N) (g : Fin 500) (d : Fin 128) :
    acc n (ix2 g d) = ∑ t ∈ Finset.range (n + 1), ∑ p : Fin 2000,
      if bs t (ix2 p (0 : Fin 1)) = BitVec.ofNat 32 g.val then xs t (ix2 p d) else 0 := by
  induction n with
  | zero =>
    rw [h0, pay2_apply, pay1_apply, zero_add, Finset.sum_range_one]
  | succ n ih =>
    rw [hs n hn, pay2_apply, ih (by omega)]
    exact (Finset.sum_range_succ _ (n + 1)).symm

/-- A sum over the 50000 rows is the sum over the 25 blocks of 2000 rows. -/
theorem sum_rows_blocks {M : Type*} [AddCommMonoid M] (f : Fin 50000 → M) :
    ∑ n : Fin 50000, f n = ∑ t ∈ Finset.range 25, ∑ p : Fin 2000,
      if h : t < 25 then f ⟨2000 * t + p.val, by have := p.isLt; omega⟩ else 0 := by
  rw [Finset.sum_range, ← Equiv.sum_comp ((finProdFinEquiv (m := 25) (n := 2000)).trans (finCongr (by norm_num : 25 * 2000 = 50000))) f,
    Fintype.sum_prod_type]
  refine Finset.sum_congr rfl fun t _ => Finset.sum_congr rfl fun p _ => ?_
  rw [dif_pos t.isLt]
  refine congrArg f (Fin.ext ?_)
  show p.val + 2000 * t.val = 2000 * t.val + p.val
  omega

end Cert.KernelIdeal.ValPool3

end
-- ==== Proof.KI.ValPool3.lean ====
/-
  The value of the pooled features of one layer: the [500,128] array the pooling kernel writes.

  The batch column block and the feature block of the grid point t are the rows 2000 t … 2000 t + 1999 of their
  arrays; the accumulator after the last point is therefore, at (g, d), the sum over all 50000 nodes n whose batch
  entry is g of x(n, d); the output array has one block, the whole array, written back after the last point only,
  so it ends holding the accumulator.
-/
import proofs.«428858_j8770323218938_3_alg».proof.Proof.Gen.KernelIdeal.Launch
import proofs.«428858_j8770323218938_3_alg».proof.Proof.Gen.KernelIdeal.Skeleton
import proofs.«428858_j8770323218938_3_alg».proof.Proof.Gen.KernelIdeal.Points
import proofs.«428858_j8770323218938_3_alg».proof.Proof.Spec
import proofs.«428858_j8770323218938_3_alg».proof.Proof.KI.Pool3
import proofs.«428858_j8770323218938_3_alg».proof.Proof.KI.ValPool3Pay
import Idealize.ShloMosaic.Lib.Pipeline.Value
import Idealize.ShloMosaic.Lib.ValueIdx
import Idealize.ShloMosaic.Lib.Tactic

set_option maxRecDepth 16384

noncomputable section

namespace Cert.KernelIdeal.ValPool3

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The batch column and the node features the region finds, at their literal types. -/
abbrev barr (c : Dev nD) : Cert.Spec.BatchCol := V c main_v4
abbrev xarr (c : Dev nD) : Cert.Spec.Nodes := V c main_v42_0

/-! The block index maps: window 0 and window 1 take block (t, 0) at point t. -/

theorem idx3_0 : ∀ t : Fin grid3.N, win3_0.index t 0 = t.val ∧ win3_0.index t 1 = 0 := by decide +kernel
theorem idx3_1 : ∀ t : Fin grid3.N, win3_1.index t 0 = t.val ∧ win3_1.index t 1 = 0 := by decide +kernel

/-- The batch column block of point t at row p is the column's row 2000 t + p. -/
theorem blk0_apply (c : Dev nD) (t : Fin cfg3.N) (p : Fin 2000) (hp : 2000 * t.val + p.val < 50000) :
    (iblk3 V c 0 t : Vec Ideal S2000x1 .i32) (ix2 p (0 : Fin 1))
      = barr V c (ix2 ⟨2000 * t.val + p.val, hp⟩ (0 : Fin 1)) := by
  unfold iblk3
  rw [View.read_apply]
  show V c main_v4 _ = V c main_v4 _
  congr 1
  funext a
  apply Fin.ext
  match a with
  | ⟨0, _⟩ => show win3_0.index t 0 * 2000 + 1 * p.val = 2000 * t.val + p.val; rw [(idx3_0 t).1]; omega
  | ⟨1, _⟩ => show win3_0.index t 1 * 1 + 1 * 0 = 0; rw [(idx3_0 t).2]

/-- The feature block of point t at (p, d) is the features' row 2000 t + p, column d. -/
theorem blk1_apply (c : Dev nD) (t : Fin cfg3.N) (p : Fin 2000) (d : Fin 128) (hp : 2000 * t.val + p.val < 50000) :
    (iblk3 V c 1 t : Vec Ideal S2000x128 .f32) (ix2 p d)
      = xarr V c (ix2 ⟨2000 * t.val + p.val, hp⟩ d) := by
  unfold iblk3
  rw [View.read_apply]
  show V c main_v42_0 _ = V c main_v42_0 _
  congr 1
  funext a
  apply Fin.ext
  match a with
  | ⟨0, _⟩ => show win3_1.index t 0 * 2000 + 1 * p.val = 2000 * t.val + p.val; rw [(idx3_1 t).1]; omega
  | ⟨1, _⟩ => show win3_1.index t 1 * 128 + 1 * d.val = d.val; rw [(idx3_1 t).2]; omega

/-! The output window: one block, the whole [500,128] array, written back after the last point only. -/

/-- The last grid point. -/
abbrev tLast : Fin cfg3.N := ⟨24, by rw [show cfg3.N = 25 from N_3]; decide⟩

theorem off3_2_zero : (fun a => win3_2.index tLast a * main_v88.ty.shape.size a) = fun _ => 0 :=
  funext fun a => by fin_cases a <;> decide +kernel

/-- If the staging buffer of the output window holds G after the last point, the output array ends holding G. -/
theorem arr_of_last (c : Dev nD) (dat : Dat τ (Elt Ideal) Unit ℕ (UR sig nD τ) ℕ cfg3 c)
    (G : Buf (Elt Ideal) ((c : Thread nD τ).loc main_v88))
    (hlast : dat.after 2 tLast = G) : dat.arrAt 2 cfg3.N = G := by
  refine dat.arrAt_eq_of_cover 2 G (fun t hf => ?_) (fun i => ⟨tLast, (flush3_2 tLast).mpr rfl, ?_⟩)
  · have hN : cfg3.N = 25 := N_3
    have h1 : t.val = 24 := by have := (flush3_2 t).mp hf; have := t.isLt; omega
    obtain rfl : t = tLast := Fin.ext h1
    show (cfg3.win 2).cut (grid3.coords tLast) (dat.after 2 tLast) = _
    rw [hlast]
    exact (Memref.read_access_unit_zero (Elt Ideal) main_v88 off3_2_zero (fun a => by rw [congrFun off3_2_zero a]; simp) G).symm
  · show i ∈ ((View.whole main_v88).slice (win3_2.rect tLast)).set
    rw [View.set_slice_whole, Rect.mem_set_unit]
    intro a
    have h0 : (i 0 : Nat) < 500 := (i 0).isLt
    have h1 : (i 1 : Nat) < 128 := (i 1).isLt
    match a with
    | ⟨0, _⟩ =>
      show win3_2.index tLast 0 * win3_2.size 0 ≤ (i 0 : Nat) ∧ (i 0 : Nat) < win3_2.index tLast 0 * win3_2.size 0 + win3_2.xsize (grid3.coords tLast) 0
      rw [show win3_2.index tLast 0 * win3_2.size 0 = 0 from by decide +kernel, show win3_2.xsize (grid3.coords tLast) 0 = 500 from by decide +kernel]; omega
    | ⟨1, _⟩ =>
      show win3_2.index tLast 1 * win3_2.size 1 ≤ (i 1 : Nat) ∧ (i 1 : Nat) < win3_2.index tLast 1 * win3_2.size 1 + win3_2.xsize (grid3.coords tLast) 1
      rw [show win3_2.index tLast 1 * win3_2.size 1 = 0 from by decide +kernel, show win3_2.xsize (grid3.coords tLast) 1 = 128 from by decide +kernel]; omega

/-! The accumulator over the grid points. -/

/-- The batch column block and the feature block of the point t, and the accumulator after the point n, as sequences
    over the naturals (past the grid: the zero block). -/
def bsOf (c : Dev nD) (t : ℕ) : Vec Ideal S2000x1 .i32 :=
  if h : t < cfg3.N then iblk3 V c 0 ⟨t, h⟩ else fun _ => (0 : BitVec 32)
def xsOf (c : Dev nD) (t : ℕ) : Vec Ideal S2000x128 .f32 :=
  if h : t < cfg3.N then iblk3 V c 1 ⟨t, h⟩ else fun _ => (0 : EReal)
def accOf (c : Dev nD) (n : ℕ) : Vec Ideal S500x128 .f32 :=
  if h : n < cfg3.N then sAt3 V c n h else fun _ => (0 : EReal)

theorem accOf_zero (c : Dev nD) :
    accOf V c 0 = k3_pay2 (F := Ideal) (bsOf V c 0) (xsOf V c 0) (k3_pay1 (F := Ideal)) := by
  have h : 0 < cfg3.N := by rw [show cfg3.N = 25 from N_3]; decide
  unfold accOf bsOf xsOf
  rw [dif_pos h, dif_pos h, dif_pos h]
  exact sAt3_zero V c h

theorem accOf_succ (c : Dev nD) (n : ℕ) (h : n + 1 < cfg3.N) :
    accOf V c (n + 1) = k3_pay2 (F := Ideal) (bsOf V c (n + 1)) (xsOf V c (n + 1)) (accOf V c n) := by
  unfold accOf bsOf xsOf
  rw [dif_pos h, dif_pos h, dif_pos h, dif_pos (Nat.lt_of_succ_lt h)]
  exact sAt3_succ V c n h

/-- The accumulator after the last point at (g, d): the sum over all nodes whose batch entry is g of x(n, d). -/
theorem sAt3_last_apply (c : Dev nD) (g : Fin 500) (d : Fin 128) :
    sAt3 V c 24 (by rw [show cfg3.N = 25 from N_3]; omega) (ix2 g d)
      = ∑ n : Fin 50000, if barr V c (ix2 n (0 : Fin 1)) = BitVec.ofNat 32 g.val then xarr V c (ix2 n d) else 0 := by
  have hN : cfg3.N = 25 := N_3
  have h24 : 24 < cfg3.N := by rw [hN]; decide
  have hacc : accOf V c 24 = sAt3 V c 24 h24 := dif_pos h24
  rw [← hacc, acc_closed cfg3.N (bsOf V c) (xsOf V c) (accOf V c) (accOf_zero V c) (accOf_succ V c) 24 h24 g d, sum_rows_blocks]
  refine Finset.sum_congr rfl fun t ht => Finset.sum_congr rfl fun p _ => ?_
  have ht' : t < 25 := Finset.mem_range.mp ht
  have htN : t < cfg3.N := by rw [hN]; exact ht'
  have hp : 2000 * t + p.val < 50000 := by have := p.isLt; omega
  rw [dif_pos ht']
  unfold bsOf xsOf
  rw [dif_pos htN, dif_pos htN, blk0_apply V c ⟨t, htN⟩ p hp, blk1_apply V c ⟨t, htN⟩ p d hp]

/-- The accumulator after the last point is the pooled features. -/
theorem sAt3_last (c : Dev nD) :
    sAt3 V c 24 (by rw [show cfg3.N = 25 from N_3]; omega) = Cert.Spec.pool (barr V c) (xarr V c) := by
  funext j
  obtain ⟨g, d, rfl⟩ : ∃ (g : Fin 500) (d : Fin 128), j = ix2 g d := ⟨j 0, j 1, eq_ix2 j⟩
  rw [Cert.Spec.pool_apply]
  exact sAt3_last_apply V c g d

/-- The pooled features: the output array of the pooling kernel ends at the sum, per graph, of its nodes' rows. -/
theorem arr3_2_lit (c : Dev nD) : (dat3 V c).arrAt 2 cfg3.N = Cert.Spec.pool (barr V c) (xarr V c) :=
  arr_of_last c (dat3 V c) (Cert.Spec.pool (barr V c) (xarr V c)) ((after3_2_last V c).trans (sAt3_last V c))

theorem arr3_2 (c : Dev nD) : (dat3 V c).arrAt 2 cfg3.N = Cert.Spec.pool (V c main_v4) (V c main_v42_0) :=
  arr3_2_lit V c

end Cert.KernelIdeal.ValPool3

end
-- ==== Proof.Bridge.lean ====
/- The kernel's two results are the reference's. From memories agreeing on the arguments: the host terms the
   two programs share are equal (the edge rows, the weight slices, the bias rows, the batch column); the kernel's
   neighbour sum over the sorted edge list is the specification's neighbourhood sum; so, layer by layer, what the
   kernel's regions leave is the specification's layers and their per-graph sums, which is what the reference
   returns. The regions' results enter as an arbitrary family `o` constrained by one equation per region output. -/
import proofs.«428858_j8770323218938_3_alg».proof.Proof.Spec
import proofs.«428858_j8770323218938_3_alg».proof.Proof.LibCols
import proofs.«428858_j8770323218938_3_alg».proof.Proof.SegPerm
import proofs.«428858_j8770323218938_3_alg».proof.Proof.RefVals
import proofs.«428858_j8770323218938_3_alg».proof.Proof.KI.HostVals
import proofs.«428858_j8770323218938_3_alg».proof.Proof.KI.ValMlp0
import proofs.«428858_j8770323218938_3_alg».proof.Proof.KI.ValMlp1
import proofs.«428858_j8770323218938_3_alg».proof.Proof.KI.ValMlp2
import proofs.«428858_j8770323218938_3_alg».proof.Proof.KI.ValPool3
import proofs.«428858_j8770323218938_3_alg».proof.Proof.KI.ValPool4
import proofs.«428858_j8770323218938_3_alg».proof.Proof.KI.ValPool5
import Idealize.ShloMosaic.PureOps.Ideal

set_option maxRecDepth 16384

noncomputable section

namespace Cert.Proof.Bridge

open Idealize.ShloMosaic Idealize.ShloMosaic.TcCoe Idealize.ShloMosaic.ValueIdx Idealize.SL.Sem
open Cert.KernelIdeal Cert.KernelIdeal.Gen Cert.KernelIdeal.HostVals

/-- The two programs' memories agree on the seven arguments, device by device. -/
abbrev Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

/-- What the regions leave, as an arbitrary family `o`: each region output is its pipeline's result array, the
    pipeline run from the buffer contents its region is entered with. -/
structure OutsAre (m : (ℓ : Loc Cert.KernelIdeal.nD Cert.KernelIdeal.τ Cert.KernelIdeal.sig) → Buf (Elt Ideal) ℓ) (o : Outs (F := Ideal)) : Prop where
  v42_0 : ∀ c : Dev nD, o 4 main_v42_0 c = (dat0 (fun c b => V3 m c b) c).arrAt 6 cfg0.N
  v42_1 : ∀ c : Dev nD, o 4 main_v42_1 c = (dat0 (fun c b => V3 m c b) c).arrAt 7 cfg0.N
  v64_0 : ∀ c : Dev nD, o 6 main_v64_0 c = (dat1 (fun c b => V5 m o c b) c).arrAt 6 cfg1.N
  v64_1 : ∀ c : Dev nD, o 6 main_v64_1 c = (dat1 (fun c b => V5 m o c b) c).arrAt 7 cfg1.N
  v86_0 : ∀ c : Dev nD, o 8 main_v86_0 c = (dat2 (fun c b => V7 m o c b) c).arrAt 6 cfg2.N
  v86_1 : ∀ c : Dev nD, o 8 main_v86_1 c = (dat2 (fun c b => V7 m o c b) c).arrAt 7 cfg2.N
  v88 : ∀ c : Dev nD, o 10 main_v88 c = (dat3 (fun c b => V9 m o c b) c).arrAt 2 cfg3.N
  v89 : ∀ c : Dev nD, o 11 main_v89 c = (dat4 (fun c b => V10 m o c b) c).arrAt 2 cfg4.N
  v90 : ∀ c : Dev nD, o 12 main_v90 c = (dat5 (fun c b => V11 m o c b) c).arrAt 2 cfg5.N

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (o : Outs (F := Ideal))

/-! ## Format changes are the identity over the extended reals -/

theorem extf_id {s : Shape} {φ : FTy} (ψ : FTy) (x : FVec Ideal s φ) (h : φ.bits < ψ.bits) : extf ψ x h = x := rfl
theorem truncf_id {s : Shape} {φ : FTy} (ψ : FTy) (x : FVec Ideal s φ) (h : ψ.bits < φ.bits) : truncf ψ x h = x := rfl

/-! ## The host terms the two programs share -/

/-- The kernel reads its arguments where the reference reads them. -/
theorem arg0_eq (hag : Agree m m') (c : Dev nD) : (V0 m c (Proc.tc.devRef main_arg0)) = m' ((c.tc : Thread Cert.ReferenceIdeal.nD Cert.ReferenceIdeal.τ).loc Cert.ReferenceIdeal.main_arg0) := ((hag c).1).symm
theorem arg1_eq (hag : Agree m m') (c : Dev nD) : (V0 m c (Proc.tc.devRef main_arg1)) = m' ((c.tc : Thread Cert.ReferenceIdeal.nD Cert.ReferenceIdeal.τ).loc Cert.ReferenceIdeal.main_arg1) := ((hag c).2.1).symm
theorem arg2_eq (hag : Agree m m') (c : Dev nD) : (V0 m c (Proc.tc.devRef main_arg2)) = m' ((c.tc : Thread Cert.ReferenceIdeal.nD Cert.ReferenceIdeal.τ).loc Cert.ReferenceIdeal.main_arg2) := ((hag c).2.2.1).symm
theorem arg3_eq (hag : Agree m m') (c : Dev nD) : (V0 m c (Proc.tc.devRef main_arg3)) = m' ((c.tc : Thread Cert.ReferenceIdeal.nD Cert.ReferenceIdeal.τ).loc Cert.ReferenceIdeal.main_arg3) := ((hag c).2.2.2.1).symm
theorem arg4_eq (hag : Agree m m') (c : Dev nD) : (V0 m c (Proc.tc.devRef main_arg4)) = m' ((c.tc : Thread Cert.ReferenceIdeal.nD Cert.ReferenceIdeal.τ).loc Cert.ReferenceIdeal.main_arg4) := ((hag c).2.2.2.2.1).symm
theorem arg5_eq (hag : Agree m m') (c : Dev nD) : (V0 m c (Proc.tc.devRef main_arg5)) = m' ((c.tc : Thread Cert.ReferenceIdeal.nD Cert.ReferenceIdeal.τ).loc Cert.ReferenceIdeal.main_arg5) := ((hag c).2.2.2.2.2.1).symm
theorem arg6_eq (hag : Agree m m') (c : Dev nD) : (V0 m c (Proc.tc.devRef main_arg6)) = m' ((c.tc : Thread Cert.ReferenceIdeal.nD Cert.ReferenceIdeal.τ).loc Cert.ReferenceIdeal.main_arg6) := ((hag c).2.2.2.2.2.2).symm

/-- The edge rows. -/
theorem srcRow_eq (hag : Agree m m') (c : Dev nD) : srcRow (V0 m c (Proc.tc.devRef main_arg1)) = Cert.ReferenceIdeal.RefVals.srcVec m' c := by
  rw [arg1_eq m m' hag c]; rfl
theorem dstRow_eq (hag : Agree m m') (c : Dev nD) : dstRow (V0 m c (Proc.tc.devRef main_arg1)) = Cert.ReferenceIdeal.RefVals.dstVec m' c := by
  rw [arg1_eq m m' hag c]; rfl

/-- The weight matrices: the same slice of the same stack. -/
theorem w1k0_eq (hag : Agree m m') (c : Dev nD) : w1k0 m c = Cert.ReferenceIdeal.RefVals.w1_0 m' c := by
  unfold w1k0; rw [arg3_eq m m' hag c]; rfl
theorem w2k0_eq (hag : Agree m m') (c : Dev nD) : w2k0 m c = Cert.ReferenceIdeal.RefVals.w2_0 m' c := by
  unfold w2k0; rw [arg5_eq m m' hag c]; rfl
theorem w1k1_eq (hag : Agree m m') (c : Dev nD) : w1k1 m c = Cert.ReferenceIdeal.RefVals.w1_1 m' c := by
  unfold w1k1; rw [arg3_eq m m' hag c]; rfl
theorem w2k1_eq (hag : Agree m m') (c : Dev nD) : w2k1 m c = Cert.ReferenceIdeal.RefVals.w2_1 m' c := by
  unfold w2k1; rw [arg5_eq m m' hag c]; rfl
theorem w1k2_eq (hag : Agree m m') (c : Dev nD) : w1k2 m c = Cert.ReferenceIdeal.RefVals.w1_2 m' c := by
  unfold w1k2; rw [arg3_eq m m' hag c]; rfl
theorem w2k2_eq (hag : Agree m m') (c : Dev nD) : w2k2 m c = Cert.ReferenceIdeal.RefVals.w2_2 m' c := by
  unfold w2k2; rw [arg5_eq m m' hag c]; rfl

/-- The bias rows: a vector reshaped to one row is the vector broadcast to one row. -/
theorem b1k0_eq (hag : Agree m m') (c : Dev nD) : b1k0 m c = Cert.ReferenceIdeal.RefVals.b1_0 m' c := by
  unfold b1k0; rw [arg4_eq m m' hag c]
  exact Cert.LibCols.shapeCast_row_eq_bcast (by decide) _ _ _
theorem b2k0_eq (hag : Agree m m') (c : Dev nD) : b2k0 m c = Cert.ReferenceIdeal.RefVals.b2_0 m' c := by
  unfold b2k0; rw [arg6_eq m m' hag c]
  exact Cert.LibCols.shapeCast_row_eq_bcast (by decide) _ _ _
theorem b1k1_eq (hag : Agree m m') (c : Dev nD) : b1k1 m c = Cert.ReferenceIdeal.RefVals.b1_1 m' c := by
  unfold b1k1; rw [arg4_eq m m' hag c]
  exact Cert.LibCols.shapeCast_row_eq_bcast (by decide) _ _ _
theorem b2k1_eq (hag : Agree m m') (c : Dev nD) : b2k1 m c = Cert.ReferenceIdeal.RefVals.b2_1 m' c := by
  unfold b2k1; rw [arg6_eq m m' hag c]
  exact Cert.LibCols.shapeCast_row_eq_bcast (by decide) _ _ _
theorem b1k2_eq (hag : Agree m m') (c : Dev nD) : b1k2 m c = Cert.ReferenceIdeal.RefVals.b1_2 m' c := by
  unfold b1k2; rw [arg4_eq m m' hag c]
  exact Cert.LibCols.shapeCast_row_eq_bcast (by decide) _ _ _
theorem b2k2_eq (hag : Agree m m') (c : Dev nD) : b2k2 m c = Cert.ReferenceIdeal.RefVals.b2_2 m' c := by
  unfold b2k2; rw [arg6_eq m m' hag c]
  exact Cert.LibCols.shapeCast_row_eq_bcast (by decide) _ _ _

/-- The batch column: a vector reshaped to one column is the vector broadcast to one column. -/
theorem batchCol_eq (hag : Agree m m') (c : Dev nD) :
    shapeCast S50000x1 (V0 m c (Proc.tc.devRef main_arg2)) shapeCasts_S50000_S50000x1 = Cert.ReferenceIdeal.RefVals.batchCol m' c := by
  rw [arg2_eq m m' hag c]
  exact Cert.LibCols.shapeCast_col_eq_bcast (by decide) _ _ _

/-! ## The kernel's neighbour sum is the specification's -/

/-- Over the edge list sorted by destination, the rows taken at the sources and added at the destinations are the
    neighbourhood sum of the edges as given: a sum over the edges does not depend on their order. -/
theorem KSeg_eq (hag : Agree m m') (c : Dev nD) (hb : Cert.Spec.Nodes) :
    KSeg hb (V0 m c (Proc.tc.devRef main_arg1)) = Cert.Spec.segSum hb (Cert.ReferenceIdeal.RefVals.src m' c) (Cert.ReferenceIdeal.RefVals.dst m' c) := by
  unfold KSeg srcS dstS order
  rw [srcRow_eq m m' hag c, dstRow_eq m m' hag c, extf_id]
  exact Cert.SegPerm.kernel_seg_eq scatter_S50000x128_S800000x1_S800000x128_1_0_0_1 rfl rfl rfl rfl
    gather_S50000x128_S800000x1_S800000x128_1_0_n_n_0_1_1128 rfl rfl rfl rfl rfl rfl
    gather_S800000_S800000x1_S800000_n_0_n_n_0_1_1 rfl rfl rfl rfl
    bcast_S_S50000x128 bcast_S800000_S800000x1_0 bcast_S_S800000 comparator_i32_i32_d0
    hb (Cert.ReferenceIdeal.RefVals.srcVec m' c) (Cert.ReferenceIdeal.RefVals.dstVec m' c)

/-! ## Layer by layer -/

set_option maxHeartbeats 1000000 in
/-- Region 0 leaves the specification's first layer, in both its outputs. -/
theorem layer1 (hag : Agree m m') (ho : OutsAre m o) (c : Dev nD) :
    o 4 main_v42_0 c = Cert.ReferenceIdeal.RefVals.H1 m' c ∧ o 4 main_v42_1 c = Cert.ReferenceIdeal.RefVals.H1 m' c := by
  have e : Cert.Spec.mlp (V3 m c main_v31) (V3 m c main_arg0) (V3 m c main_v33) (V3 m c main_v40) (V3 m c main_v37) (V3 m c main_v41) = Cert.ReferenceIdeal.RefVals.H1 m' c := by
    rw [v31_eq, arg0_V3, v33_eq, v40_eq, v37_eq, v41_eq, truncf_id, KSeg_eq m m' hag c, w1k0_eq m m' hag c, b1k0_eq m m' hag c, w2k0_eq m m' hag c, b2k0_eq m m' hag c, arg0_eq m m' hag c]
    rfl
  exact ⟨(ho.v42_0 c).trans ((Cert.KernelIdeal.ValMlp0.arr0_6 (fun c b => V3 m c b) c).trans e),
    (ho.v42_1 c).trans ((Cert.KernelIdeal.ValMlp0.arr0_7 (fun c b => V3 m c b) c).trans e)⟩

set_option maxHeartbeats 1000000 in
/-- Region 1 leaves the second layer. -/
theorem layer2 (hag : Agree m m') (ho : OutsAre m o) (c : Dev nD) :
    o 6 main_v64_0 c = Cert.ReferenceIdeal.RefVals.H2 m' c ∧ o 6 main_v64_1 c = Cert.ReferenceIdeal.RefVals.H2 m' c := by
  have e : Cert.Spec.mlp (V5 m o c main_v53) (V5 m o c main_v42_0) (V5 m o c main_v55) (V5 m o c main_v62) (V5 m o c main_v59) (V5 m o c main_v63) = Cert.ReferenceIdeal.RefVals.H2 m' c := by
    rw [v53_eq, v42_0_V5, v55_eq, v62_eq, v59_eq, v63_eq, (layer1 m m' o hag ho c).1, (layer1 m m' o hag ho c).2, KSeg_eq m m' hag c, w1k1_eq m m' hag c, b1k1_eq m m' hag c, w2k1_eq m m' hag c, b2k1_eq m m' hag c]
    rfl
  exact ⟨(ho.v64_0 c).trans ((Cert.KernelIdeal.ValMlp1.arr1_6 (fun c b => V5 m o c b) c).trans e),
    (ho.v64_1 c).trans ((Cert.KernelIdeal.ValMlp1.arr1_7 (fun c b => V5 m o c b) c).trans e)⟩

set_option maxHeartbeats 1000000 in
/-- Region 2 leaves the third layer. -/
theorem layer3 (hag : Agree m m') (ho : OutsAre m o) (c : Dev nD) :
    o 8 main_v86_0 c = Cert.ReferenceIdeal.RefVals.H3 m' c ∧ o 8 main_v86_1 c = Cert.ReferenceIdeal.RefVals.H3 m' c := by
  have e : Cert.Spec.mlp (V7 m o c main_v75) (V7 m o c main_v64_0) (V7 m o c main_v77) (V7 m o c main_v84) (V7 m o c main_v81) (V7 m o c main_v85) = Cert.ReferenceIdeal.RefVals.H3 m' c := by
    rw [v75_eq, v64_0_V7, v77_eq, v84_eq, v81_eq, v85_eq, (layer2 m m' o hag ho c).1, (layer2 m m' o hag ho c).2, KSeg_eq m m' hag c, w1k2_eq m m' hag c, b1k2_eq m m' hag c, w2k2_eq m m' hag c, b2k2_eq m m' hag c]
    rfl
  exact ⟨(ho.v86_0 c).trans ((Cert.KernelIdeal.ValMlp2.arr2_6 (fun c b => V7 m o c b) c).trans e),
    (ho.v86_1 c).trans ((Cert.KernelIdeal.ValMlp2.arr2_7 (fun c b => V7 m o c b) c).trans e)⟩

/-! ## The per-graph sums -/

/-- Region 3 leaves the per-graph sums of layer 1. -/
theorem pool1 (hag : Agree m m') (ho : OutsAre m o) (c : Dev nD) :
    o 10 main_v88 c = Cert.Spec.pool (Cert.ReferenceIdeal.RefVals.batchCol m' c) (Cert.ReferenceIdeal.RefVals.H1 m' c) := by
  have e : Cert.Spec.pool (V9 m o c main_v4) (V9 m o c main_v42_0) = Cert.Spec.pool (Cert.ReferenceIdeal.RefVals.batchCol m' c) (Cert.ReferenceIdeal.RefVals.H1 m' c) := by
    rw [v4_V9, v42_0_V9, batchCol_eq m m' hag c, (layer1 m m' o hag ho c).1]
  exact (ho.v88 c).trans ((Cert.KernelIdeal.ValPool3.arr3_2 (fun c b => V9 m o c b) c).trans e)

/-- Region 4 leaves the per-graph sums of layer 2. -/
theorem pool2 (hag : Agree m m') (ho : OutsAre m o) (c : Dev nD) :
    o 11 main_v89 c = Cert.Spec.pool (Cert.ReferenceIdeal.RefVals.batchCol m' c) (Cert.ReferenceIdeal.RefVals.H2 m' c) := by
  have e : Cert.Spec.pool (V10 m o c main_v4) (V10 m o c main_v64_0) = Cert.Spec.pool (Cert.ReferenceIdeal.RefVals.batchCol m' c) (Cert.ReferenceIdeal.RefVals.H2 m' c) := by
    rw [v4_V10, v64_0_V10, batchCol_eq m m' hag c, (layer2 m m' o hag ho c).1]
  exact (ho.v89 c).trans ((Cert.KernelIdeal.ValPool4.arr4_2 (fun c b => V10 m o c b) c).trans e)

/-- Region 5 leaves the per-graph sums of layer 3. -/
theorem pool3 (hag : Agree m m') (ho : OutsAre m o) (c : Dev nD) :
    o 12 main_v90 c = Cert.Spec.pool (Cert.ReferenceIdeal.RefVals.batchCol m' c) (Cert.ReferenceIdeal.RefVals.H3 m' c) := by
  have e : Cert.Spec.pool (V11 m o c main_v4) (V11 m o c main_v86_0) = Cert.Spec.pool (Cert.ReferenceIdeal.RefVals.batchCol m' c) (Cert.ReferenceIdeal.RefVals.H3 m' c) := by
    rw [v4_V11, v86_0_V11, batchCol_eq m m' hag c, (layer3 m m' o hag ho c).1]
  exact (ho.v90 c).trans ((Cert.KernelIdeal.ValPool5.arr5_2 (fun c b => V11 m o c b) c).trans e)

/-! ## The two results -/

/-- The node result: the three layers side by side, as the reference returns them. -/
theorem out1_eq (hag : Agree m m') (ho : OutsAre m o) (c : Dev nD) :
    V13 m o c main_v87 = Cert.ReferenceIdeal.Value.res_main_v107 m' c := by
  rw [v87_V13, Cert.ReferenceIdeal.RefVals.res_out1_eq, (layer1 m m' o hag ho c).1, (layer2 m m' o hag ho c).1, (layer3 m m' o hag ho c).1]

/-- The graph result: the three layers' per-graph sums side by side. -/
theorem out0_eq (hag : Agree m m') (ho : OutsAre m o) (c : Dev nD) :
    V13 m o c main_v91 = Cert.ReferenceIdeal.Value.res_main_v106 m' c := by
  rw [v91_V13, Cert.ReferenceIdeal.RefVals.res_out0_eq, pool1 m m' o hag ho c, pool2 m m' o hag ho c, pool3 m m' o hag ho c]

end Cert.Proof.Bridge

end
-- ==== Proof.lean ====
/-
  The certificate's five claims for the three-layer graph network.

  Each layer adds to every node its neighbours' features — a sum over the edge list — and passes the sum through
  a two-layer perceptron; the graph features are the per-graph sums of the node features.  The kernel sorts the
  edge list by destination before it sums, works block by block on 2000 nodes at a time, reads the neighbours'
  features from a copy in a shorter float format, and pools by a product with a one-hot matrix accumulated over
  the blocks.  Over the extended reals none of this changes a value: a finite sum does not depend on the order
  of its terms, a change of float format is the identity, and a product with a one-hot row picks out the rows
  of one graph.  So both programs end with the same two arrays (`Bridge.out0_eq`, `Bridge.out1_eq`).

  The three frame claims: the kernel's two programs run through their six regions (`Gen.frame`, from the run
  that reads every buffer at the end), the reference through its straight-line host program.
-/
import proofs.«428858_j8770323218938_3_alg».proof.Defs
import proofs.«428858_j8770323218938_3_alg».proof.Proof.Gen.Kernel
import proofs.«428858_j8770323218938_3_alg».proof.Proof.Gen.KernelIdeal
import proofs.«428858_j8770323218938_3_alg».proof.Proof.Gen.ReferenceIdeal
import proofs.«428858_j8770323218938_3_alg».proof.Proof.Gen.Pre_finite_inputs
import proofs.«428858_j8770323218938_3_alg».proof.Proof.Gen.ReferenceIdeal.Run
import proofs.«428858_j8770323218938_3_alg».proof.Proof.K.Run
import proofs.«428858_j8770323218938_3_alg».proof.Proof.KI.Run
import proofs.«428858_j8770323218938_3_alg».proof.Proof.Bridge
import Idealize.ShloMosaic.Adequacy
import Idealize.ShloMosaic.Init

noncomputable section

namespace Cert.Proof

open Idealize.ShloMosaic Idealize.SL.Sem

/-- The word-level kernel runs to the end and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight-line host program: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the reference's two result terms: the kernel's run leaves every buffer at the
    valuation after its last item, whose two results are those terms by the bridge. -/
theorem algebraic : Cert.algebraic_KernelIdeal_ReferenceIdeal := by
  intro m ρ m' ρ' _ hag
  refine ⟨fun c => Cert.ReferenceIdeal.Value.res_main_v106 (F := Ideal) m' c,
    fun c => Cert.ReferenceIdeal.Value.res_main_v107 (F := Ideal) m' c, ?_, ?_⟩
  · refine (θ_run Cert.KernelIdeal.defs _ _).mono (fun r h c => ?_) (Cert.KernelIdeal.Gen.run_all (F := Ideal) m ρ)
    have ho : Bridge.OutsAre m (Cert.KernelIdeal.Gen.outs (F := Ideal) m) :=
      ⟨Cert.KernelIdeal.Gen.outs_v42_0 m, Cert.KernelIdeal.Gen.outs_v42_1 m, Cert.KernelIdeal.Gen.outs_v64_0 m,
        Cert.KernelIdeal.Gen.outs_v64_1 m, Cert.KernelIdeal.Gen.outs_v86_0 m, Cert.KernelIdeal.Gen.outs_v86_1 m,
        Cert.KernelIdeal.Gen.outs_v88 m, Cert.KernelIdeal.Gen.outs_v89 m, Cert.KernelIdeal.Gen.outs_v90 m⟩
    have hmem : ∀ b : Ref Cert.KernelIdeal.sig .tc, ¬ (Proc.devRef .tc b : DevRef Cert.KernelIdeal.τ Cert.KernelIdeal.sig).isScoped →
        Proc.devRef .tc b ∈ Pipeline.ucRefs Cert.KernelIdeal.τ Cert.KernelIdeal.sig :=
      fun b hb => Finset.mem_filter.mpr ⟨StableHlo.devRef_mem_tcRefs b, hb⟩
    exact ⟨(h c _ (hmem Cert.KernelIdeal.main_v91 (by decide))).trans (Bridge.out0_eq m m' _ hag ho c),
      (h c _ (hmem Cert.KernelIdeal.main_v87 (by decide))).trans (Bridge.out1_eq m m' _ hag ho c),
      (h c _ (hmem Cert.KernelIdeal.main_arg0 (by decide))).trans (Cert.KernelIdeal.Gen.V13_main_arg0 m _ c),
      (h c _ (hmem Cert.KernelIdeal.main_arg1 (by decide))).trans (Cert.KernelIdeal.Gen.V13_main_arg1 m _ c),
      (h c _ (hmem Cert.KernelIdeal.main_arg2 (by decide))).trans (Cert.KernelIdeal.Gen.V13_main_arg2 m _ c),
      (h c _ (hmem Cert.KernelIdeal.main_arg3 (by decide))).trans (Cert.KernelIdeal.Gen.V13_main_arg3 m _ c),
      (h c _ (hmem Cert.KernelIdeal.main_arg4 (by decide))).trans (Cert.KernelIdeal.Gen.V13_main_arg4 m _ c),
      (h c _ (hmem Cert.KernelIdeal.main_arg5 (by decide))).trans (Cert.KernelIdeal.Gen.V13_main_arg5 m _ c),
      (h c _ (hmem Cert.KernelIdeal.main_arg6 (by decide))).trans (Cert.KernelIdeal.Gen.V13_main_arg6 m _ c)⟩
  · exact Cert.ReferenceIdeal.Value.run (F := Ideal) m' ρ'

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
